-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v66)) (v1 : (c : Dev Cert.KernelIdeal.nD) → Buf (Elt Ideal) ((c.tc : Thread Cert.KernelIdeal.nD Cert.KernelIdeal.τ).loc Cert.KernelIdeal.main_v49_0)) (v2 : (c : Dev Cert.KernelIdeal.nD) → Buf (Elt Ideal) ((c.tc : Thread Cert.KernelIdeal.nD Cert.KernelIdeal.τ).loc Cert.KernelIdeal.main_v49_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_v49_0) = v1 c
          ∧ r.2.mem ((c.tc : Thread Cert.KernelIdeal.nD Cert.KernelIdeal.τ).loc Cert.KernelIdeal.main_v49_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v73) = v1 c
          ∧ r.2.mem ((c.tc : Thread Cert.ReferenceIdeal.nD Cert.ReferenceIdeal.τ).loc Cert.ReferenceIdeal.main_v78) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S100000x2 : Shape := ⟨2, ![100000, 2]⟩
abbrev S4 : Shape := ⟨1, ![4]⟩
abbrev S32x8 : Shape := ⟨2, ![32, 8]⟩
abbrev S32 : Shape := ⟨1, ![32]⟩
abbrev S32x32 : Shape := ⟨2, ![32, 32]⟩
abbrev S2x32 : Shape := ⟨2, ![2, 32]⟩
abbrev S2 : Shape := ⟨1, ![2]⟩
abbrev S32x4 : Shape := ⟨2, ![32, 4]⟩
abbrev S4x32 : Shape := ⟨2, ![4, 32]⟩
abbrev S2x3200000 : Shape := ⟨2, ![2, 3200000]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S100000x2 : S_.BroadcastsInDim S100000x2 (![] : Fin 0 → Fin S100000x2.rank)
  reducesTo_S100000x2_S_d0_1 : S100000x2.ReducesTo [0, 1] S_
  bcast_S_S4 : S_.BroadcastsInDim S4 (![] : Fin 0 → Fin S4.rank)
  reducesTo_S4_S_d0 : S4.ReducesTo [0] S_
  bcast_S_S32x8 : S_.BroadcastsInDim S32x8 (![] : Fin 0 → Fin S32x8.rank)
  reducesTo_S32x8_S_d0_1 : S32x8.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S2x32 : S_.BroadcastsInDim S2x32 (![] : Fin 0 → Fin S2x32.rank)
  reducesTo_S2x32_S_d0_1 : S2x32.ReducesTo [0, 1] S_
  bcast_S_S2 : S_.BroadcastsInDim S2 (![] : Fin 0 → Fin S2.rank)
  reducesTo_S2_S_d0 : S2.ReducesTo [0] S_
  bcast_S_S32x4 : S_.BroadcastsInDim S32x4 (![] : Fin 0 → Fin S32x4.rank)
  reducesTo_S32x4_S_d0_1 : S32x4.ReducesTo [0, 1] S_
  bcast_S_S4x32 : S_.BroadcastsInDim S4x32 (![] : Fin 0 → Fin S4x32.rank)
  reducesTo_S4x32_S_d0_1 : S4x32.ReducesTo [0, 1] S_
  bcast_S_S2x3200000 : S_.BroadcastsInDim S2x3200000 (![] : Fin 0 → Fin S2x3200000.rank)
  reducesTo_S2x3200000_S_d0_1 : S2x3200000.ReducesTo [0, 1] S_

variable [Facts]

def fn_part5 {F : FTy → Type} [FloatOps F] (main_arg18 : IVec S2x3200000 32) (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  let main_c_34 : IVec S_ 32 := constantI S_ 32 0#32
  let main_v89 : IVec S2x3200000 32 := broadcastInDim S2x3200000 ![] bcast_S_S2x3200000 main_c_34
  let main_v90 : IVec S2x3200000 1 := cmpi .sge main_arg18 main_v89
  let main_c_35 : IVec S_ 1 := constantI S_ 1 1#1
  let main_v91 : IVec S_ 1 := (fun x v => Host.reduce IntOp.andi x v reducesTo_S2x3200000_S_d0_1 h_S_) main_v90 main_c_35
  let main_v92 : IVec S_ 1 := andi main_v88 main_v91
  let main_c_36 : IVec S_ 32 := constantI S_ 32 100000#32
  let main_v93 : IVec S2x3200000 32 := broadcastInDim S2x3200000 ![] bcast_S_S2x3200000 main_c_36
  let main_v94 : IVec S2x3200000 1 := cmpi .slt main_arg18 main_v93
  let main_c_37 : IVec S_ 1 := constantI S_ 1 1#1
  let main_v95 : IVec S_ 1 := (fun x v => Host.reduce IntOp.andi x v reducesTo_S2x3200000_S_d0_1 h_S_) main_v94 main_c_37
  let main_v96 : IVec S_ 1 := andi main_v92 main_v95
  main_v96

def fn_part4 {F : FTy → Type} [FloatOps F] (main_arg14 : FVec F S32x32 .f32) (main_arg15 : FVec F S32 .f32) (main_arg16 : FVec F S4x32 .f32) (main_arg17 : FVec F S4 .f32) (main_arg18 : IVec S2x3200000 32) (main_v63 : IVec S_ 1) (main_v67 : IVec S_ 1) : IVec S_ 1 :=
  let main_v68 : IVec S_ 1 := andi main_v63 main_v67
  let main_v69 : FVec F S32x32 .f32 := Host.absf main_arg14
  let main_cst_26 : FVec F S_ .f32 := constant S_ .f32 0x7F800000#32
  let main_v70 : FVec F S32x32 .f32 := broadcastInDim S32x32 ![] bcast_S_S32x32 main_cst_26
  let main_v71 : IVec S32x32 1 := cmpf .olt main_v69 main_v70
  let main_c_27 : IVec S_ 1 := constantI S_ 1 1#1
  let main_v72 : IVec S_ 1 := (fun x v => Host.reduce IntOp.andi x v reducesTo_S32x32_S_d0_1 h_S_) main_v71 main_c_27
  let main_v73 : IVec S_ 1 := andi main_v68 main_v72
  let main_v74 : FVec F S32 .f32 := Host.absf main_arg15
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S4x32 .f32 := Host.absf main_arg16
  let main_cst_30 : FVec F S_ .f32 := constant S_ .f32 0x7F800000#32
  let main_v80 : FVec F S4x32 .f32 := broadcastInDim S4x32 ![] bcast_S_S4x32 main_cst_30
  let main_v81 : IVec S4x32 1 := cmpf .olt main_v79 main_v80
  let main_c_31 : IVec S_ 1 := constantI S_ 1 1#1
  let main_v82 : IVec S_ 1 := (fun x v => Host.reduce IntOp.andi x v reducesTo_S4x32_S_d0_1 h_S_) main_v81 main_c_31
  let main_v83 : IVec S_ 1 := andi main_v78 main_v82
  let main_v84 : FVec F S4 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S2 .f32) (main_arg12 : FVec F S32x4 .f32) (main_arg13 : FVec F S32 .f32) (main_arg14 : FVec F S32x32 .f32) (main_arg15 : FVec F S32 .f32) (main_arg16 : FVec F S4x32 .f32) (main_arg17 : FVec F S4 .f32) (main_arg18 : IVec S2x3200000 32) (main_v48 : IVec S_ 1) (main_v49 : FVec F S2x32 .f32) (main_v50 : FVec F S2x32 .f32) : IVec S_ 1 :=
  let main_v51 : IVec S2x32 1 := cmpf .olt main_v49 main_v50
  let main_c_19 : IVec S_ 1 := constantI S_ 1 1#1
  let main_v52 : IVec S_ 1 := (fun x v => Host.reduce IntOp.andi x v reducesTo_S2x32_S_d0_1 h_S_) main_v51 main_c_19
  let main_v53 : IVec S_ 1 := andi main_v48 main_v52
  let main_v54 : FVec F S2 .f32 := Host.absf main_arg11
  let main_cst_20 : FVec F S_ .f32 := constant S_ .f32 0x7F800000#32
  let main_v55 : FVec F S2 .f32 := broadcastInDim S2 ![] bcast_S_S2 main_cst_20
  let main_v56 : IVec S2 1 := cmpf .olt main_v54 main_v55
  let main_c_21 : IVec S_ 1 := constantI S_ 1 1#1
  let main_v57 : IVec S_ 1 := (fun x v => Host.reduce IntOp.andi x v reducesTo_S2_S_d0 h_S_) main_v56 main_c_21
  let main_v58 : IVec S_ 1 := andi main_v53 main_v57
  let main_v59 : FVec F S32x4 .f32 := Host.absf main_arg12
  let main_cst_22 : FVec F S_ .f32 := constant S_ .f32 0x7F800000#32
  let main_v60 : FVec F S32x4 .f32 := broadcastInDim S32x4 ![] bcast_S_S32x4 main_cst_22
  let main_v61 : IVec S32x4 1 := cmpf .olt main_v59 main_v60
  let main_c_23 : IVec S_ 1 := constantI S_ 1 1#1
  let main_v62 : IVec S_ 1 := (fun x v => Host.reduce IntOp.andi x v reducesTo_S32x4_S_d0_1 h_S_) main_v61 main_c_23
  let main_v63 : IVec S_ 1 := andi main_v58 main_v62
  let main_v64 : FVec F S32 .f32 := Host.absf main_arg13
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg14 main_arg15 main_arg16 main_arg17 main_arg18 main_v63 main_v67

def fn_part2 {F : FTy → Type} [FloatOps F] (main_arg7 : FVec F S32 .f32) (main_arg8 : FVec F S2x32 .f32) (main_arg9 : FVec F S2 .f32) (main_arg10 : FVec F S2x32 .f32) (main_arg11 : FVec F S2 .f32) (main_arg12 : FVec F S32x4 .f32) (main_arg13 : FVec F S32 .f32) (main_arg14 : FVec F S32x32 .f32) (main_arg15 : FVec F S32 .f32) (main_arg16 : FVec F S4x32 .f32) (main_arg17 : FVec F S4 .f32) (main_arg18 : IVec S2x3200000 32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S2x32 .f32 := Host.absf main_arg8
  let main_cst_14 : FVec F S_ .f32 := constant S_ .f32 0x7F800000#32
  let main_v40 : FVec F S2x32 .f32 := broadcastInDim S2x32 ![] bcast_S_S2x32 main_cst_14
  let main_v41 : IVec S2x32 1 := cmpf .olt main_v39 main_v40
  let main_c_15 : IVec S_ 1 := constantI S_ 1 1#1
  let main_v42 : IVec S_ 1 := (fun x v => Host.reduce IntOp.andi x v reducesTo_S2x32_S_d0_1 h_S_) main_v41 main_c_15
  let main_v43 : IVec S_ 1 := andi main_v38 main_v42
  let main_v44 : FVec F S2 .f32 := Host.absf main_arg9
  let main_cst_16 : FVec F S_ .f32 := constant S_ .f32 0x7F800000#32
  let main_v45 : FVec F S2 .f32 := broadcastInDim S2 ![] bcast_S_S2 main_cst_16
  let main_v46 : IVec S2 1 := cmpf .olt main_v44 main_v45
  let main_c_17 : IVec S_ 1 := constantI S_ 1 1#1
  let main_v47 : IVec S_ 1 := (fun x v => Host.reduce IntOp.andi x v reducesTo_S2_S_d0 h_S_) main_v46 main_c_17
  let main_v48 : IVec S_ 1 := andi main_v43 main_v47
  let main_v49 : FVec F S2x32 .f32 := Host.absf main_arg10
  let main_cst_18 : FVec F S_ .f32 := constant S_ .f32 0x7F800000#32
  let main_v50 : FVec F S2x32 .f32 := broadcastInDim S2x32 ![] bcast_S_S2x32 main_cst_18
  fn_part3 (F := F) main_arg11 main_arg12 main_arg13 main_arg14 main_arg15 main_arg16 main_arg17 main_arg18 main_v48 main_v49 main_v50

def fn_part1 {F : FTy → Type} [FloatOps F] (main_arg4 : FVec F S32x8 .f32) (main_arg5 : FVec F S32 .f32) (main_arg6 : FVec F S32x32 .f32) (main_arg7 : FVec F S32 .f32) (main_arg8 : FVec F S2x32 .f32) (main_arg9 : FVec F S2 .f32) (main_arg10 : FVec F S2x32 .f32) (main_arg11 : FVec F S2 .f32) (main_arg12 : FVec F S32x4 .f32) (main_arg13 : FVec F S32 .f32) (main_arg14 : FVec F S32x32 .f32) (main_arg15 : FVec F S32 .f32) (main_arg16 : FVec F S4x32 .f32) (main_arg17 : FVec F S4 .f32) (main_arg18 : IVec S2x3200000 32) (main_v13 : IVec S_ 1) (main_v16 : IVec S4 1) : IVec S_ 1 :=
  let main_c_5 : IVec S_ 1 := constantI S_ 1 1#1
  let main_v17 : IVec S_ 1 := (fun x v => Host.reduce IntOp.andi x v reducesTo_S4_S_d0 h_S_) main_v16 main_c_5
  let main_v18 : IVec S_ 1 := andi main_v13 main_v17
  let main_v19 : FVec F S32x8 .f32 := Host.absf main_arg4
  let main_cst_6 : FVec F S_ .f32 := constant S_ .f32 0x7F800000#32
  let main_v20 : FVec F S32x8 .f32 := broadcastInDim S32x8 ![] bcast_S_S32x8 main_cst_6
  let main_v21 : IVec S32x8 1 := cmpf .olt main_v19 main_v20
  let main_c_7 : IVec S_ 1 := constantI S_ 1 1#1
  let main_v22 : IVec S_ 1 := (fun x v => Host.reduce IntOp.andi x v reducesTo_S32x8_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg6
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S100000x4 .f32) (main_arg1 : FVec F S100000x2 .f32) (main_arg2 : FVec F S4 .f32) (main_arg3 : FVec F S4 .f32) (main_arg4 : FVec F S32x8 .f32) (main_arg5 : FVec F S32 .f32) (main_arg6 : FVec F S32x32 .f32) (main_arg7 : FVec F S32 .f32) (main_arg8 : FVec F S2x32 .f32) (main_arg9 : FVec F S2 .f32) (main_arg10 : FVec F S2x32 .f32) (main_arg11 : FVec F S2 .f32) (main_arg12 : FVec F S32x4 .f32) (main_arg13 : FVec F S32 .f32) (main_arg14 : FVec F S32x32 .f32) (main_arg15 : FVec F S32 .f32) (main_arg16 : FVec F S4x32 .f32) (main_arg17 : FVec F S4 .f32) (main_arg18 : IVec S2x3200000 32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S100000x2 .f32 := Host.absf main_arg1
  let main_cst_0 : FVec F S_ .f32 := constant S_ .f32 0x7F800000#32
  let main_v5 : FVec F S100000x2 .f32 := broadcastInDim S100000x2 ![] bcast_S_S100000x2 main_cst_0
  let main_v6 : IVec S100000x2 1 := cmpf .olt main_v4 main_v5
  let main_c_1 : IVec S_ 1 := constantI S_ 1 1#1
  let main_v7 : IVec S_ 1 := (fun x v => Host.reduce IntOp.andi x v reducesTo_S100000x2_S_d0_1 h_S_) main_v6 main_c_1
  let main_v8 : IVec S_ 1 := andi main_v3 main_v7
  let main_v9 : FVec F S4 .f32 := Host.absf main_arg2
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4 .f32 := Host.absf main_arg3
  let main_cst_4 : FVec F S_ .f32 := constant S_ .f32 0x7F800000#32
  let main_v15 : FVec F S4 .f32 := broadcastInDim S4 ![] bcast_S_S4 main_cst_4
  let main_v16 : IVec S4 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S100000x4 : Shape := ⟨2, ![100000, 4]⟩
abbrev S100000x2 : Shape := ⟨2, ![100000, 2]⟩
abbrev S4 : Shape := ⟨1, ![4]⟩
abbrev S32x8 : Shape := ⟨2, ![32, 8]⟩
abbrev S32 : Shape := ⟨1, ![32]⟩
abbrev S32x32 : Shape := ⟨2, ![32, 32]⟩
abbrev S2x32 : Shape := ⟨2, ![2, 32]⟩
abbrev S2 : Shape := ⟨1, ![2]⟩
abbrev S32x4 : Shape := ⟨2, ![32, 4]⟩
abbrev S4x32 : Shape := ⟨2, ![4, 32]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S1x4 : Shape := ⟨2, ![1, 4]⟩
abbrev S3200000x1 : Shape := ⟨2, ![3200000, 1]⟩
abbrev S1 : Shape := ⟨1, ![1]⟩
abbrev S1x1 : Shape := ⟨2, ![1, 1]⟩
abbrev S3200000x4 : Shape := ⟨2, ![3200000, 4]⟩
abbrev S1x32 : Shape := ⟨2, ![1, 32]⟩
abbrev S3200000x32 : Shape := ⟨2, ![3200000, 32]⟩
abbrev S8000x4 : Shape := ⟨2, ![8000, 4]⟩
abbrev S8000x32 : Shape := ⟨2, ![8000, 32]⟩
abbrev S100000x32 : Shape := ⟨2, ![100000, 32]⟩
abbrev S100000 : Shape := ⟨1, ![100000]⟩
abbrev S100000x1 : Shape := ⟨2, ![100000, 1]⟩
abbrev S32x2 : Shape := ⟨2, ![32, 2]⟩
abbrev S1x2 : Shape := ⟨2, ![1, 2]⟩
abbrev S5000x32 : Shape := ⟨2, ![5000, 32]⟩
abbrev S5000x2 : Shape := ⟨2, ![5000, 2]⟩
abbrev S3200000x2 : Shape := ⟨2, ![3200000, 2]⟩
abbrev S8000x2 : Shape := ⟨2, ![8000, 2]⟩

abbrev nBuf : Space → Nat
  | .hbm => 186
  | .vmem => 40
  | .smem => 0
  | _ => 0

abbrev hbmTy0_0 (i : Nat) : BufTy := match i % 128 with
  | 0 => ⟨S100000x4, .f32⟩
  | 1 => ⟨S100000x2, .f32⟩
  | 2 => ⟨S4, .f32⟩
  | 3 => ⟨S4, .f32⟩
  | 4 => ⟨S32x8, .f32⟩
  | 5 => ⟨S32, .f32⟩
  | 6 => ⟨S32x32, .f32⟩
  | 7 => ⟨S32, .f32⟩
  | 8 => ⟨S2x32, .f32⟩
  | 9 => ⟨S2, .f32⟩
  | 10 => ⟨S2x32, .f32⟩
  | 11 => ⟨S2, .f32⟩
  | 12 => ⟨S32x4, .f32⟩
  | 13 => ⟨S32, .f32⟩
  | 14 => ⟨S32x32, .f32⟩
  | 15 => ⟨S32, .f32⟩
  | 16 => ⟨S4x32, .f32⟩
  | 17 => ⟨S4, .f32⟩
  | 18 => ⟨S2x3200000, .i32⟩
  | 19 => ⟨S1x3200000, .i32⟩
  | 20 => ⟨S3200000, .i32⟩
  | 21 => ⟨S1x3200000, .i32⟩
  | 22 => ⟨S3200000, .i32⟩
  | 23 => ⟨S_, .f32⟩
  | 24 => ⟨S4, .f32⟩
  | 25 => ⟨S_, .f32⟩
  | 26 => ⟨S4, .f32⟩
  | 27 => ⟨S4, .f32⟩
  | 28 => ⟨S1x4, .f32⟩
  | 29 => ⟨S100000x4, .f32⟩
  | 30 => ⟨S100000x4, .f32⟩
  | 31 => ⟨S100000x4, .f32⟩
  | 32 => ⟨S_, .f32⟩
  | 33 => ⟨S4, .f32⟩
  | 34 => ⟨S_, .f32⟩
  | 35 => ⟨S4, .f32⟩
  | 36 => ⟨S4, .f32⟩
  | 37 => ⟨S_, .f32⟩
  | 38 => ⟨S4, .f32⟩
  | 39 => ⟨S4, .f32⟩
  | 40 => ⟨S4, .f32⟩
  | 41 => ⟨S4, .f32⟩
  | 42 => ⟨S1x4, .f32⟩
  | 43 => ⟨S4, .f32⟩
  | 44 => ⟨S4, .f32⟩
  | 45 => ⟨S4, .f32⟩
  | 46 => ⟨S1x4, .f32⟩
  | 47 => ⟨S_, .i32⟩
  | 48 => ⟨S3200000, .i32⟩
  | 49 => ⟨S3200000, .i1⟩
  | 50 => ⟨S_, .i32⟩
  | 51 => ⟨S3200000, .i32⟩
  | 52 => ⟨S3200000, .i32⟩
  | 53 => ⟨S3200000, .i32⟩
  | 54 => ⟨S3200000x1, .i32⟩
  | 55 => ⟨S1, .i32⟩
  | 56 => ⟨S_, .i32⟩
  | 57 => ⟨S3200000x1, .i32⟩
  | 58 => ⟨S3200000x1, .i1⟩
  | 59 => ⟨S1x1, .i32⟩
  | 60 => ⟨S3200000x1, .i32⟩
  | 61 => ⟨S3200000x1, .i1⟩
  | 62 => ⟨S3200000x1, .i1⟩
  | 63 => ⟨S_, .i1⟩
  | 64 => ⟨S3200000, .i1⟩
  | 65 => ⟨S3200000x4, .f32⟩
  | 66 => ⟨S3200000x4, .i1⟩
  | 67 => ⟨S_, .f32⟩
  | 68 => ⟨S3200000x4, .f32⟩
  | 69 => ⟨S3200000x4, .f32⟩
  | 70 => ⟨S_, .i32⟩
  | 71 => ⟨S3200000, .i32⟩
  | 72 => ⟨S3200000, .i1⟩
  | 73 => ⟨S_, .i32⟩
  | 74 => ⟨S3200000, .i32⟩
  | 75 => ⟨S3200000, .i32⟩
  | 76 => ⟨S3200000, .i32⟩
  | 77 => ⟨S3200000x1, .i32⟩
  | 78 => ⟨S1, .i32⟩
  | 79 => ⟨S_, .i32⟩
  | 80 => ⟨S3200000x1, .i32⟩
  | 81 => ⟨S3200000x1, .i1⟩
  | 82 => ⟨S1x1, .i32⟩
  | 83 => ⟨S3200000x1, .i32⟩
  | 84 => ⟨S3200000x1, .i1⟩
  | 85 => ⟨S3200000x1, .i1⟩
  | 86 => ⟨S_, .i1⟩
  | 87 => ⟨S3200000, .i1⟩
  | 88 => ⟨S3200000x4, .f32⟩
  | 89 => ⟨S3200000x4, .i1⟩
  | 90 => ⟨S_, .f32⟩
  | 91 => ⟨S3200000x4, .f32⟩
  | 92 => ⟨S3200000x4, .f32⟩
  | 93 => ⟨S32x4, .f32⟩
  | 94 => ⟨S4x32, .f32⟩
  | 95 => ⟨S32x4, .f32⟩
  | 96 => ⟨S4x32, .f32⟩
  | 97 => ⟨S32x32, .f32⟩
  | 98 => ⟨S1x32, .f32⟩
  | 99 => ⟨S1x32, .f32⟩
  | 100 => ⟨S3200000x32, .f32⟩
  | 101 => ⟨S_, .f32⟩
  | 102 => ⟨S3200000, .f32⟩
  | 103 => ⟨S_, .f32⟩
  | 104 => ⟨S100000x32, .f32⟩
  | 105 => ⟨S3200000x1, .i32⟩
  | 106 => ⟨S100000x32, .f32⟩
  | 107 => ⟨S_, .f32⟩
  | 108 => ⟨S100000, .f32⟩
  | 109 => ⟨S3200000x1, .i32⟩
  | 110 => ⟨S100000, .f32⟩
  | 111 => ⟨S_, .f32⟩
  | 112 => ⟨S100000, .f32⟩
  | 113 => ⟨S100000, .f32⟩
  | 114 => ⟨S100000x1, .f32⟩
  | 115 => ⟨S100000x32, .f32⟩
  | 116 => ⟨S100000x32, .f32⟩
  | 117 => ⟨S32x2, .f32⟩
  | 118 => ⟨S32x2, .f32⟩
  | 119 => ⟨S1x2, .f32⟩
  | 120 => ⟨S1x2, .f32⟩
  | 121 => ⟨S100000x2, .f32⟩
  | 122 => ⟨S100000x2, .f32⟩
  | 123 => ⟨S100000x2, .f32⟩
  | 124 => ⟨S_, .i32⟩
  | 125 => ⟨S3200000, .i32⟩
  | 126 => ⟨S3200000, .i1⟩
  | 127 => ⟨S_, .i32⟩
  | _ => ⟨S100000x4, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S1, .i32⟩
  | 5 => ⟨S_, .i32⟩
  | 6 => ⟨S3200000x1, .i32⟩
  | 7 => ⟨S3200000x1, .i1⟩
  | 8 => ⟨S1x1, .i32⟩
  | 9 => ⟨S3200000x1, .i32⟩
  | 10 => ⟨S3200000x1, .i1⟩
  | 11 => ⟨S3200000x1, .i1⟩
  | 12 => ⟨S_, .i1⟩
  | 13 => ⟨S3200000, .i1⟩
  | 14 => ⟨S3200000x2, .f32⟩
  | 15 => ⟨S3200000x2, .i1⟩
  | 16 => ⟨S_, .f32⟩
  | 17 => ⟨S3200000x2, .f32⟩
  | 18 => ⟨S3200000x2, .f32⟩
  | 19 => ⟨S_, .i32⟩
  | 20 => ⟨S3200000, .i32⟩
  | 21 => ⟨S3200000, .i1⟩
  | 22 => ⟨S_, .i32⟩
  | 23 => ⟨S3200000, .i32⟩
  | 24 => ⟨S3200000, .i32⟩
  | 25 => ⟨S3200000, .i32⟩
  | 26 => ⟨S3200000x1, .i32⟩
  | 27 => ⟨S1, .i32⟩
  | 28 => ⟨S_, .i32⟩
  | 29 => ⟨S3200000x1, .i32⟩
  | 30 => ⟨S3200000x1, .i1⟩
  | 31 => ⟨S1x1, .i32⟩
  | 32 => ⟨S3200000x1, .i32⟩
  | 33 => ⟨S3200000x1, .i1⟩
  | 34 => ⟨S3200000x1, .i1⟩
  | 35 => ⟨S_, .i1⟩
  | 36 => ⟨S3200000, .i1⟩
  | 37 => ⟨S3200000x2, .f32⟩
  | 38 => ⟨S3200000x2, .i1⟩
  | 39 => ⟨S_, .f32⟩
  | 40 => ⟨S3200000x2, .f32⟩
  | 41 => ⟨S3200000x2, .f32⟩
  | 42 => ⟨S32x2, .f32⟩
  | 43 => ⟨S2x32, .f32⟩
  | 44 => ⟨S32x2, .f32⟩
  | 45 => ⟨S2x32, .f32⟩
  | 46 => ⟨S32x32, .f32⟩
  | 47 => ⟨S32x4, .f32⟩
  | 48 => ⟨S1x32, .f32⟩
  | 49 => ⟨S1x32, .f32⟩
  | 50 => ⟨S1x4, .f32⟩
  | 51 => ⟨S3200000x4, .f32⟩
  | 52 => ⟨S_, .f32⟩
  | 53 => ⟨S100000x4, .f32⟩
  | 54 => ⟨S3200000x1, .i32⟩
  | 55 => ⟨S100000x4, .f32⟩
  | 56 => ⟨S100000x4, .f32⟩
  | 57 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S8000x4, .f32⟩
  | .local _ .vmem, ⟨1, _⟩ => ⟨S8000x4, .f32⟩
  | .local _ .vmem, ⟨2, _⟩ => ⟨S8000x4, .f32⟩
  | .local _ .vmem, ⟨3, _⟩ => ⟨S8000x4, .f32⟩
  | .local _ .vmem, ⟨4, _⟩ => ⟨S1x4, .f32⟩
  | .local _ .vmem, ⟨5, _⟩ => ⟨S1x4, .f32⟩
  | .local _ .vmem, ⟨6, _⟩ => ⟨S4x32, .f32⟩
  | .local _ .vmem, ⟨7, _⟩ => ⟨S4x32, .f32⟩
  | .local _ .vmem, ⟨8, _⟩ => ⟨S1x32, .f32⟩
  | .local _ .vmem, ⟨9, _⟩ => ⟨S32x32, .f32⟩
  | .local _ .vmem, ⟨10, _⟩ => ⟨S1x32, .f32⟩
  | .local _ .vmem, ⟨11, _⟩ => ⟨S8000x32, .f32⟩
  | .local _ .vmem, ⟨12, _⟩ => ⟨S8000x32, .f32⟩
  | .local _ .vmem, ⟨13, _⟩ => ⟨S5000x32, .f32⟩
  | .local _ .vmem, ⟨14, _⟩ => ⟨S5000x32, .f32⟩
  | .local _ .vmem, ⟨15, _⟩ => ⟨S5000x2, .f32⟩
  | .local _ .vmem, ⟨16, _⟩ => ⟨S5000x2, .f32⟩
  | .local _ .vmem, ⟨17, _⟩ => ⟨S32x2, .f32⟩
  | .local _ .vmem, ⟨18, _⟩ => ⟨S1x2, .f32⟩
  | .local _ .vmem, ⟨19, _⟩ => ⟨S32x2, .f32⟩
  | .local _ .vmem, ⟨20, _⟩ => ⟨S1x2, .f32⟩
  | .local _ .vmem, ⟨21, _⟩ => ⟨S5000x2, .f32⟩
  | .local _ .vmem, ⟨22, _⟩ => ⟨S5000x2, .f32⟩
  | .local _ .vmem, ⟨23, _⟩ => ⟨S5000x2, .f32⟩
  | .local _ .vmem, ⟨24, _⟩ => ⟨S5000x2, .f32⟩
  | .local _ .vmem, ⟨25, _⟩ => ⟨S5000x2, .f32⟩
  | .local _ .vmem, ⟨26, _⟩ => ⟨S5000x2, .f32⟩
  | .local _ .vmem, ⟨27, _⟩ => ⟨S8000x2, .f32⟩
  | .local _ .vmem, ⟨28, _⟩ => ⟨S8000x2, .f32⟩
  | .local _ .vmem, ⟨29, _⟩ => ⟨S8000x2, .f32⟩
  | .local _ .vmem, ⟨30, _⟩ => ⟨S8000x2, .f32⟩
  | .local _ .vmem, ⟨31, _⟩ => ⟨S2x32, .f32⟩
  | .local _ .vmem, ⟨32, _⟩ => ⟨S2x32, .f32⟩
  | .local _ .vmem, ⟨33, _⟩ => ⟨S1x32, .f32⟩
  | .local _ .vmem, ⟨34, _⟩ => ⟨S32x32, .f32⟩
  | .local _ .vmem, ⟨35, _⟩ => ⟨S1x32, .f32⟩
  | .local _ .vmem, ⟨36, _⟩ => ⟨S32x4, .f32⟩
  | .local _ .vmem, ⟨37, _⟩ => ⟨S1x4, .f32⟩
  | .local _ .vmem, ⟨38, _⟩ => ⟨S8000x4, .f32⟩
  | .local _ .vmem, ⟨39, _⟩ => ⟨S8000x4, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_cst_3 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_call0_c : Ref sig .tc := ⟨.hbm, 47, rfl⟩
abbrev main_call0_v0 : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_c_1 : Ref sig .tc := ⟨.hbm, 55, rfl⟩
abbrev main_call0_c_2 : Ref sig .tc := ⟨.hbm, 56, rfl⟩
abbrev main_call0_v6 : Ref sig .tc := ⟨.hbm, 57, rfl⟩
abbrev main_call0_v7 : Ref sig .tc := ⟨.hbm, 58, rfl⟩
abbrev main_call0_v8 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_c_3 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_call0_cst : Ref sig .tc := ⟨.hbm, 67, rfl⟩
abbrev main_call0_v15 : Ref sig .tc := ⟨.hbm, 68, rfl⟩
abbrev main_v23 : Ref sig .tc := ⟨.hbm, 69, rfl⟩
abbrev main_call1_c : Ref sig .tc := ⟨.hbm, 70, rfl⟩
abbrev main_call1_v0 : Ref sig .tc := ⟨.hbm, 71, rfl⟩
abbrev main_call1_v1 : Ref sig .tc := ⟨.hbm, 72, rfl⟩
abbrev main_call1_c_0 : Ref sig .tc := ⟨.hbm, 73, rfl⟩
abbrev main_call1_v2 : Ref sig .tc := ⟨.hbm, 74, rfl⟩
abbrev main_call1_v3 : Ref sig .tc := ⟨.hbm, 75, rfl⟩
abbrev main_call1_v4 : Ref sig .tc := ⟨.hbm, 76, rfl⟩
abbrev main_call1_v5 : Ref sig .tc := ⟨.hbm, 77, rfl⟩
abbrev main_call1_c_1 : Ref sig .tc := ⟨.hbm, 78, rfl⟩
abbrev main_call1_c_2 : Ref sig .tc := ⟨.hbm, 79, rfl⟩
abbrev main_call1_v6 : Ref sig .tc := ⟨.hbm, 80, rfl⟩
abbrev main_call1_v7 : Ref sig .tc := ⟨.hbm, 81, rfl⟩
abbrev main_call1_v8 : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_3 : Ref sig .tc := ⟨.hbm, 86, rfl⟩
abbrev main_call1_v12 : Ref sig .tc := ⟨.hbm, 87, rfl⟩
abbrev main_call1_v13 : Ref sig .tc := ⟨.hbm, 88, rfl⟩
abbrev main_call1_v14 : Ref sig .tc := ⟨.hbm, 89, rfl⟩
abbrev main_call1_cst : Ref sig .tc := ⟨.hbm, 90, rfl⟩
abbrev main_call1_v15 : Ref sig .tc := ⟨.hbm, 91, rfl⟩
abbrev main_v24 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_cst_4 : Ref sig .tc := ⟨.hbm, 101, rfl⟩
abbrev main_v33 : Ref sig .tc := ⟨.hbm, 102, rfl⟩
abbrev main_cst_5 : Ref sig .tc := ⟨.hbm, 103, rfl⟩
abbrev main_v34 : Ref sig .tc := ⟨.hbm, 104, rfl⟩
abbrev main_v35 : Ref sig .tc := ⟨.hbm, 105, rfl⟩
abbrev main_v36 : Ref sig .tc := ⟨.hbm, 106, rfl⟩
abbrev main_cst_6 : Ref sig .tc := ⟨.hbm, 107, rfl⟩
abbrev main_v37 : Ref sig .tc := ⟨.hbm, 108, rfl⟩
abbrev main_v38 : Ref sig .tc := ⟨.hbm, 109, rfl⟩
abbrev main_v39 : Ref sig .tc := ⟨.hbm, 110, rfl⟩
abbrev main_cst_7 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_v47 : Ref sig .tc := ⟨.hbm, 119, rfl⟩
abbrev main_v48 : Ref sig .tc := ⟨.hbm, 120, rfl⟩
abbrev main_v49_0 : Ref sig .tc := ⟨.hbm, 121, rfl⟩
abbrev main_v49_1 : Ref sig .tc := ⟨.hbm, 122, rfl⟩
abbrev main_v49_2 : Ref sig .tc := ⟨.hbm, 123, rfl⟩
abbrev main_call2_c : Ref sig .tc := ⟨.hbm, 124, rfl⟩
abbrev main_call2_v0 : Ref sig .tc := ⟨.hbm, 125, rfl⟩
abbrev main_call2_v1 : Ref sig .tc := ⟨.hbm, 126, rfl⟩
abbrev main_call2_c_0 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_c_1 : Ref sig .tc := ⟨.hbm, 132, rfl⟩
abbrev main_call2_c_2 : Ref sig .tc := ⟨.hbm, 133, rfl⟩
abbrev main_call2_v6 : Ref sig .tc := ⟨.hbm, 134, rfl⟩
abbrev main_call2_v7 : Ref sig .tc := ⟨.hbm, 135, rfl⟩
abbrev main_call2_v8 : Ref sig .tc := ⟨.hbm, 136, rfl⟩
abbrev main_call2_v9 : Ref sig .tc := ⟨.hbm, 137, rfl⟩
abbrev main_call2_v10 : Ref sig .tc := ⟨.hbm, 138, rfl⟩
abbrev main_call2_v11 : Ref sig .tc := ⟨.hbm, 139, rfl⟩
abbrev main_call2_c_3 : Ref sig .tc := ⟨.hbm, 140, rfl⟩
abbrev main_call2_v12 : Ref sig .tc := ⟨.hbm, 141, rfl⟩
abbrev main_call2_v13 : Ref sig .tc := ⟨.hbm, 142, rfl⟩
abbrev main_call2_v14 : Ref sig .tc := ⟨.hbm, 143, rfl⟩
abbrev main_call2_cst : Ref sig .tc := ⟨.hbm, 144, rfl⟩
abbrev main_call2_v15 : Ref sig .tc := ⟨.hbm, 145, rfl⟩
abbrev main_v50 : Ref sig .tc := ⟨.hbm, 146, rfl⟩
abbrev main_call3_c : Ref sig .tc := ⟨.hbm, 147, rfl⟩
abbrev main_call3_v0 : Ref sig .tc := ⟨.hbm, 148, rfl⟩
abbrev main_call3_v1 : Ref sig .tc := ⟨.hbm, 149, rfl⟩
abbrev main_call3_c_0 : Ref sig .tc := ⟨.hbm, 150, rfl⟩
abbrev main_call3_v2 : Ref sig .tc := ⟨.hbm, 151, rfl⟩
abbrev main_call3_v3 : Ref sig .tc := ⟨.hbm, 152, rfl⟩
abbrev main_call3_v4 : Ref sig .tc := ⟨.hbm, 153, rfl⟩
abbrev main_call3_v5 : Ref sig .tc := ⟨.hbm, 154, rfl⟩
abbrev main_call3_c_1 : Ref sig .tc := ⟨.hbm, 155, rfl⟩
abbrev main_call3_c_2 : Ref sig .tc := ⟨.hbm, 156, rfl⟩
abbrev main_call3_v6 : Ref sig .tc := ⟨.hbm, 157, rfl⟩
abbrev main_call3_v7 : Ref sig .tc := ⟨.hbm, 158, rfl⟩
abbrev main_call3_v8 : Ref sig .tc := ⟨.hbm, 159, rfl⟩
abbrev main_call3_v9 : Ref sig .tc := ⟨.hbm, 160, rfl⟩
abbrev main_call3_v10 : Ref sig .tc := ⟨.hbm, 161, rfl⟩
abbrev main_call3_v11 : Ref sig .tc := ⟨.hbm, 162, rfl⟩
abbrev main_call3_c_3 : Ref sig .tc := ⟨.hbm, 163, rfl⟩
abbrev main_call3_v12 : Ref sig .tc := ⟨.hbm, 164, rfl⟩
abbrev main_call3_v13 : Ref sig .tc := ⟨.hbm, 165, rfl⟩
abbrev main_call3_v14 : Ref sig .tc := ⟨.hbm, 166, rfl⟩
abbrev main_call3_cst : Ref sig .tc := ⟨.hbm, 167, rfl⟩
abbrev main_call3_v15 : Ref sig .tc := ⟨.hbm, 168, rfl⟩
abbrev main_v51 : Ref sig .tc := ⟨.hbm, 169, rfl⟩
abbrev main_v52 : Ref sig .tc := ⟨.hbm, 170, rfl⟩
abbrev main_v53 : Ref sig .tc := ⟨.hbm, 171, rfl⟩
abbrev main_v54 : Ref sig .tc := ⟨.hbm, 172, rfl⟩
abbrev main_v55 : Ref sig .tc := ⟨.hbm, 173, rfl⟩
abbrev main_v56 : Ref sig .tc := ⟨.hbm, 174, rfl⟩
abbrev main_v57 : Ref sig .tc := ⟨.hbm, 175, rfl⟩
abbrev main_v58 : Ref sig .tc := ⟨.hbm, 176, rfl⟩
abbrev main_v59 : Ref sig .tc := ⟨.hbm, 177, rfl⟩
abbrev main_v60 : Ref sig .tc := ⟨.hbm, 178, rfl⟩
abbrev main_v61 : Ref sig .tc := ⟨.hbm, 179, rfl⟩
abbrev main_cst_8 : Ref sig .tc := ⟨.hbm, 180, rfl⟩
abbrev main_v62 : Ref sig .tc := ⟨.hbm, 181, rfl⟩
abbrev main_v63 : Ref sig .tc := ⟨.hbm, 182, rfl⟩
abbrev main_v64 : Ref sig .tc := ⟨.hbm, 183, rfl⟩
abbrev main_v65 : Ref sig .tc := ⟨.hbm, 184, rfl⟩
abbrev main_v66 : Ref sig .tc := ⟨.hbm, 185, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg9_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc1_sem7_0 : DmaSem sig := 23
abbrev cc1_sem7_1 : DmaSem sig := 24
abbrev cc1_sem8_0 : DmaSem sig := 25
abbrev cc1_sem8_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem9_1 : DmaSem sig := 39

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x2 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x2 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x2 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![400], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x2 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S32x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S32x4 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x4 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S8000x4 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  shapeCasts_S4_S1x4 : S4.ShapeCasts S1x4
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x4_0 : S3200000.BroadcastsInDim S3200000x4 (![0] : Fin 1 → Fin S3200000x4.rank)
  bcast_S_S3200000x4 : S_.BroadcastsInDim S3200000x4 (![] : Fin 0 → Fin S3200000x4.rank)
  slices_S32x8_S32x4_0_0 : S32x8.Slices ![0, 0] S32x4
  transposes_S32x4_S4x32_1_0 : S32x4.Transposes [1, 0] S4x32
  slices_S32x8_S32x4_0_4 : S32x8.Slices ![0, 4] S32x4
  transposes_S32x32_S32x32_1_0 : S32x32.Transposes [1, 0] S32x32
  shapeCasts_S32_S1x32 : S32.ShapeCasts S1x32
  inb_S8000x4_S8000x4_0_0 : ∀ a, (![0, 0] : Fin 2 → Nat) a + S8000x4.size a ≤ S8000x4.size a
  h_S8000x4 : 0 < S8000x4.numel
  shapeCasts_S8000x4_S8000x4 : S8000x4.ShapeCasts S8000x4
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S8000x4 : S1x4.Broadcasts S8000x4
  inb_S4x32_S4x32_0_0 : ∀ a, (![0, 0] : Fin 2 → Nat) a + S4x32.size a ≤ S4x32.size a
  h_S4x32 : 0 < S4x32.numel
  shapeCasts_S4x32_S4x32 : S4x32.ShapeCasts S4x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S8000x32 : S1x32.Broadcasts S8000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S8000x32_S8000x32_0_0 : ∀ a, (![0, 0] : Fin 2 → Nat) a + S8000x32.size a ≤ S8000x32.size a
  h_S8000x32 : 0 < S8000x32.numel
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S2x32_S32x2_1_0 : S2x32.Transposes [1, 0] S32x2
  shapeCasts_S2_S1x2 : S2.ShapeCasts S1x2
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S32x2_S32x2_0_0 : ∀ a, (![0, 0] : Fin 2 → Nat) a + S32x2.size a ≤ S32x2.size a
  h_S32x2 : 0 < S32x2.numel
  shapeCasts_S32x2_S32x2 : S32x2.ShapeCasts S32x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  bcast_S3200000_S3200000x2_0 : S3200000.BroadcastsInDim S3200000x2 (![0] : Fin 1 → Fin S3200000x2.rank)
  bcast_S_S3200000x2 : S_.BroadcastsInDim S3200000x2 (![] : Fin 0 → Fin S3200000x2.rank)
  slices_S32x4_S32x2_0_0 : S32x4.Slices ![0, 0] S32x2
  transposes_S32x2_S2x32_1_0 : S32x2.Transposes [1, 0] S2x32
  slices_S32x4_S32x2_0_2 : S32x4.Slices ![0, 2] S32x2
  transposes_S4x32_S32x4_1_0 : S4x32.Transposes [1, 0] S32x4
  inb_S8000x2_S8000x2_0_0 : ∀ a, (![0, 0] : Fin 2 → Nat) a + S8000x2.size a ≤ S8000x2.size a
  h_S8000x2 : 0 < S8000x2.numel
  shapeCasts_S8000x2_S8000x2 : S8000x2.ShapeCasts S8000x2
  inb_S2x32_S2x32_0_0 : ∀ a, (![0, 0] : Fin 2 → Nat) a + S2x32.size a ≤ S2x32.size a
  h_S2x32 : 0 < S2x32.numel
  shapeCasts_S2x32_S2x32 : S2x32.ShapeCasts S2x32
  inb_S32x4_S32x4_0_0 : ∀ a, (![0, 0] : Fin 2 → Nat) a + S32x4.size a ≤ S32x4.size a
  h_S32x4 : 0 < S32x4.numel
  shapeCasts_S32x4_S32x4 : S32x4.ShapeCasts S32x4
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S8000x4_S4x32_S8000x32_1_0_0_1_n_n_wf : DotDims.WF S8000x4 S4x32 S8000x32 [1] [0] [0] [1] [] []
  dot_S8000x32_S32x32_S8000x32_1_0_0_1_n_n_wf : DotDims.WF S8000x32 S32x32 S8000x32 [1] [0] [0] [1] [] []
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S5000x32_S32x2_S5000x2_1_0_0_1_n_n_wf : DotDims.WF S5000x32 S32x2 S5000x2 [1] [0] [0] [1] [] []
  gather_S100000x2_S3200000x1_S3200000x2_1_0_n_n_0_1_12_wf : GatherDims.WF S100000x2 S3200000x1 S3200000x2 [1] [0] [] [0] [] 1 ![1, 2]
  dot_S8000x2_S2x32_S8000x32_1_0_0_1_n_n_wf : DotDims.WF S8000x2 S2x32 S8000x32 [1] [0] [0] [1] [] []
  dot_S8000x32_S32x4_S8000x4_1_0_0_1_n_n_wf : DotDims.WF S8000x32 S32x4 S8000x4 [1] [0] [0] [1] [] []
  scatter_S100000x4_S3200000x1_S3200000x4_1_0_0_1_wf : ScatterDims.WF S100000x4 S3200000x1 S3200000x4 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x4.size a ≤ S3200000x4.size a
  hwx0_0 : ∀ i : grid0.Coords, EltTy.bits .f32 = 32 ∨ (Rect.block (s := S3200000x4) S8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x4.size a ≤ S3200000x4.size a
  hwx0_1 : ∀ i : grid0.Coords, EltTy.bits .f32 = 32 ∨ (Rect.block (s := S3200000x4) S8000x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4.size a ≤ S1x4.size a
  hwx0_2 : ∀ i : grid0.Coords, EltTy.bits .f32 = 32 ∨ (Rect.block (s := S1x4) S1x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4.size a ≤ S1x4.size a
  hwx0_3 : ∀ i : grid0.Coords, EltTy.bits .f32 = 32 ∨ (Rect.block (s := S1x4) S1x4.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x32.size a ≤ S4x32.size a
  hwx0_4 : ∀ i : grid0.Coords, EltTy.bits .f32 = 32 ∨ (Rect.block (s := S4x32) S4x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x32.size a ≤ S4x32.size a
  hwx0_5 : ∀ i : grid0.Coords, EltTy.bits .f32 = 32 ∨ (Rect.block (s := S4x32) S4x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8000x32.size a ≤ S3200000x32.size a
  hwx0_9 : ∀ i : grid0.Coords, EltTy.bits .f32 = 32 ∨ (Rect.block (s := S3200000x32) S8000x32.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S100000x2.size a
  hwx1_1 : ∀ i : grid1.Coords, EltTy.bits .f32 = 32 ∨ (Rect.block (s := S100000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x2.size a ≤ S32x2.size a
  hwx1_2 : ∀ i : grid1.Coords, EltTy.bits .f32 = 32 ∨ (Rect.block (s := S32x2) S32x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x2.size a ≤ S32x2.size a
  hwx1_4 : ∀ i : grid1.Coords, EltTy.bits .f32 = 32 ∨ (Rect.block (s := S32x2) S32x2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2.size a ≤ S1x2.size a
  hwx1_5 : ∀ i : grid1.Coords, EltTy.bits .f32 = 32 ∨ (Rect.block (s := S1x2) S1x2.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x2.size a ≤ S100000x2.size a
  hwx1_6 : ∀ i : grid1.Coords, EltTy.bits .f32 = 32 ∨ (Rect.block (s := S100000x2) S5000x2.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x2.size a ≤ S100000x2.size a
  hwx1_7 : ∀ i : grid1.Coords, EltTy.bits .f32 = 32 ∨ (Rect.block (s := S100000x2) S5000x2.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x2.size a ≤ S100000x2.size a
  hwx1_8 : ∀ i : grid1.Coords, EltTy.bits .f32 = 32 ∨ (Rect.block (s := S100000x2) S5000x2.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x2.size a ≤ S3200000x2.size a
  hwx2_0 : ∀ i : grid2.Coords, EltTy.bits .f32 = 32 ∨ (Rect.block (s := S3200000x2) S8000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x2.size a ≤ S3200000x2.size a
  hwx2_1 : ∀ i : grid2.Coords, EltTy.bits .f32 = 32 ∨ (Rect.block (s := S3200000x2) S8000x2.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x32.size a ≤ S2x32.size a
  hwx2_2 : ∀ i : grid2.Coords, EltTy.bits .f32 = 32 ∨ (Rect.block (s := S2x32) S2x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2x32.size a ≤ S2x32.size a
  hwx2_3 : ∀ i : grid2.Coords, EltTy.bits .f32 = 32 ∨ (Rect.block (s := S2x32) S2x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x32.size a ≤ S1x32.size a
  hwx2_4 : ∀ i : grid2.Coords, EltTy.bits .f32 = 32 ∨ (Rect.block (s := S1x32) S1x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x32.size a ≤ S32x32.size a
  hwx2_5 : ∀ i : grid2.Coords, EltTy.bits .f32 = 32 ∨ (Rect.block (s := S32x32) S32x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S32x4.size a ≤ S32x4.size a
  hwx2_7 : ∀ i : grid2.Coords, EltTy.bits .f32 = 32 ∨ (Rect.block (s := S32x4) S32x4.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x4.size a ≤ S1x4.size a
  hwx2_8 : ∀ i : grid2.Coords, EltTy.bits .f32 = 32 ∨ (Rect.block (s := S1x4) S1x4.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S8000x4.size a ≤ S3200000x4.size a
  hwx2_9 : ∀ i : grid2.Coords, EltTy.bits .f32 = 32 ∨ (Rect.block (s := S3200000x4) S8000x4.size (cc2_transform_9 i) (hinb2_9 i)).WholeWords (EltTy.packing .f32)

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S8000x4_S4x32_S8000x32_1_0_0_1_n_n : DotDims S8000x4 S4x32 S8000x32 where
  lhsContracting := [1]
  rhsContracting := [0]
  lhsNonContracting := [0]
  rhsNonContracting := [1]
  lhsBatch := []
  rhsBatch := []
  wf := dot_S8000x4_S4x32_S8000x32_1_0_0_1_n_n_wf
def dot_S8000x32_S32x32_S8000x32_1_0_0_1_n_n : DotDims S8000x32 S32x32 S8000x32 where
  lhsContracting := [1]
  rhsContracting := [0]
  lhsNonContracting := [0]
  rhsNonContracting := [1]
  lhsBatch := []
  rhsBatch := []
  wf := dot_S8000x32_S32x32_S8000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S5000x32_S32x2_S5000x2_1_0_0_1_n_n : DotDims S5000x32 S32x2 S5000x2 where
  lhsContracting := [1]
  rhsContracting := [0]
  lhsNonContracting := [0]
  rhsNonContracting := [1]
  lhsBatch := []
  rhsBatch := []
  wf := dot_S5000x32_S32x2_S5000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S8000x2_S2x32_S8000x32_1_0_0_1_n_n : DotDims S8000x2 S2x32 S8000x32 where
  lhsContracting := [1]
  rhsContracting := [0]
  lhsNonContracting := [0]
  rhsNonContracting := [1]
  lhsBatch := []
  rhsBatch := []
  wf := dot_S8000x2_S2x32_S8000x32_1_0_0_1_n_n_wf
def dot_S8000x32_S32x4_S8000x4_1_0_0_1_n_n : DotDims S8000x32 S32x4 S8000x4 where
  lhsContracting := [1]
  rhsContracting := [0]
  lhsNonContracting := [0]
  rhsNonContracting := [1]
  lhsBatch := []
  rhsBatch := []
  wf := dot_S8000x32_S32x4_S8000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

abbrev win0_0 : Pipeline.Window sig grid0 :=
  Pipeline.Window.ofSpec (Memref.whole main_v23) S8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v24) S8000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x4.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S4x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S4x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v29) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v31) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v32) S8000x32.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v44) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S32x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S32x2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x2.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49_0) S5000x2.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v49_1) S5000x2.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v49_2) S5000x2.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v50) S8000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S8000x2.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v53) S2x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v58) S1x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S32x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v59) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v57) S32x4.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S1x4.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v61) S8000x4.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x4 : Shape := ⟨2, ![100000, 4]⟩
abbrev S100000x2 : Shape := ⟨2, ![100000, 2]⟩
abbrev S4 : Shape := ⟨1, ![4]⟩
abbrev S32x8 : Shape := ⟨2, ![32, 8]⟩
abbrev S32 : Shape := ⟨1, ![32]⟩
abbrev S32x32 : Shape := ⟨2, ![32, 32]⟩
abbrev S2x32 : Shape := ⟨2, ![2, 32]⟩
abbrev S2 : Shape := ⟨1, ![2]⟩
abbrev S32x4 : Shape := ⟨2, ![32, 4]⟩
abbrev S4x32 : Shape := ⟨2, ![4, 32]⟩
abbrev S2x3200000 : Shape := ⟨2, ![2, 3200000]⟩
abbrev S1x3200000 : Shape := ⟨2, ![1, 3200000]⟩
abbrev S3200000 : Shape := ⟨1, ![3200000]⟩
abbrev S_ : Shape := ⟨0, ![]⟩
abbrev S1x4 : Shape := ⟨2, ![1, 4]⟩
abbrev S3200000x1 : Shape := ⟨2, ![3200000, 1]⟩
abbrev S3200000x4 : Shape := ⟨2, ![3200000, 4]⟩
abbrev S3200000x8 : Shape := ⟨2, ![3200000, 8]⟩
abbrev S8x32 : Shape := ⟨2, ![8, 32]⟩
abbrev S3200000x32 : Shape := ⟨2, ![3200000, 32]⟩
abbrev S1x32 : Shape := ⟨2, ![1, 32]⟩
abbrev S100000x32 : Shape := ⟨2, ![100000, 32]⟩
abbrev S100000 : Shape := ⟨1, ![100000]⟩
abbrev S100000x1 : Shape := ⟨2, ![100000, 1]⟩
abbrev S32x2 : Shape := ⟨2, ![32, 2]⟩
abbrev S1x2 : Shape := ⟨2, ![1, 2]⟩
abbrev S3200000x2 : Shape := ⟨2, ![3200000, 2]⟩

abbrev nBuf : Space → Nat
  | .hbm => 178
  | .vmem => 0
  | .smem => 0
  | _ => 0

abbrev hbmTy0_0 (i : Nat) : BufTy := match i % 128 with
  | 0 => ⟨S100000x4, .f32⟩
  | 1 => ⟨S100000x2, .f32⟩
  | 2 => ⟨S4, .f32⟩
  | 3 => ⟨S4, .f32⟩
  | 4 => ⟨S32x8, .f32⟩
  | 5 => ⟨S32, .f32⟩
  | 6 => ⟨S32x32, .f32⟩
  | 7 => ⟨S32, .f32⟩
  | 8 => ⟨S2x32, .f32⟩
  | 9 => ⟨S2, .f32⟩
  | 10 => ⟨S2x32, .f32⟩
  | 11 => ⟨S2, .f32⟩
  | 12 => ⟨S32x4, .f32⟩
  | 13 => ⟨S32, .f32⟩
  | 14 => ⟨S32x32, .f32⟩
  | 15 => ⟨S32, .f32⟩
  | 16 => ⟨S4x32, .f32⟩
  | 17 => ⟨S4, .f32⟩
  | 18 => ⟨S2x3200000, .i32⟩
  | 19 => ⟨S1x3200000, .i32⟩
  | 20 => ⟨S3200000, .i32⟩
  | 21 => ⟨S1x3200000, .i32⟩
  | 22 => ⟨S3200000, .i32⟩
  | 23 => ⟨S_, .f32⟩
  | 24 => ⟨S4, .f32⟩
  | 25 => ⟨S_, .f32⟩
  | 26 => ⟨S4, .f32⟩
  | 27 => ⟨S4, .f32⟩
  | 28 => ⟨S1x4, .f32⟩
  | 29 => ⟨S100000x4, .f32⟩
  | 30 => ⟨S100000x4, .f32⟩
  | 31 => ⟨S100000x4, .f32⟩
  | 32 => ⟨S_, .f32⟩
  | 33 => ⟨S4, .f32⟩
  | 34 => ⟨S_, .f32⟩
  | 35 => ⟨S4, .f32⟩
  | 36 => ⟨S4, .f32⟩
  | 37 => ⟨S1x4, .f32⟩
  | 38 => ⟨S100000x4, .f32⟩
  | 39 => ⟨S100000x4, .f32⟩
  | 40 => ⟨S_, .f32⟩
  | 41 => ⟨S4, .f32⟩
  | 42 => ⟨S4, .f32⟩
  | 43 => ⟨S4, .f32⟩
  | 44 => ⟨S1x4, .f32⟩
  | 45 => ⟨S100000x4, .f32⟩
  | 46 => ⟨S100000x4, .f32⟩
  | 47 => ⟨S1x4, .f32⟩
  | 48 => ⟨S100000x4, .f32⟩
  | 49 => ⟨S100000x4, .f32⟩
  | 50 => ⟨S1x4, .f32⟩
  | 51 => ⟨S100000x4, .f32⟩
  | 52 => ⟨S100000x4, .f32⟩
  | 53 => ⟨S_, .i32⟩
  | 54 => ⟨S3200000, .i32⟩
  | 55 => ⟨S3200000, .i1⟩
  | 56 => ⟨S_, .i32⟩
  | 57 => ⟨S3200000, .i32⟩
  | 58 => ⟨S3200000, .i32⟩
  | 59 => ⟨S3200000, .i32⟩
  | 60 => ⟨S3200000x1, .i32⟩
  | 61 => ⟨S3200000x4, .f32⟩
  | 62 => ⟨S_, .i32⟩
  | 63 => ⟨S3200000, .i32⟩
  | 64 => ⟨S3200000, .i1⟩
  | 65 => ⟨S_, .i32⟩
  | 66 => ⟨S3200000, .i32⟩
  | 67 => ⟨S3200000, .i32⟩
  | 68 => ⟨S3200000, .i32⟩
  | 69 => ⟨S3200000x1, .i32⟩
  | 70 => ⟨S3200000x4, .f32⟩
  | 71 => ⟨S3200000x4, .f32⟩
  | 72 => ⟨S3200000x8, .f32⟩
  | 73 => ⟨S8x32, .f32⟩
  | 74 => ⟨S3200000x32, .f32⟩
  | 75 => ⟨S1x32, .f32⟩
  | 76 => ⟨S3200000x32, .f32⟩
  | 77 => ⟨S3200000x32, .f32⟩
  | 78 => ⟨S_, .f32⟩
  | 79 => ⟨S3200000x32, .f32⟩
  | 80 => ⟨S3200000x32, .f32⟩
  | 81 => ⟨S32x32, .f32⟩
  | 82 => ⟨S3200000x32, .f32⟩
  | 83 => ⟨S1x32, .f32⟩
  | 84 => ⟨S3200000x32, .f32⟩
  | 85 => ⟨S3200000x32, .f32⟩
  | 86 => ⟨S_, .f32⟩
  | 87 => ⟨S3200000x32, .f32⟩
  | 88 => ⟨S3200000x32, .f32⟩
  | 89 => ⟨S_, .f32⟩
  | 90 => ⟨S100000x32, .f32⟩
  | 91 => ⟨S3200000x1, .i32⟩
  | 92 => ⟨S100000x32, .f32⟩
  | 93 => ⟨S_, .f32⟩
  | 94 => ⟨S3200000, .f32⟩
  | 95 => ⟨S_, .f32⟩
  | 96 => ⟨S100000, .f32⟩
  | 97 => ⟨S3200000x1, .i32⟩
  | 98 => ⟨S100000, .f32⟩
  | 99 => ⟨S_, .f32⟩
  | 100 => ⟨S100000, .f32⟩
  | 101 => ⟨S100000, .f32⟩
  | 102 => ⟨S100000x1, .f32⟩
  | 103 => ⟨S100000x32, .f32⟩
  | 104 => ⟨S100000x32, .f32⟩
  | 105 => ⟨S32x2, .f32⟩
  | 106 => ⟨S100000x2, .f32⟩
  | 107 => ⟨S1x2, .f32⟩
  | 108 => ⟨S100000x2, .f32⟩
  | 109 => ⟨S100000x2, .f32⟩
  | 110 => ⟨S32x2, .f32⟩
  | 111 => ⟨S100000x2, .f32⟩
  | 112 => ⟨S1x2, .f32⟩
  | 113 => ⟨S100000x2, .f32⟩
  | 114 => ⟨S100000x2, .f32⟩
  | 115 => ⟨S_, .f32⟩
  | 116 => ⟨S100000x2, .f32⟩
  | 117 => ⟨S100000x2, .f32⟩
  | 118 => ⟨S100000x2, .f32⟩
  | 119 => ⟨S100000x2, .f32⟩
  | 120 => ⟨S100000x2, .f32⟩
  | 121 => ⟨S_, .i32⟩
  | 122 => ⟨S3200000, .i32⟩
  | 123 => ⟨S3200000, .i1⟩
  | 124 => ⟨S_, .i32⟩
  | 125 => ⟨S3200000, .i32⟩
  | 126 => ⟨S3200000, .i32⟩
  | 127 => ⟨S3200000, .i32⟩
  | _ => ⟨S100000x4, .f32⟩

abbrev hbmTy0_1 (i : Nat) : BufTy := match i % 128 with
  | 0 => ⟨S3200000x1, .i32⟩
  | 1 => ⟨S3200000x2, .f32⟩
  | 2 => ⟨S_, .i32⟩
  | 3 => ⟨S3200000, .i32⟩
  | 4 => ⟨S3200000, .i1⟩
  | 5 => ⟨S_, .i32⟩
  | 6 => ⟨S3200000, .i32⟩
  | 7 => ⟨S3200000, .i32⟩
  | 8 => ⟨S3200000, .i32⟩
  | 9 => ⟨S3200000x1, .i32⟩
  | 10 => ⟨S3200000x2, .f32⟩
  | 11 => ⟨S3200000x2, .f32⟩
  | 12 => ⟨S3200000x4, .f32⟩
  | 13 => ⟨S4x32, .f32⟩
  | 14 => ⟨S3200000x32, .f32⟩
  | 15 => ⟨S1x32, .f32⟩
  | 16 => ⟨S3200000x32, .f32⟩
  | 17 => ⟨S3200000x32, .f32⟩
  | 18 => ⟨S_, .f32⟩
  | 19 => ⟨S3200000x32, .f32⟩
  | 20 => ⟨S3200000x32, .f32⟩
  | 21 => ⟨S32x32, .f32⟩
  | 22 => ⟨S3200000x32, .f32⟩
  | 23 => ⟨S1x32, .f32⟩
  | 24 => ⟨S3200000x32, .f32⟩
  | 25 => ⟨S3200000x32, .f32⟩
  | 26 => ⟨S_, .f32⟩
  | 27 => ⟨S3200000x32, .f32⟩
  | 28 => ⟨S3200000x32, .f32⟩
  | 29 => ⟨S32x4, .f32⟩
  | 30 => ⟨S3200000x4, .f32⟩
  | 31 => ⟨S1x4, .f32⟩
  | 32 => ⟨S3200000x4, .f32⟩
  | 33 => ⟨S3200000x4, .f32⟩
  | 34 => ⟨S_, .f32⟩
  | 35 => ⟨S100000x4, .f32⟩
  | 36 => ⟨S3200000x1, .i32⟩
  | 37 => ⟨S100000x4, .f32⟩
  | 38 => ⟨S_, .f32⟩
  | 39 => ⟨S3200000, .f32⟩
  | 40 => ⟨S_, .f32⟩
  | 41 => ⟨S100000, .f32⟩
  | 42 => ⟨S3200000x1, .i32⟩
  | 43 => ⟨S100000, .f32⟩
  | 44 => ⟨S_, .f32⟩
  | 45 => ⟨S100000, .f32⟩
  | 46 => ⟨S100000, .f32⟩
  | 47 => ⟨S100000x1, .f32⟩
  | 48 => ⟨S100000x4, .f32⟩
  | 49 => ⟨S100000x4, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_cst : Ref sig .tc := ⟨.hbm, 23, rfl⟩
abbrev main_v4 : Ref sig .tc := ⟨.hbm, 24, rfl⟩
abbrev main_cst_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst_1 : Ref sig .tc := ⟨.hbm, 32, rfl⟩
abbrev main_v11 : Ref sig .tc := ⟨.hbm, 33, rfl⟩
abbrev main_cst_2 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_3 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_c_5 : Ref sig .tc := ⟨.hbm, 62, rfl⟩
abbrev main_v36 : Ref sig .tc := ⟨.hbm, 63, rfl⟩
abbrev main_v37 : Ref sig .tc := ⟨.hbm, 64, rfl⟩
abbrev main_c_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_call0_cst : Ref sig .tc := ⟨.hbm, 78, rfl⟩
abbrev main_call0_v0 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_call1_cst : Ref sig .tc := ⟨.hbm, 86, rfl⟩
abbrev main_call1_v0 : Ref sig .tc := ⟨.hbm, 87, rfl⟩
abbrev main_v56 : Ref sig .tc := ⟨.hbm, 88, rfl⟩
abbrev main_cst_7 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_cst_8 : Ref sig .tc := ⟨.hbm, 93, rfl⟩
abbrev main_v60 : Ref sig .tc := ⟨.hbm, 94, rfl⟩
abbrev main_cst_9 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_11 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_12 : Ref sig .tc := ⟨.hbm, 121, rfl⟩
abbrev main_v84 : Ref sig .tc := ⟨.hbm, 122, rfl⟩
abbrev main_v85 : Ref sig .tc := ⟨.hbm, 123, rfl⟩
abbrev main_c_13 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_14 : Ref sig .tc := ⟨.hbm, 130, rfl⟩
abbrev main_v91 : Ref sig .tc := ⟨.hbm, 131, rfl⟩
abbrev main_v92 : Ref sig .tc := ⟨.hbm, 132, rfl⟩
abbrev main_c_15 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_call2_cst : Ref sig .tc := ⟨.hbm, 146, rfl⟩
abbrev main_call2_v0 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_call3_cst : Ref sig .tc := ⟨.hbm, 154, rfl⟩
abbrev main_call3_v0 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_cst_16 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_cst_17 : Ref sig .tc := ⟨.hbm, 166, rfl⟩
abbrev main_v120 : Ref sig .tc := ⟨.hbm, 167, rfl⟩
abbrev main_cst_18 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_cst_19 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S100000x4_S4_d0 : S100000x4.ReducesTo [0] S4
  h_S_ : 0 < S_.numel
  bcast_S_S4 : S_.BroadcastsInDim S4 (![] : Fin 0 → Fin S4.rank)
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x4_S3200000x4_S3200000x8_d1 : Shape.Concatenates [S3200000x4, S3200000x4] S3200000x8 1
  transposes_S32x8_S8x32_1_0 : S32x8.Transposes [1, 0] S8x32
  bcast_S32_S1x32_1 : S32.BroadcastsInDim S1x32 (![1] : Fin 1 → Fin S1x32.rank)
  bcast_S1x32_S3200000x32_0_1 : S1x32.BroadcastsInDim S3200000x32 (![0, 1] : Fin 2 → Fin S3200000x32.rank)
  bcast_S_S3200000x32 : S_.BroadcastsInDim S3200000x32 (![] : Fin 0 → Fin S3200000x32.rank)
  transposes_S32x32_S32x32_1_0 : S32x32.Transposes [1, 0] S32x32
  bcast_S_S100000x32 : S_.BroadcastsInDim S100000x32 (![] : Fin 0 → Fin S100000x32.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  transposes_S2x32_S32x2_1_0 : S2x32.Transposes [1, 0] S32x2
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  bcast_S_S100000x2 : S_.BroadcastsInDim S100000x2 (![] : Fin 0 → Fin S100000x2.rank)
  concatenates_S3200000x2_S3200000x2_S3200000x4_d1 : Shape.Concatenates [S3200000x2, S3200000x2] S3200000x4 1
  transposes_S32x4_S4x32_1_0 : S32x4.Transposes [1, 0] S4x32
  transposes_S4x32_S32x4_1_0 : S4x32.Transposes [1, 0] S32x4
  bcast_S1x4_S3200000x4_0_1 : S1x4.BroadcastsInDim S3200000x4 (![0, 1] : Fin 2 → Fin S3200000x4.rank)
  bcast_S_S100000x4 : S_.BroadcastsInDim S100000x4 (![] : Fin 0 → Fin S100000x4.rank)
  bcast_S100000x1_S100000x4_0_1 : S100000x1.BroadcastsInDim S100000x4 (![0, 1] : Fin 2 → Fin S100000x4.rank)
  gather_S100000x4_S3200000x1_S3200000x4_1_0_n_n_0_1_14_wf : GatherDims.WF S100000x4 S3200000x1 S3200000x4 [1] [0] [] [0] [] 1 ![1, 4]
  dot_S3200000x8_S8x32_S3200000x32_1_0_0_1_n_n_wf : DotDims.WF S3200000x8 S8x32 S3200000x32 [1] [0] [0] [1] [] []
  dot_S3200000x32_S32x32_S3200000x32_1_0_0_1_n_n_wf : DotDims.WF S3200000x32 S32x32 S3200000x32 [1] [0] [0] [1] [] []
  scatter_S100000x32_S3200000x1_S3200000x32_1_0_0_1_wf : ScatterDims.WF S100000x32 S3200000x1 S3200000x32 [1] [0] [0] 1
  scatter_S100000_S3200000x1_S3200000_n_0_0_1_wf : ScatterDims.WF S100000 S3200000x1 S3200000 [] [0] [0] 1
  dot_S100000x32_S32x2_S100000x2_1_0_0_1_n_n_wf : DotDims.WF S100000x32 S32x2 S100000x2 [1] [0] [0] [1] [] []
  gather_S100000x2_S3200000x1_S3200000x2_1_0_n_n_0_1_12_wf : GatherDims.WF S100000x2 S3200000x1 S3200000x2 [1] [0] [] [0] [] 1 ![1, 2]
  dot_S3200000x4_S4x32_S3200000x32_1_0_0_1_n_n_wf : DotDims.WF S3200000x4 S4x32 S3200000x32 [1] [0] [0] [1] [] []
  dot_S3200000x32_S32x4_S3200000x4_1_0_0_1_n_n_wf : DotDims.WF S3200000x32 S32x4 S3200000x4 [1] [0] [0] [1] [] []
  scatter_S100000x4_S3200000x1_S3200000x4_1_0_0_1_wf : ScatterDims.WF S100000x4 S3200000x1 S3200000x4 [1] [0] [0] 1

variable [Facts₀]

def gather_S100000x4_S3200000x1_S3200000x4_1_0_n_n_0_1_14 : GatherDims S100000x4 S3200000x1 S3200000x4 where
  offsetDims := [1]
  collapsedSliceDims := [0]
  operandBatchingDims := []
  startIndicesBatchingDims := []
  startIndexMap := [0]
  indexVectorDim := 1
  sliceSizes := ![1, 4]
  wf := gather_S100000x4_S3200000x1_S3200000x4_1_0_n_n_0_1_14_wf
def dot_S3200000x8_S8x32_S3200000x32_1_0_0_1_n_n : DotDims S3200000x8 S8x32 S3200000x32 where
  lhsContracting := [1]
  rhsContracting := [0]
  lhsNonContracting := [0]
  rhsNonContracting := [1]
  lhsBatch := []
  rhsBatch := []
  wf := dot_S3200000x8_S8x32_S3200000x32_1_0_0_1_n_n_wf
def dot_S3200000x32_S32x32_S3200000x32_1_0_0_1_n_n : DotDims S3200000x32 S32x32 S3200000x32 where
  lhsContracting := [1]
  rhsContracting := [0]
  lhsNonContracting := [0]
  rhsNonContracting := [1]
  lhsBatch := []
  rhsBatch := []
  wf := dot_S3200000x32_S32x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x32_S32x2_S100000x2_1_0_0_1_n_n : DotDims S100000x32 S32x2 S100000x2 where
  lhsContracting := [1]
  rhsContracting := [0]
  lhsNonContracting := [0]
  rhsNonContracting := [1]
  lhsBatch := []
  rhsBatch := []
  wf := dot_S100000x32_S32x2_S100000x2_1_0_0_1_n_n_wf
def gather_S100000x2_S3200000x1_S3200000x2_1_0_n_n_0_1_12 : GatherDims S100000x2 S3200000x1 S3200000x2 where
  offsetDims := [1]
  collapsedSliceDims := [0]
  operandBatchingDims := []
  startIndicesBatchingDims := []
  startIndexMap := [0]
  indexVectorDim := 1
  sliceSizes := ![1, 2]
  wf := gather_S100000x2_S3200000x1_S3200000x2_1_0_n_n_0_1_12_wf
def dot_S3200000x4_S4x32_S3200000x32_1_0_0_1_n_n : DotDims S3200000x4 S4x32 S3200000x32 where
  lhsContracting := [1]
  rhsContracting := [0]
  lhsNonContracting := [0]
  rhsNonContracting := [1]
  lhsBatch := []
  rhsBatch := []
  wf := dot_S3200000x4_S4x32_S3200000x32_1_0_0_1_n_n_wf
def dot_S3200000x32_S32x4_S3200000x4_1_0_0_1_n_n : DotDims S3200000x32 S32x4 S3200000x4 where
  lhsContracting := [1]
  rhsContracting := [0]
  lhsNonContracting := [0]
  rhsNonContracting := [1]
  lhsBatch := []
  rhsBatch := []
  wf := dot_S3200000x32_S32x4_S3200000x4_1_0_0_1_n_n_wf
def scatter_S100000x4_S3200000x1_S3200000x4_1_0_0_1 : ScatterDims S100000x4 S3200000x1 S3200000x4 where
  updateWindowDims := [1]
  insertedWindowDims := [0]
  scatterDimsToOperandDims := [0]
  indexVectorDim := 1
  wf := scatter_S100000x4_S3200000x1_S3200000x4_1_0_0_1_wf

class Facts : Prop extends Facts₀ where

variable [Facts]
-- ==== Proof.RefWin0.lean ====
/-
  The first window of the reference's operations, from any contents `V` of the buffers: it leaves the encoder's first
  hidden layer (after its `max · 0`) and the two rows of the edge list at their stage functions of the ARGUMENT buffers'
  contents in `V`, and writes no argument.
-/
import proofs.«417863_j7456063226141_3_alg».proof.Proof.RefOps
import proofs.«417863_j7456063226141_3_alg».proof.Proof.ReadP

set_option maxRecDepth 16384

noncomputable section

namespace Cert.ReferenceIdeal.RefWin

open Cert.ReferenceIdeal Cert.ReferenceIdeal.Gen Cert.ReferenceIdeal.Read Cert.ReferenceIdeal.RefOps
open Idealize.ShloMosaic Idealize.ShloMosaic.TcCoe Idealize.SL.Sem Idealize.ShloMosaic.StableHlo

variable {F : FTy → Type} [FloatOps F]
variable (V : Valuation τ sig (Elt F))

/-- "No operation of the first window writes the buffer": the window is spelt out, each operation writes one buffer,
    and each of those differs from the buffer in hand (decided on the references). -/
syntax "w0_unwritten" : tactic
macro_rules
  | `(tactic| w0_unwritten) =>
    `(tactic| exact List.forall_iff_forall_mem.mp (by
        simp only [ops0, List.Forall, StableHlo.nullary_writes, StableHlo.unary_writes, StableHlo.binary_writes,
          StableHlo.ternary_writes, StableHlo.quaternary_writes, StableHlo.reshape_writes, Finset.mem_singleton]
        repeat' apply And.intro
        all_goals exact StableHlo.devRef_ne_of_ne (by decide)))

/-- A two-piece concatenation depends on its pieces only. -/
theorem w0_cat_congr {a a' b b' : (⟨S3200000x4, .f32⟩ : BufTy).Contents (Elt F)} (ha : a = a') (hb : b = b') :
    concatenate S3200000x8 1 [⟨S3200000x4, a⟩, ⟨S3200000x4, b⟩] concatenates_S3200000x4_S3200000x4_S3200000x8_d1
      = concatenate S3200000x8 1 [⟨S3200000x4, a'⟩, ⟨S3200000x4, b'⟩] concatenates_S3200000x4_S3200000x4_S3200000x8_d1 := by
  subst ha hb
  rfl

/-- The targets. -/
theorem w0_v3 : after ops0 V (Proc.devRef .tc main_v3) = val_main_v3 (V (Proc.devRef .tc main_arg18)) := by
  dsimp only [ops0]
  after_results_simp
  rfl
/-- The sources. -/
theorem w0_v1 : after ops0 V (Proc.devRef .tc main_v1) = val_main_v1 (V (Proc.devRef .tc main_arg18)) := by
  dsimp only [ops0]
  after_results_simp
  rfl
set_option maxHeartbeats 4000000 in
/-- The encoder's first hidden layer. -/
theorem w0_v50 : after ops0 V (Proc.devRef .tc main_v50)
    = val_main_v50 (V (Proc.devRef .tc main_arg0)) (V (Proc.devRef .tc main_arg2)) (V (Proc.devRef .tc main_arg3)) (V (Proc.devRef .tc main_arg4)) (V (Proc.devRef .tc main_arg5)) (V (Proc.devRef .tc main_arg18)) := by
  -- the two rows of the edge list, as the window's fold leaves them, are their stage functions
  have h3 := w0_v3 V
  have h1 := w0_v1 V
  dsimp only [ops0] at h3 h1 ⊢
  simp (disch := decide) only [after_cons, after_nil, nullary_result', unary_result', binary_result', ternary_result',
    quaternary_result', reshape_result', nullary_result_ne', unary_result_ne', binary_result_ne', ternary_result_ne',
    quaternary_result_ne', reshape_result_ne'] at h3 h1 ⊢
  -- the transports to and from each value's buffer type are the identity at a literal buffer
  simp only [StableHlo.TRef.ofBuf, StableHlo.TRef.toBuf, cast_eq]
  unfold val_main_v50 val_main_call0_v0 val_main_call0_cst val_main_v49 val_main_v48 val_main_v47 val_main_v46 val_main_v45
    val_main_v44
  -- both sides are one expression of the joined rows; the two pieces are read back separately
  refine congrArg (fun c => maximumf (addf (Host.dotGeneral dot_S3200000x8_S8x32_S3200000x32_1_0_0_1_n_n none c _) _) _)
    (w0_cat_congr ?_ ?_)
  · -- the target's normalised rows
    simp (disch := decide) only [after_cons, after_nil, nullary_result', unary_result', binary_result', ternary_result',
    quaternary_result', reshape_result', nullary_result_ne', unary_result_ne', binary_result_ne', ternary_result_ne',
    quaternary_result_ne', reshape_result_ne']
    rw [h3]
    unfold val_main_v35 val_main_v34 val_main_v33 val_main_v32 val_main_v31 val_main_c_4 val_main_v30 val_main_v29
      val_main_c val_main_v28 val_main_v27 val_main_v26 val_main_v25 val_main_v24 val_main_v23 val_main_v22
      val_main_v21 val_main_v20 val_main_v19 val_main_v18 val_main_v17 val_main_cst_3 val_main_v16 val_main_v15
      val_main_v14 val_main_v13 val_main_v12 val_main_cst_2 val_main_v11 val_main_cst_1 val_main_v10 val_main_v9
      val_main_v8 val_main_v7 val_main_v6 val_main_v5 val_main_cst_0 val_main_v4 val_main_cst
    rfl
  · -- the difference of the two gathers
    simp (disch := decide) only [after_cons, after_nil, nullary_result', unary_result', binary_result', ternary_result',
    quaternary_result', reshape_result', nullary_result_ne', unary_result_ne', binary_result_ne', ternary_result_ne',
    quaternary_result_ne', reshape_result_ne']
    rw [h3, h1]
    unfold val_main_v43 val_main_v42 val_main_v41 val_main_v40 val_main_v39 val_main_v38 val_main_c_6 val_main_v37
      val_main_v36 val_main_c_5 val_main_v35 val_main_v34 val_main_v33 val_main_v32 val_main_v31 val_main_c_4
      val_main_v30 val_main_v29 val_main_c val_main_v28 val_main_v27 val_main_v26 val_main_v25 val_main_v24
      val_main_v23 val_main_v22 val_main_v21 val_main_v20 val_main_v19 val_main_v18 val_main_v17 val_main_cst_3
      val_main_v16 val_main_v15 val_main_v14 val_main_v13 val_main_v12 val_main_cst_2 val_main_v11 val_main_cst_1
      val_main_v10 val_main_v9 val_main_v8 val_main_v7 val_main_v6 val_main_v5 val_main_cst_0 val_main_v4
      val_main_cst
    rfl
/-- The w0 window does not write `main_arg0`. -/
theorem w0_arg0 : after ops0 V (Proc.devRef .tc main_arg0) = V (Proc.devRef .tc main_arg0) :=
  StableHlo.after_of_forall_not_mem (b := Proc.devRef .tc main_arg0) _ _ (by w0_unwritten)
/-- The w0 window does not write `main_arg1`. -/
theorem w0_arg1 : after ops0 V (Proc.devRef .tc main_arg1) = V (Proc.devRef .tc main_arg1) :=
  StableHlo.after_of_forall_not_mem (b := Proc.devRef .tc main_arg1) _ _ (by w0_unwritten)
/-- The w0 window does not write `main_arg2`. -/
theorem w0_arg2 : after ops0 V (Proc.devRef .tc main_arg2) = V (Proc.devRef .tc main_arg2) :=
  StableHlo.after_of_forall_not_mem (b := Proc.devRef .tc main_arg2) _ _ (by w0_unwritten)
/-- The w0 window does not write `main_arg3`. -/
theorem w0_arg3 : after ops0 V (Proc.devRef .tc main_arg3) = V (Proc.devRef .tc main_arg3) :=
  StableHlo.after_of_forall_not_mem (b := Proc.devRef .tc main_arg3) _ _ (by w0_unwritten)
/-- The w0 window does not write `main_arg4`. -/
theorem w0_arg4 : after ops0 V (Proc.devRef .tc main_arg4) = V (Proc.devRef .tc main_arg4) :=
  StableHlo.after_of_forall_not_mem (b := Proc.devRef .tc main_arg4) _ _ (by w0_unwritten)
/-- The w0 window does not write `main_arg5`. -/
theorem w0_arg5 : after ops0 V (Proc.devRef .tc main_arg5) = V (Proc.devRef .tc main_arg5) :=
  StableHlo.after_of_forall_not_mem (b := Proc.devRef .tc main_arg5) _ _ (by w0_unwritten)
/-- The w0 window does not write `main_arg6`. -/
theorem w0_arg6 : after ops0 V (Proc.devRef .tc main_arg6) = V (Proc.devRef .tc main_arg6) :=
  StableHlo.after_of_forall_not_mem (b := Proc.devRef .tc main_arg6) _ _ (by w0_unwritten)
/-- The w0 window does not write `main_arg7`. -/
theorem w0_arg7 : after ops0 V (Proc.devRef .tc main_arg7) = V (Proc.devRef .tc main_arg7) :=
  StableHlo.after_of_forall_not_mem (b := Proc.devRef .tc main_arg7) _ _ (by w0_unwritten)
/-- The w0 window does not write `main_arg8`. -/
theorem w0_arg8 : after ops0 V (Proc.devRef .tc main_arg8) = V (Proc.devRef .tc main_arg8) :=
  StableHlo.after_of_forall_not_mem (b := Proc.devRef .tc main_arg8) _ _ (by w0_unwritten)
/-- The w0 window does not write `main_arg9`. -/
theorem w0_arg9 : after ops0 V (Proc.devRef .tc main_arg9) = V (Proc.devRef .tc main_arg9) :=
  StableHlo.after_of_forall_not_mem (b := Proc.devRef .tc main_arg9) _ _ (by w0_unwritten)
/-- The w0 window does not write `main_arg10`. -/
theorem w0_arg10 : after ops0 V (Proc.devRef .tc main_arg10) = V (Proc.devRef .tc main_arg10) :=
  StableHlo.after_of_forall_not_mem (b := Proc.devRef .tc main_arg10) _ _ (by w0_unwritten)
/-- The w0 window does not write `main_arg11`. -/
theorem w0_arg11 : after ops0 V (Proc.devRef .tc main_arg11) = V (Proc.devRef .tc main_arg11) :=
  StableHlo.after_of_forall_not_mem (b := Proc.devRef .tc main_arg11) _ _ (by w0_unwritten)
/-- The w0 window does not write `main_arg12`. -/
theorem w0_arg12 : after ops0 V (Proc.devRef .tc main_arg12) = V (Proc.devRef .tc main_arg12) :=
  StableHlo.after_of_forall_not_mem (b := Proc.devRef .tc main_arg12) _ _ (by w0_unwritten)
/-- The w0 window does not write `main_arg13`. -/
theorem w0_arg13 : after ops0 V (Proc.devRef .tc main_arg13) = V (Proc.devRef .tc main_arg13) :=
  StableHlo.after_of_forall_not_mem (b := Proc.devRef .tc main_arg13) _ _ (by w0_unwritten)
/-- The w0 window does not write `main_arg14`. -/
theorem w0_arg14 : after ops0 V (Proc.devRef .tc main_arg14) = V (Proc.devRef .tc main_arg14) :=
  StableHlo.after_of_forall_not_mem (b := Proc.devRef .tc main_arg14) _ _ (by w0_unwritten)
/-- The w0 window does not write `main_arg15`. -/
theorem w0_arg15 : after ops0 V (Proc.devRef .tc main_arg15) = V (Proc.devRef .tc main_arg15) :=
  StableHlo.after_of_forall_not_mem (b := Proc.devRef .tc main_arg15) _ _ (by w0_unwritten)
/-- The w0 window does not write `main_arg16`. -/
theorem w0_arg16 : after ops0 V (Proc.devRef .tc main_arg16) = V (Proc.devRef .tc main_arg16) :=
  StableHlo.after_of_forall_not_mem (b := Proc.devRef .tc main_arg16) _ _ (by w0_unwritten)
/-- The w0 window does not write `main_arg17`. -/
theorem w0_arg17 : after ops0 V (Proc.devRef .tc main_arg17) = V (Proc.devRef .tc main_arg17) :=
  StableHlo.after_of_forall_not_mem (b := Proc.devRef .tc main_arg17) _ _ (by w0_unwritten)
/-- The w0 window does not write `main_arg18`. -/
theorem w0_arg18 : after ops0 V (Proc.devRef .tc main_arg18) = V (Proc.devRef .tc main_arg18) :=
  StableHlo.after_of_forall_not_mem (b := Proc.devRef .tc main_arg18) _ _ (by w0_unwritten)

end Cert.ReferenceIdeal.RefWin

end
-- ==== Proof.RefWin1.lean ====
/-
  The second window of the reference's operations, from any contents `V` of the buffers in which the first hidden layer
  and the rows of the edge list are at their stage functions of arrays `x0 …` and the argument buffers it reads hold
  those arrays: it leaves the two heads and the decoder's first product at their stage functions of the same arrays, and
  writes neither an argument nor the targets.
-/
import proofs.«417863_j7456063226141_3_alg».proof.Proof.RefOps
import proofs.«417863_j7456063226141_3_alg».proof.Proof.ReadP

set_option maxRecDepth 16384

noncomputable section

namespace Cert.ReferenceIdeal.RefWin

open Cert.ReferenceIdeal Cert.ReferenceIdeal.Gen Cert.ReferenceIdeal.Read Cert.ReferenceIdeal.RefOps
open Idealize.ShloMosaic Idealize.ShloMosaic.TcCoe Idealize.SL.Sem Idealize.ShloMosaic.StableHlo

variable {F : FTy → Type} [FloatOps F]
variable (V : Valuation τ sig (Elt F))

variable (x0 : (⟨S100000x4, .f32⟩ : BufTy).Contents (Elt F)) (x1 : (⟨S100000x2, .f32⟩ : BufTy).Contents (Elt F)) (x2 : (⟨S4, .f32⟩ : BufTy).Contents (Elt F)) (x3 : (⟨S4, .f32⟩ : BufTy).Contents (Elt F)) (x4 : (⟨S32x8, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S2x32, .f32⟩ : BufTy).Contents (Elt F)) (x9 : (⟨S2, .f32⟩ : BufTy).Contents (Elt F)) (x10 : (⟨S2x32, .f32⟩ : BufTy).Contents (Elt F)) (x11 : (⟨S2, .f32⟩ : BufTy).Contents (Elt F)) (x12 : (⟨S32x4, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F)) (x16 : (⟨S4x32, .f32⟩ : BufTy).Contents (Elt F)) (x17 : (⟨S4, .f32⟩ : BufTy).Contents (Elt F)) (x18 : (⟨S2x3200000, .i32⟩ : BufTy).Contents (Elt F))

/-- No operation of the second window writes the buffer in the goal: each operation writes one buffer, and each of
    those is another reference than the one asked about. -/
local macro "w1_unwritten" : tactic =>
  `(tactic| exact StableHlo.after_of_forall_not_mem _ _ (List.forall_iff_forall_mem.mp (by
      simp only [ops1, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-- A two-piece concatenation depends on its pieces only. -/
theorem w1_cat_congr {a a' b b' : (⟨S3200000x2, .f32⟩ : BufTy).Contents (Elt F)} (ha : a = a') (hb : b = b') :
    concatenate S3200000x4 1 [⟨S3200000x2, a⟩, ⟨S3200000x2, b⟩] concatenates_S3200000x2_S3200000x2_S3200000x4_d1
      = concatenate S3200000x4 1 [⟨S3200000x2, a'⟩, ⟨S3200000x2, b'⟩] concatenates_S3200000x2_S3200000x2_S3200000x4_d1 := by
  subst ha hb
  rfl

set_option maxHeartbeats 1000000 in
/-- The mean head. -/
theorem w1_v73 (h50 : V (Proc.devRef .tc main_v50) = val_main_v50 x0 x2 x3 x4 x5 x18) (h3 : V (Proc.devRef .tc main_v3) = val_main_v3 x18)
    (a6 : V (Proc.devRef .tc main_arg6) = x6) (a7 : V (Proc.devRef .tc main_arg7) = x7) (a8 : V (Proc.devRef .tc main_arg8) = x8) (a9 : V (Proc.devRef .tc main_arg9) = x9) :
    after ops1 V (Proc.devRef .tc main_v73) = val_main_v73 x0 x2 x3 x4 x5 x6 x7 x8 x9 x18 := by
  dsimp only [ops1]
  after_results_simp
  simp only [StableHlo.TRef.ofBuf, StableHlo.TRef.toBuf, cast_eq]
  simp only [h50, h3, a6, a7, a8, a9]
  rfl
set_option maxHeartbeats 1000000 in
/-- The log-variance head. -/
theorem w1_v78 (h50 : V (Proc.devRef .tc main_v50) = val_main_v50 x0 x2 x3 x4 x5 x18) (h3 : V (Proc.devRef .tc main_v3) = val_main_v3 x18)
    (a6 : V (Proc.devRef .tc main_arg6) = x6) (a7 : V (Proc.devRef .tc main_arg7) = x7) (a10 : V (Proc.devRef .tc main_arg10) = x10) (a11 : V (Proc.devRef .tc main_arg11) = x11) :
    after ops1 V (Proc.devRef .tc main_v78) = val_main_v78 x0 x2 x3 x4 x5 x6 x7 x10 x11 x18 := by
  dsimp only [ops1]
  after_results_simp
  simp only [StableHlo.TRef.ofBuf, StableHlo.TRef.toBuf, cast_eq]
  simp only [h50, h3, a6, a7, a10, a11]
  rfl
set_option maxHeartbeats 4000000 in
/-- The decoder's first product. -/
theorem w1_v101 (h50 : V (Proc.devRef .tc main_v50) = val_main_v50 x0 x2 x3 x4 x5 x18) (h3 : V (Proc.devRef .tc main_v3) = val_main_v3 x18)
    (h1 : V (Proc.devRef .tc main_v1) = val_main_v1 x18) (a1 : V (Proc.devRef .tc main_arg1) = x1) (a6 : V (Proc.devRef .tc main_arg6) = x6) (a7 : V (Proc.devRef .tc main_arg7) = x7) (a8 : V (Proc.devRef .tc main_arg8) = x8) (a9 : V (Proc.devRef .tc main_arg9) = x9) (a10 : V (Proc.devRef .tc main_arg10) = x10) (a11 : V (Proc.devRef .tc main_arg11) = x11) (a12 : V (Proc.devRef .tc main_arg12) = x12) :
    after ops1 V (Proc.devRef .tc main_v101) = val_main_v101 x0 x1 x2 x3 x4 x5 x6 x7 x8 x9 x10 x11 x12 x18 := by
  dsimp only [ops1]
  -- the product of the joined rows and the transposed weight; the fold stops at the joined rows' two pieces
  after_results_simp
  rw [a12]
  unfold val_main_v101 val_main_v99 val_main_v100
  refine congrArg (fun c => Host.dotGeneral dot_S3200000x4_S4x32_S3200000x32_1_0_0_1_n_n none c _) (w1_cat_congr ?_ ?_)
  · -- the latent rows gathered at the targets
    after_results_simp
    simp only [StableHlo.TRef.ofBuf, StableHlo.TRef.toBuf, cast_eq]
    simp only [h50, h3, a1, a6, a7, a8, a9, a10, a11]
    rfl
  · -- the latent rows gathered at the sources, less those at the targets
    after_results_simp
    simp only [StableHlo.TRef.ofBuf, StableHlo.TRef.toBuf, cast_eq]
    simp only [h50, h3, h1, a1, a6, a7, a8, a9, a10, a11]
    rfl
/-- The w1 window does not write `main_v3`. -/
theorem w1_v3 : after ops1 V (Proc.devRef .tc main_v3) = V (Proc.devRef .tc main_v3) := by
  w1_unwritten
/-- The w1 window does not write `main_arg0`. -/
theorem w1_arg0 : after ops1 V (Proc.devRef .tc main_arg0) = V (Proc.devRef .tc main_arg0) := by
  w1_unwritten
/-- The w1 window does not write `main_arg1`. -/
theorem w1_arg1 : after ops1 V (Proc.devRef .tc main_arg1) = V (Proc.devRef .tc main_arg1) := by
  w1_unwritten
/-- The w1 window does not write `main_arg2`. -/
theorem w1_arg2 : after ops1 V (Proc.devRef .tc main_arg2) = V (Proc.devRef .tc main_arg2) := by
  w1_unwritten
/-- The w1 window does not write `main_arg3`. -/
theorem w1_arg3 : after ops1 V (Proc.devRef .tc main_arg3) = V (Proc.devRef .tc main_arg3) := by
  w1_unwritten
/-- The w1 window does not write `main_arg4`. -/
theorem w1_arg4 : after ops1 V (Proc.devRef .tc main_arg4) = V (Proc.devRef .tc main_arg4) := by
  w1_unwritten
/-- The w1 window does not write `main_arg5`. -/
theorem w1_arg5 : after ops1 V (Proc.devRef .tc main_arg5) = V (Proc.devRef .tc main_arg5) := by
  w1_unwritten
/-- The w1 window does not write `main_arg6`. -/
theorem w1_arg6 : after ops1 V (Proc.devRef .tc main_arg6) = V (Proc.devRef .tc main_arg6) := by
  w1_unwritten
/-- The w1 window does not write `main_arg7`. -/
theorem w1_arg7 : after ops1 V (Proc.devRef .tc main_arg7) = V (Proc.devRef .tc main_arg7) := by
  w1_unwritten
/-- The w1 window does not write `main_arg8`. -/
theorem w1_arg8 : after ops1 V (Proc.devRef .tc main_arg8) = V (Proc.devRef .tc main_arg8) := by
  w1_unwritten
/-- The w1 window does not write `main_arg9`. -/
theorem w1_arg9 : after ops1 V (Proc.devRef .tc main_arg9) = V (Proc.devRef .tc main_arg9) := by
  w1_unwritten
/-- The w1 window does not write `main_arg10`. -/
theorem w1_arg10 : after ops1 V (Proc.devRef .tc main_arg10) = V (Proc.devRef .tc main_arg10) := by
  w1_unwritten
/-- The w1 window does not write `main_arg11`. -/
theorem w1_arg11 : after ops1 V (Proc.devRef .tc main_arg11) = V (Proc.devRef .tc main_arg11) := by
  w1_unwritten
/-- The w1 window does not write `main_arg12`. -/
theorem w1_arg12 : after ops1 V (Proc.devRef .tc main_arg12) = V (Proc.devRef .tc main_arg12) := by
  w1_unwritten
/-- The w1 window does not write `main_arg13`. -/
theorem w1_arg13 : after ops1 V (Proc.devRef .tc main_arg13) = V (Proc.devRef .tc main_arg13) := by
  w1_unwritten
/-- The w1 window does not write `main_arg14`. -/
theorem w1_arg14 : after ops1 V (Proc.devRef .tc main_arg14) = V (Proc.devRef .tc main_arg14) := by
  w1_unwritten
/-- The w1 window does not write `main_arg15`. -/
theorem w1_arg15 : after ops1 V (Proc.devRef .tc main_arg15) = V (Proc.devRef .tc main_arg15) := by
  w1_unwritten
/-- The w1 window does not write `main_arg16`. -/
theorem w1_arg16 : after ops1 V (Proc.devRef .tc main_arg16) = V (Proc.devRef .tc main_arg16) := by
  w1_unwritten
/-- The w1 window does not write `main_arg17`. -/
theorem w1_arg17 : after ops1 V (Proc.devRef .tc main_arg17) = V (Proc.devRef .tc main_arg17) := by
  w1_unwritten
/-- The w1 window does not write `main_arg18`. -/
theorem w1_arg18 : after ops1 V (Proc.devRef .tc main_arg18) = V (Proc.devRef .tc main_arg18) := by
  w1_unwritten

end Cert.ReferenceIdeal.RefWin

end
-- ==== Proof.RefWin2.lean ====
/-
  The third window of the reference's operations, from any contents `V` of the buffers in which the decoder's first
  product and the targets are at their stage functions of arrays `x0 …` and the argument buffers it reads hold those
  arrays: it leaves the reconstruction at its stage function of the same arrays, and writes neither an argument nor the
  two heads' buffers.
-/
import proofs.«417863_j7456063226141_3_alg».proof.Proof.RefOps
import proofs.«417863_j7456063226141_3_alg».proof.Proof.ReadP

set_option maxRecDepth 16384

noncomputable section

namespace Cert.ReferenceIdeal.RefWin

open Cert.ReferenceIdeal Cert.ReferenceIdeal.Gen Cert.ReferenceIdeal.Read Cert.ReferenceIdeal.RefOps
open Idealize.ShloMosaic Idealize.ShloMosaic.TcCoe Idealize.SL.Sem Idealize.ShloMosaic.StableHlo

variable {F : FTy → Type} [FloatOps F]
variable (V : Valuation τ sig (Elt F))

variable (x0 : (⟨S100000x4, .f32⟩ : BufTy).Contents (Elt F)) (x1 : (⟨S100000x2, .f32⟩ : BufTy).Contents (Elt F)) (x2 : (⟨S4, .f32⟩ : BufTy).Contents (Elt F)) (x3 : (⟨S4, .f32⟩ : BufTy).Contents (Elt F)) (x4 : (⟨S32x8, .f32⟩ : BufTy).Contents (Elt F)) (x5 : (⟨S32, .f32⟩ : BufTy).Contents (Elt F)) (x6 : (⟨S32x32, .f32⟩ : BufTy).Contents (Elt F)) (x7 : (⟨S32, .f32⟩ : BufTy).Contents (Elt F)) (x8 : (⟨S2x32, .f32⟩ : BufTy).Contents (Elt F)) (x9 : (⟨S2, .f32⟩ : BufTy).Contents (Elt F)) (x10 : (⟨S2x32, .f32⟩ : BufTy).Contents (Elt F)) (x11 : (⟨S2, .f32⟩ : BufTy).Contents (Elt F)) (x12 : (⟨S32x4, .f32⟩ : BufTy).Contents (Elt F)) (x13 : (⟨S32, .f32⟩ : BufTy).Contents (Elt F)) (x14 : (⟨S32x32, .f32⟩ : BufTy).Contents (Elt F)) (x15 : (⟨S32, .f32⟩ : BufTy).Contents (Elt F)) (x16 : (⟨S4x32, .f32⟩ : BufTy).Contents (Elt F)) (x17 : (⟨S4, .f32⟩ : BufTy).Contents (Elt F)) (x18 : (⟨S2x3200000, .i32⟩ : BufTy).Contents (Elt F))

/-- Contents moved to a typed reference's buffer type and back are unchanged: the two transports are along one
    equation and its inverse. -/
theorem w2_ofBuf_toBuf {T : BufTy} (x : StableHlo.TRef sig T) (v : T.Contents (Elt F)) :
    x.ofBuf (x.toBuf v) = v := by
  obtain ⟨r, rfl, hd, hu⟩ := x
  rfl

/-- "No operation of the third window writes the buffer": the window is spelt out, each operation writes one buffer,
    and each of those differs from the buffer in hand (decided on the references). -/
syntax "w2_unwritten" : tactic
macro_rules
  | `(tactic| w2_unwritten) =>
    `(tactic| exact List.forall_iff_forall_mem.mp (by
        simp only [ops2, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))

/-- The reconstruction. -/
theorem w2_v128 (h101 : V (Proc.devRef .tc main_v101) = val_main_v101 x0 x1 x2 x3 x4 x5 x6 x7 x8 x9 x10 x11 x12 x18)
    (h3 : V (Proc.devRef .tc main_v3) = val_main_v3 x18) (a13 : V (Proc.devRef .tc main_arg13) = x13) (a14 : V (Proc.devRef .tc main_arg14) = x14) (a15 : V (Proc.devRef .tc main_arg15) = x15) (a16 : V (Proc.devRef .tc main_arg16) = x16) (a17 : V (Proc.devRef .tc main_arg17) = x17) :
    after ops2 V (Proc.devRef .tc main_v128) = val_main_v128 x0 x1 x2 x3 x4 x5 x6 x7 x8 x9 x10 x11 x12 x13 x14 x15 x16 x17 x18 := by
  -- the window's results, one pass, down to the contents `V` at the buffers the window reads
  dsimp only [ops2]
  after_results_simp
  -- the transports of the inlined rectifier's typed references cancel, and at a literal buffer are the identity
  simp only [w2_ofBuf_toBuf]
  simp only [StableHlo.TRef.ofBuf, StableHlo.TRef.toBuf, cast_eq]
  -- what `V` holds at those buffers
  rw [h101, h3, a13, a14, a15, a16, a17]
  -- the stage function, opened down to the two stages of the hypotheses: the same term
  unfold val_main_v128 val_main_v119 val_main_v127 val_main_v117 val_main_cst_16 val_main_v118 val_main_v116
    val_main_v113 val_main_v115 val_main_v114 val_main_v111 val_main_v112 val_main_v110 val_main_call3_v0
    val_main_call3_cst val_main_v107 val_main_v109 val_main_v108 val_main_v105 val_main_v106 val_main_v104
    val_main_call2_v0 val_main_call2_cst val_main_v103 val_main_v102 val_main_v126 val_main_v125 val_main_v123
    val_main_v124 val_main_cst_19 val_main_v121 val_main_cst_18 val_main_v122 val_main_v120 val_main_cst_17
  rfl
/-- The w2 window does not write `main_v73`. -/
theorem w2_v73 : after ops2 V (Proc.devRef .tc main_v73) = V (Proc.devRef .tc main_v73) :=
  StableHlo.after_of_forall_not_mem (b := Proc.devRef .tc main_v73) _ _ (by w2_unwritten)
/-- The w2 window does not write `main_v78`. -/
theorem w2_v78 : after ops2 V (Proc.devRef .tc main_v78) = V (Proc.devRef .tc main_v78) :=
  StableHlo.after_of_forall_not_mem (b := Proc.devRef .tc main_v78) _ _ (by w2_unwritten)
/-- The w2 window does not write `main_arg0`. -/
theorem w2_arg0 : after ops2 V (Proc.devRef .tc main_arg0) = V (Proc.devRef .tc main_arg0) :=
  StableHlo.after_of_forall_not_mem (b := Proc.devRef .tc main_arg0) _ _ (by w2_unwritten)
/-- The w2 window does not write `main_arg1`. -/
theorem w2_arg1 : after ops2 V (Proc.devRef .tc main_arg1) = V (Proc.devRef .tc main_arg1) :=
  StableHlo.after_of_forall_not_mem (b := Proc.devRef .tc main_arg1) _ _ (by w2_unwritten)
/-- The w2 window does not write `main_arg2`. -/
theorem w2_arg2 : after ops2 V (Proc.devRef .tc main_arg2) = V (Proc.devRef .tc main_arg2) :=
  StableHlo.after_of_forall_not_mem (b := Proc.devRef .tc main_arg2) _ _ (by w2_unwritten)
/-- The w2 window does not write `main_arg3`. -/
theorem w2_arg3 : after ops2 V (Proc.devRef .tc main_arg3) = V (Proc.devRef .tc main_arg3) :=
  StableHlo.after_of_forall_not_mem (b := Proc.devRef .tc main_arg3) _ _ (by w2_unwritten)
/-- The w2 window does not write `main_arg4`. -/
theorem w2_arg4 : after ops2 V (Proc.devRef .tc main_arg4) = V (Proc.devRef .tc main_arg4) :=
  StableHlo.after_of_forall_not_mem (b := Proc.devRef .tc main_arg4) _ _ (by w2_unwritten)
/-- The w2 window does not write `main_arg5`. -/
theorem w2_arg5 : after ops2 V (Proc.devRef .tc main_arg5) = V (Proc.devRef .tc main_arg5) :=
  StableHlo.after_of_forall_not_mem (b := Proc.devRef .tc main_arg5) _ _ (by w2_unwritten)
/-- The w2 window does not write `main_arg6`. -/
theorem w2_arg6 : after ops2 V (Proc.devRef .tc main_arg6) = V (Proc.devRef .tc main_arg6) :=
  StableHlo.after_of_forall_not_mem (b := Proc.devRef .tc main_arg6) _ _ (by w2_unwritten)
/-- The w2 window does not write `main_arg7`. -/
theorem w2_arg7 : after ops2 V (Proc.devRef .tc main_arg7) = V (Proc.devRef .tc main_arg7) :=
  StableHlo.after_of_forall_not_mem (b := Proc.devRef .tc main_arg7) _ _ (by w2_unwritten)
/-- The w2 window does not write `main_arg8`. -/
theorem w2_arg8 : after ops2 V (Proc.devRef .tc main_arg8) = V (Proc.devRef .tc main_arg8) :=
  StableHlo.after_of_forall_not_mem (b := Proc.devRef .tc main_arg8) _ _ (by w2_unwritten)
/-- The w2 window does not write `main_arg9`. -/
theorem w2_arg9 : after ops2 V (Proc.devRef .tc main_arg9) = V (Proc.devRef .tc main_arg9) :=
  StableHlo.after_of_forall_not_mem (b := Proc.devRef .tc main_arg9) _ _ (by w2_unwritten)
/-- The w2 window does not write `main_arg10`. -/
theorem w2_arg10 : after ops2 V (Proc.devRef .tc main_arg10) = V (Proc.devRef .tc main_arg10) :=
  StableHlo.after_of_forall_not_mem (b := Proc.devRef .tc main_arg10) _ _ (by w2_unwritten)
/-- The w2 window does not write `main_arg11`. -/
theorem w2_arg11 : after ops2 V (Proc.devRef .tc main_arg11) = V (Proc.devRef .tc main_arg11) :=
  StableHlo.after_of_forall_not_mem (b := Proc.devRef .tc main_arg11) _ _ (by w2_unwritten)
/-- The w2 window does not write `main_arg12`. -/
theorem w2_arg12 : after ops2 V (Proc.devRef .tc main_arg12) = V (Proc.devRef .tc main_arg12) :=
  StableHlo.after_of_forall_not_mem (b := Proc.devRef .tc main_arg12) _ _ (by w2_unwritten)
/-- The w2 window does not write `main_arg13`. -/
theorem w2_arg13 : after ops2 V (Proc.devRef .tc main_arg13) = V (Proc.devRef .tc main_arg13) :=
  StableHlo.after_of_forall_not_mem (b := Proc.devRef .tc main_arg13) _ _ (by w2_unwritten)
/-- The w2 window does not write `main_arg14`. -/
theorem w2_arg14 : after ops2 V (Proc.devRef .tc main_arg14) = V (Proc.devRef .tc main_arg14) :=
  StableHlo.after_of_forall_not_mem (b := Proc.devRef .tc main_arg14) _ _ (by w2_unwritten)
/-- The w2 window does not write `main_arg15`. -/
theorem w2_arg15 : after ops2 V (Proc.devRef .tc main_arg15) = V (Proc.devRef .tc main_arg15) :=
  StableHlo.after_of_forall_not_mem (b := Proc.devRef .tc main_arg15) _ _ (by w2_unwritten)
/-- The w2 window does not write `main_arg16`. -/
theorem w2_arg16 : after ops2 V (Proc.devRef .tc main_arg16) = V (Proc.devRef .tc main_arg16) :=
  StableHlo.after_of_forall_not_mem (b := Proc.devRef .tc main_arg16) _ _ (by w2_unwritten)
/-- The w2 window does not write `main_arg17`. -/
theorem w2_arg17 : after ops2 V (Proc.devRef .tc main_arg17) = V (Proc.devRef .tc main_arg17) :=
  StableHlo.after_of_forall_not_mem (b := Proc.devRef .tc main_arg17) _ _ (by w2_unwritten)
/-- The w2 window does not write `main_arg18`. -/
theorem w2_arg18 : after ops2 V (Proc.devRef .tc main_arg18) = V (Proc.devRef .tc main_arg18) :=
  StableHlo.after_of_forall_not_mem (b := Proc.devRef .tc main_arg18) _ _ (by w2_unwritten)

end Cert.ReferenceIdeal.RefWin

end
-- ==== Proof.RefRun.lean ====
/-
  The reference program's run, with its three results at their stage functions of the arguments. The contents of the
  buffers after the whole list of operations are the third window's operations applied to the second's applied to the
  first's applied to the launch memory. No window writes an argument, so at each window's entry every argument buffer
  still holds what it held at launch. The first window leaves the encoder's first hidden layer and the two rows of the
  edge list at their stage functions of the arguments; from those the second window leaves the two heads and the
  decoder's first product at theirs, and keeps the targets; from those the third window leaves the reconstruction at
  its stage function, and keeps the two heads' buffers.
-/
import proofs.«417863_j7456063226141_3_alg».proof.Proof.RefWin0
import proofs.«417863_j7456063226141_3_alg».proof.Proof.RefWin1
import proofs.«417863_j7456063226141_3_alg».proof.Proof.RefWin2

set_option maxRecDepth 16384

noncomputable section

namespace Cert.ReferenceIdeal.RefRun

open Cert.ReferenceIdeal Cert.ReferenceIdeal.Gen Cert.ReferenceIdeal.Read Cert.ReferenceIdeal.RefOps Cert.ReferenceIdeal.RefWin
open Idealize.ShloMosaic Idealize.ShloMosaic.TcCoe Idealize.SL.Sem Idealize.ShloMosaic.StableHlo

variable {F : FTy → Type} [FloatOps F]

/-- Every weakly fair execution of the reference's @main terminates; the reconstruction, the mean head and the
    log-variance head end at their stage functions of the argument arrays, and the arguments end unchanged. -/
theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v128) = val_main_v128 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_v73) = val_main_v73 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg18))
      ∧ r.2.mem ((c.tc : Thread nD τ).loc main_v78) = val_main_v78 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg10)) (m ((c.tc : Thread nD τ).loc main_arg11)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => by
    -- the contents at launch, after the first window and after the second
    let V0 : Valuation τ sig (Elt F) := launchContents m c
    let V1 : Valuation τ sig (Elt F) := after ops0 V0
    let V2 : Valuation τ sig (Elt F) := after ops1 V1
    -- no window writes an argument
    have A1_0 : V1 (Proc.devRef .tc main_arg0) = m ((c.tc : Thread nD τ).loc main_arg0) := w0_arg0 V0
    have A1_1 : V1 (Proc.devRef .tc main_arg1) = m ((c.tc : Thread nD τ).loc main_arg1) := w0_arg1 V0
    have A1_2 : V1 (Proc.devRef .tc main_arg2) = m ((c.tc : Thread nD τ).loc main_arg2) := w0_arg2 V0
    have A1_3 : V1 (Proc.devRef .tc main_arg3) = m ((c.tc : Thread nD τ).loc main_arg3) := w0_arg3 V0
    have A1_4 : V1 (Proc.devRef .tc main_arg4) = m ((c.tc : Thread nD τ).loc main_arg4) := w0_arg4 V0
    have A1_5 : V1 (Proc.devRef .tc main_arg5) = m ((c.tc : Thread nD τ).loc main_arg5) := w0_arg5 V0
    have A1_6 : V1 (Proc.devRef .tc main_arg6) = m ((c.tc : Thread nD τ).loc main_arg6) := w0_arg6 V0
    have A1_7 : V1 (Proc.devRef .tc main_arg7) = m ((c.tc : Thread nD τ).loc main_arg7) := w0_arg7 V0
    have A1_8 : V1 (Proc.devRef .tc main_arg8) = m ((c.tc : Thread nD τ).loc main_arg8) := w0_arg8 V0
    have A1_9 : V1 (Proc.devRef .tc main_arg9) = m ((c.tc : Thread nD τ).loc main_arg9) := w0_arg9 V0
    have A1_10 : V1 (Proc.devRef .tc main_arg10) = m ((c.tc : Thread nD τ).loc main_arg10) := w0_arg10 V0
    have A1_11 : V1 (Proc.devRef .tc main_arg11) = m ((c.tc : Thread nD τ).loc main_arg11) := w0_arg11 V0
    have A1_12 : V1 (Proc.devRef .tc main_arg12) = m ((c.tc : Thread nD τ).loc main_arg12) := w0_arg12 V0
    have A1_13 : V1 (Proc.devRef .tc main_arg13) = m ((c.tc : Thread nD τ).loc main_arg13) := w0_arg13 V0
    have A1_14 : V1 (Proc.devRef .tc main_arg14) = m ((c.tc : Thread nD τ).loc main_arg14) := w0_arg14 V0
    have A1_15 : V1 (Proc.devRef .tc main_arg15) = m ((c.tc : Thread nD τ).loc main_arg15) := w0_arg15 V0
    have A1_16 : V1 (Proc.devRef .tc main_arg16) = m ((c.tc : Thread nD τ).loc main_arg16) := w0_arg16 V0
    have A1_17 : V1 (Proc.devRef .tc main_arg17) = m ((c.tc : Thread nD τ).loc main_arg17) := w0_arg17 V0
    have A1_18 : V1 (Proc.devRef .tc main_arg18) = m ((c.tc : Thread nD τ).loc main_arg18) := w0_arg18 V0
    have A2_0 : V2 (Proc.devRef .tc main_arg0) = m ((c.tc : Thread nD τ).loc main_arg0) := (w1_arg0 V1).trans A1_0
    have A2_1 : V2 (Proc.devRef .tc main_arg1) = m ((c.tc : Thread nD τ).loc main_arg1) := (w1_arg1 V1).trans A1_1
    have A2_2 : V2 (Proc.devRef .tc main_arg2) = m ((c.tc : Thread nD τ).loc main_arg2) := (w1_arg2 V1).trans A1_2
    have A2_3 : V2 (Proc.devRef .tc main_arg3) = m ((c.tc : Thread nD τ).loc main_arg3) := (w1_arg3 V1).trans A1_3
    have A2_4 : V2 (Proc.devRef .tc main_arg4) = m ((c.tc : Thread nD τ).loc main_arg4) := (w1_arg4 V1).trans A1_4
    have A2_5 : V2 (Proc.devRef .tc main_arg5) = m ((c.tc : Thread nD τ).loc main_arg5) := (w1_arg5 V1).trans A1_5
    have A2_6 : V2 (Proc.devRef .tc main_arg6) = m ((c.tc : Thread nD τ).loc main_arg6) := (w1_arg6 V1).trans A1_6
    have A2_7 : V2 (Proc.devRef .tc main_arg7) = m ((c.tc : Thread nD τ).loc main_arg7) := (w1_arg7 V1).trans A1_7
    have A2_8 : V2 (Proc.devRef .tc main_arg8) = m ((c.tc : Thread nD τ).loc main_arg8) := (w1_arg8 V1).trans A1_8
    have A2_9 : V2 (Proc.devRef .tc main_arg9) = m ((c.tc : Thread nD τ).loc main_arg9) := (w1_arg9 V1).trans A1_9
    have A2_10 : V2 (Proc.devRef .tc main_arg10) = m ((c.tc : Thread nD τ).loc main_arg10) := (w1_arg10 V1).trans A1_10
    have A2_11 : V2 (Proc.devRef .tc main_arg11) = m ((c.tc : Thread nD τ).loc main_arg11) := (w1_arg11 V1).trans A1_11
    have A2_12 : V2 (Proc.devRef .tc main_arg12) = m ((c.tc : Thread nD τ).loc main_arg12) := (w1_arg12 V1).trans A1_12
    have A2_13 : V2 (Proc.devRef .tc main_arg13) = m ((c.tc : Thread nD τ).loc main_arg13) := (w1_arg13 V1).trans A1_13
    have A2_14 : V2 (Proc.devRef .tc main_arg14) = m ((c.tc : Thread nD τ).loc main_arg14) := (w1_arg14 V1).trans A1_14
    have A2_15 : V2 (Proc.devRef .tc main_arg15) = m ((c.tc : Thread nD τ).loc main_arg15) := (w1_arg15 V1).trans A1_15
    have A2_16 : V2 (Proc.devRef .tc main_arg16) = m ((c.tc : Thread nD τ).loc main_arg16) := (w1_arg16 V1).trans A1_16
    have A2_17 : V2 (Proc.devRef .tc main_arg17) = m ((c.tc : Thread nD τ).loc main_arg17) := (w1_arg17 V1).trans A1_17
    have A2_18 : V2 (Proc.devRef .tc main_arg18) = m ((c.tc : Thread nD τ).loc main_arg18) := (w1_arg18 V1).trans A1_18
    -- the first window's values
    have H50 : V1 (Proc.devRef .tc main_v50) = val_main_v50 (F := F) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg18)) := w0_v50 V0
    have H3 : V1 (Proc.devRef .tc main_v3) = val_main_v3 (F := F) (m ((c.tc : Thread nD τ).loc main_arg18)) := w0_v3 V0
    have H1 : V1 (Proc.devRef .tc main_v1) = val_main_v1 (F := F) (m ((c.tc : Thread nD τ).loc main_arg18)) := w0_v1 V0
    -- the second window's values, and the targets it keeps
    have H73 := w1_v73 V1 _ _ _ _ _ _ _ _ _ _ H50 H3 A1_6 A1_7 A1_8 A1_9
    have H78 := w1_v78 V1 _ _ _ _ _ _ _ _ _ _ H50 H3 A1_6 A1_7 A1_10 A1_11
    have H101 := w1_v101 V1 _ _ _ _ _ _ _ _ _ _ _ _ _ _ H50 H3 H1 A1_1 A1_6 A1_7 A1_8 A1_9 A1_10 A1_11 A1_12
    have H3' : V2 (Proc.devRef .tc main_v3) = val_main_v3 (F := F) (m ((c.tc : Thread nD τ).loc main_arg18)) := (w1_v3 V1).trans H3
    -- the third window's value, and the two heads it keeps
    have R128 := w2_v128 V2 _ _ _ _ _ _ _ _ _ _ _ _ _ _ _ _ _ _ _ H101 H3' A2_13 A2_14 A2_15 A2_16 A2_17
    exact ⟨(h c main_v128).trans R128, (h c main_v73).trans ((w2_v73 V2).trans H73), (h c main_v78).trans ((w2_v78 V2).trans H78),
      (h c main_arg0).trans ((w2_arg0 V2).trans A2_0),
      (h c main_arg1).trans ((w2_arg1 V2).trans A2_1),
      (h c main_arg2).trans ((w2_arg2 V2).trans A2_2),
      (h c main_arg3).trans ((w2_arg3 V2).trans A2_3),
      (h c main_arg4).trans ((w2_arg4 V2).trans A2_4),
      (h c main_arg5).trans ((w2_arg5 V2).trans A2_5),
      (h c main_arg6).trans ((w2_arg6 V2).trans A2_6),
      (h c main_arg7).trans ((w2_arg7 V2).trans A2_7),
      (h c main_arg8).trans ((w2_arg8 V2).trans A2_8),
      (h c main_arg9).trans ((w2_arg9 V2).trans A2_9),
      (h c main_arg10).trans ((w2_arg10 V2).trans A2_10),
      (h c main_arg11).trans ((w2_arg11 V2).trans A2_11),
      (h c main_arg12).trans ((w2_arg12 V2).trans A2_12),
      (h c main_arg13).trans ((w2_arg13 V2).trans A2_13),
      (h c main_arg14).trans ((w2_arg14 V2).trans A2_14),
      (h c main_arg15).trans ((w2_arg15 V2).trans A2_15),
      (h c main_arg16).trans ((w2_arg16 V2).trans A2_16),
      (h c main_arg17).trans ((w2_arg17 V2).trans A2_17),
      (h c main_arg18).trans ((w2_arg18 V2).trans A2_18)⟩)
    (run_base m ρ)

end Cert.ReferenceIdeal.RefRun

end
-- ==== Proof.Spec.lean ====
/-
  The three dense stages of the network as functions of whole arrays, element by element, on the extended reals.
  Every stage acts on each row of its row-indexed operands independently of the other rows, so one definition,
  generic in the number of rows, serves both a block of rows and the whole array.

  * the encoder's edge message: from the target row `xi` and the source row `xj` of an edge (raw features),
    the normalisation's per-feature scale and shift, and the two halves of the first layer's weight,
      hidden = max (Σ_j (xi_j · scale_j + shift_j) · W1i_jk + Σ_j ((xj_j − xi_j) · scale_j) · W1j_jk + b1_k) 0,
      message = max (Σ_k hidden_k · W2_kq + b2_q) 0;
  * a node's linear head, `Σ_k h_k · W_kq + b_q`, and the reparameterised latent
      z = mu + eps · exp (½ · log_var);
  * the decoder's edge message: two hidden layers with `max · 0` and a last linear layer.
-/
import Idealize.ShloMosaic.PureOps.Ideal
import Idealize.ShloMosaic.Lib.ValueIdx

noncomputable section

open scoped BigOperators

namespace Cert.Vae

open Idealize.ShloMosaic Idealize.ShloMosaic.ValueIdx

/-- A rank-2 array of extended reals with `a` rows and `b` columns. -/
abbrev Arr2 (a b : ℕ) : Type := (⟨2, ![a, b]⟩ : Shape).Idx → EReal

/-- The only row of a one-row array. -/
abbrev r0 : Fin 1 := 0

/-- The word one half, as the programs spell it. -/
abbrev half : EReal := Ideal.ofBits .f32 0x3F000000#32

/-! ## The encoder's edge message -/

/-- The encoder's hidden unit `k` of edge `e`. -/
def encHid {n : ℕ} (xi xj : Arr2 n 4) (sc sh : Arr2 1 4) (w1i w1j : Arr2 4 32) (b1 : Arr2 1 32)
    (e : Fin n) (k : Fin 32) : EReal :=
  max (((∑ j : Fin 4, (xi (ix2 e j) * sc (ix2 r0 j) + sh (ix2 r0 j)) * w1i (ix2 j k))
        + (∑ j : Fin 4, ((xj (ix2 e j) - xi (ix2 e j)) * sc (ix2 r0 j)) * w1j (ix2 j k)))
       + b1 (ix2 r0 k)) 0

/-- The encoder's message array: one row of 32 per edge. -/
def encMsg {n : ℕ} (xi xj : Arr2 n 4) (sc sh : Arr2 1 4) (w1i w1j : Arr2 4 32) (b1 : Arr2 1 32)
    (w2 : Arr2 32 32) (b2 : Arr2 1 32) : Arr2 n 32 := fun i =>
  max ((∑ k : Fin 32, encHid xi xj sc sh w1i w1j b1 (i 0) k * w2 (ix2 k (i 1))) + b2 (ix2 r0 (i 1))) 0

/-! ## The node stage -/

/-- A linear head on the 32 aggregated features of each node. -/
def nodeLin {n : ℕ} (h : Arr2 n 32) (w : Arr2 32 2) (b : Arr2 1 2) : Arr2 n 2 := fun i =>
  (∑ k : Fin 32, h (ix2 (i 0) k) * w (ix2 k (i 1))) + b (ix2 r0 (i 1))

/-- The reparameterised latent: the mean head plus the noise scaled by `exp` of half the log-variance head. -/
def nodeZ {n : ℕ} (h : Arr2 n 32) (eps : Arr2 n 2) (wm : Arr2 32 2) (bm : Arr2 1 2) (wv : Arr2 32 2) (bv : Arr2 1 2) :
    Arr2 n 2 := fun i =>
  nodeLin h wm bm i + eps i * Ideal.exp (half * nodeLin h wv bv i)

/-! ## The decoder's edge message -/

/-- The decoder's first hidden unit `k` of edge `e`. -/
def decHid1 {n : ℕ} (zi zj : Arr2 n 2) (w1i w1j : Arr2 2 32) (b1 : Arr2 1 32) (e : Fin n) (k : Fin 32) : EReal :=
  max (((∑ j : Fin 2, zi (ix2 e j) * w1i (ix2 j k)) + (∑ j : Fin 2, (zj (ix2 e j) - zi (ix2 e j)) * w1j (ix2 j k)))
       + b1 (ix2 r0 k)) 0

/-- The decoder's second hidden unit `k` of edge `e`. -/
def decHid2 {n : ℕ} (zi zj : Arr2 n 2) (w1i w1j : Arr2 2 32) (b1 : Arr2 1 32) (w2 : Arr2 32 32) (b2 : Arr2 1 32)
    (e : Fin n) (k : Fin 32) : EReal :=
  max ((∑ l : Fin 32, decHid1 zi zj w1i w1j b1 e l * w2 (ix2 l k)) + b2 (ix2 r0 k)) 0

/-- The decoder's message array: one row of 4 per edge (the last layer has no `max`). -/
def decMsg {n : ℕ} (zi zj : Arr2 n 2) (w1i w1j : Arr2 2 32) (b1 : Arr2 1 32) (w2 : Arr2 32 32) (b2 : Arr2 1 32)
    (w3 : Arr2 32 4) (b3 : Arr2 1 4) : Arr2 n 4 := fun i =>
  (∑ k : Fin 32, decHid2 zi zj w1i w1j b1 w2 b2 (i 0) k * w3 (ix2 k (i 1))) + b3 (ix2 r0 (i 1))

/-! ## What the precondition says of the inputs the equivalence leans on -/

/-- The node features and the normalisation's two parameter vectors hold real numbers, and every entry of the edge
    list is a node number: `0 ≤ n < 100000` read as a signed integer. -/
structure Good (x : Arr2 100000 4) (g b : (⟨1, ![4]⟩ : Shape).Idx → EReal)
    (ei : (⟨2, ![2, 3200000]⟩ : Shape).Idx → BitVec 32) : Prop where
  x_real : ∀ i, ∃ r : ℝ, x i = (r : EReal)
  g_real : ∀ i, ∃ r : ℝ, g i = (r : EReal)
  b_real : ∀ i, ∃ r : ℝ, b i = (r : EReal)
  idx_lo : ∀ i, 0 ≤ (ei i).toInt
  idx_hi : ∀ i, (ei i).toInt < 100000

end Cert.Vae

end
-- ==== Proof.KTerms.lean ====
/-
  The host-side values of the kernel's program, named: each is one stretch of the program's own host operations as a
  function of whole arrays, spelt with the program's own side-condition facts and literal words.

  * the batch statistics of the node features: the per-feature mean, the centred features, and the reciprocal standard
    deviation `rsqrt (mean of squares of the centred features + ε)`;
  * the two rows of the edge list (sources, targets), a row of node numbers with the negative ones wrapped by the
    table's length and kept as a column, and the row-take of a table at such a row: the gathered rows where the wrapped
    number lies in `[0, 99999]`, a fill value elsewhere;
  * the per-node count of incoming edges, floored at one, and the mean aggregation of per-edge rows over the edges
    that enter each node (a scatter-add of the rows divided by the count).
-/
import proofs.«417863_j7456063226141_3_alg».proof.Proof.Gen.KernelIdeal
import proofs.«417863_j7456063226141_3_alg».proof.Proof.Spec
import Idealize.ShloMosaic.PureOps.Ideal

noncomputable section

namespace Cert.KernelIdeal.KTerms

open Idealize.ShloMosaic Idealize.SL.Sem
open Cert.KernelIdeal Cert.KernelIdeal.Gen

/-! ## The batch statistics -/

/-- The per-feature mean of the node features: the column sums divided by the number of nodes. -/
def meanK (x : FVec Ideal S100000x4 .f32) : FVec Ideal S4 .f32 :=
  Host.divf (F := Ideal) (Host.reduceAdd (F := Ideal) x (constant (F := Ideal) S_ .f32 0x00000000#32) reducesTo_S100000x4_S4_d0 h_S_)
    (broadcastInDim S4 ![] bcast_S_S4 (constant (F := Ideal) S_ .f32 0x47C35000#32))

/-- The node features with the per-feature mean taken off. -/
def cenK (x : FVec Ideal S100000x4 .f32) : FVec Ideal S100000x4 .f32 :=
  subf x (broadcastInDim S100000x4 ![0, 1] bcast_S1x4_S100000x4_0_1 (broadcastInDim S1x4 ![1] bcast_S4_S1x4_1 (meanK x)))

/-- The reciprocal standard deviation per feature: `rsqrt` of the mean square of the centred features plus ε. -/
def rstdK (x : FVec Ideal S100000x4 .f32) : FVec Ideal S4 .f32 :=
  Host.rsqrt (F := Ideal) (addf
    (Host.divf (F := Ideal) (Host.reduceAdd (F := Ideal) (mulf (cenK x) (cenK x)) (constant (F := Ideal) S_ .f32 0x00000000#32) reducesTo_S100000x4_S4_d0 h_S_)
      (broadcastInDim S4 ![] bcast_S_S4 (constant (F := Ideal) S_ .f32 0x47C35000#32)))
    (broadcastInDim S4 ![] bcast_S_S4 (constant (F := Ideal) S_ .f32 0x3727C5AC#32)))

/-! ## The edge list and the row-take -/

/-- The sources: row 0 of the edge list. -/
def srcK (ei : IVec S2x3200000 32) : IVec S3200000 32 :=
  shapeCast S3200000 (extractStridedSlice S1x3200000 ![0, 0] ei slices_S2x3200000_S1x3200000_0_0) shapeCasts_S1x3200000_S3200000

/-- The targets: row 1 of the edge list. -/
def dstK (ei : IVec S2x3200000 32) : IVec S3200000 32 :=
  shapeCast S3200000 (extractStridedSlice S1x3200000 ![1, 0] ei slices_S2x3200000_S1x3200000_1_0) shapeCasts_S1x3200000_S3200000

/-- A row of node numbers, the negative ones wrapped by the table's length, kept as a column. -/
def wrapColK (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- Where a column of wrapped node numbers lies inside the table: `0 ≤ n ≤ 99999`, per row. -/
def inRangeK (I : IVec S3200000x1 32) : IVec S3200000 1 :=
  Host.reduce IntOp.andi
    (andi (cmpi .sge I (broadcastInDim S3200000x1 ![] bcast_S_S3200000x1 (constantI S_ 32 0#32)))
      (cmpi .sle I (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- The rows of a 4-column table at a row of node numbers: the gathered rows where the wrapped number is inside the
    table, the fill word elsewhere. -/
def take4K (x : FVec Ideal S100000x4 .f32) (v : IVec S3200000 32) : FVec Ideal S3200000x4 .f32 :=
  select (broadcastInDim S3200000x4 ![0] bcast_S3200000_S3200000x4_0 (inRangeK (wrapColK v)))
    (Host.gather gather_S100000x4_S3200000x1_S3200000x4_1_0_n_n_0_1_14 x (wrapColK v))
    (broadcastInDim S3200000x4 ![] bcast_S_S3200000x4 (constant (F := Ideal) S_ .f32 0x7FC00000#32))

/-- The same for a 2-column table. -/
def take2K (z : FVec Ideal S100000x2 .f32) (v : IVec S3200000 32) : FVec Ideal S3200000x2 .f32 :=
  select (broadcastInDim S3200000x2 ![0] bcast_S3200000_S3200000x2_0 (inRangeK (wrapColK v)))
    (Host.gather gather_S100000x2_S3200000x1_S3200000x2_1_0_n_n_0_1_12 z (wrapColK v))
    (broadcastInDim S3200000x2 ![] bcast_S_S3200000x2 (constant (F := Ideal) S_ .f32 0x7FC00000#32))

/-! ## The mean aggregation over incoming edges -/

/-- A row of node numbers kept as a column, as the scatters index with it (no wrapping). -/
def colK (v : IVec S3200000 32) : IVec S3200000x1 32 :=
  broadcastInDim S3200000x1 ![0] bcast_S3200000_S3200000x1_0 v

/-- The number of edges that enter each node, floored at one, kept as a column. -/
def cntK (v : IVec S3200000 32) : FVec Ideal S100000x1 .f32 :=
  broadcastInDim S100000x1 ![0] bcast_S100000_S100000x1_0
    (maximumf
      (Host.scatterAdd (F := Ideal) scatter_S100000_S3200000x1_S3200000_n_0_0_1
        (broadcastInDim S100000 ![] bcast_S_S100000 (constant (F := Ideal) S_ .f32 0x00000000#32)) (colK v)
        (broadcastInDim S3200000 ![] bcast_S_S3200000 (constant (F := Ideal) S_ .f32 0x3F800000#32)))
      (broadcastInDim S100000 ![] bcast_S_S100000 (constant (F := Ideal) S_ .f32 0x3F800000#32)))

/-- The mean over incoming edges of 32-wide per-edge rows. -/
def agg32K (v : IVec S3200000 32) (M : FVec Ideal S3200000x32 .f32) : FVec Ideal S100000x32 .f32 :=
  Host.divf (F := Ideal)
    (Host.scatterAdd (F := Ideal) scatter_S100000x32_S3200000x1_S3200000x32_1_0_0_1
      (broadcastInDim S100000x32 ![] bcast_S_S100000x32 (constant (F := Ideal) S_ .f32 0x00000000#32)) (colK v) M)
    (broadcastInDim S100000x32 ![0, 1] bcast_S100000x1_S100000x32_0_1 (cntK v))

/-- The mean over incoming edges of 4-wide per-edge rows. -/
def agg4K (v : IVec S3200000 32) (M : FVec Ideal S3200000x4 .f32) : FVec Ideal S100000x4 .f32 :=
  Host.divf (F := Ideal)
    (Host.scatterAdd (F := Ideal) scatter_S100000x4_S3200000x1_S3200000x4_1_0_0_1
      (broadcastInDim S100000x4 ![] bcast_S_S100000x4 (constant (F := Ideal) S_ .f32 0x00000000#32)) (colK v) M)
    (broadcastInDim S100000x4 ![0, 1] bcast_S100000x1_S100000x4_0_1 (cntK v))

/-! ## The weights as the kernels take them -/

/-- The per-feature scale of the folded normalisation, as a one-row array: γ · rstd. -/
def scaleK (x : FVec Ideal S100000x4 .f32) (g : FVec Ideal S4 .f32) : FVec Ideal S1x4 .f32 :=
  shapeCast S1x4 (mulf g (rstdK x)) shapeCasts_S4_S1x4

/-- The per-feature shift of the folded normalisation, as a one-row array: β − (mean · γ) · rstd. -/
def shiftK (x : FVec Ideal S100000x4 .f32) (g b : FVec Ideal S4 .f32) : FVec Ideal S1x4 .f32 :=
  shapeCast S1x4 (subf b (mulf (mulf (meanK x) g) (rstdK x))) shapeCasts_S4_S1x4

/-- The first four input columns of the encoder's first weight, transposed. -/
def w1iK (w : FVec Ideal S32x8 .f32) : FVec Ideal S4x32 .f32 :=
  transpose S4x32 [1, 0] (extractStridedSlice S32x4 ![0, 0] w slices_S32x8_S32x4_0_0) transposes_S32x4_S4x32_1_0

/-- The last four input columns of the encoder's first weight, transposed. -/
def w1jK (w : FVec Ideal S32x8 .f32) : FVec Ideal S4x32 .f32 :=
  transpose S4x32 [1, 0] (extractStridedSlice S32x4 ![0, 4] w slices_S32x8_S32x4_0_4) transposes_S32x4_S4x32_1_0

/-- A 32-vector as a one-row array. -/
def row32K (b : FVec Ideal S32 .f32) : FVec Ideal S1x32 .f32 := shapeCast S1x32 b shapeCasts_S32_S1x32

/-- A square weight transposed. -/
def tr32K (w : FVec Ideal S32x32 .f32) : FVec Ideal S32x32 .f32 := transpose S32x32 [1, 0] w transposes_S32x32_S32x32_1_0

/-- A head's weight transposed. -/
def trHeadK (w : FVec Ideal S2x32 .f32) : FVec Ideal S32x2 .f32 := transpose S32x2 [1, 0] w transposes_S2x32_S32x2_1_0

/-- A 2-vector as a one-row array. -/
def row2K (b : FVec Ideal S2 .f32) : FVec Ideal S1x2 .f32 := shapeCast S1x2 b shapeCasts_S2_S1x2

/-- The first two input columns of the decoder's first weight, transposed. -/
def dw1iK (w : FVec Ideal S32x4 .f32) : FVec Ideal S2x32 .f32 :=
  transpose S2x32 [1, 0] (extractStridedSlice S32x2 ![0, 0] w slices_S32x4_S32x2_0_0) transposes_S32x2_S2x32_1_0

/-- The last two input columns of the decoder's first weight, transposed. -/
def dw1jK (w : FVec Ideal S32x4 .f32) : FVec Ideal S2x32 .f32 :=
  transpose S2x32 [1, 0] (extractStridedSlice S32x2 ![0, 2] w slices_S32x4_S32x2_0_2) transposes_S32x2_S2x32_1_0

/-- The decoder's last weight transposed. -/
def tr3K (w : FVec Ideal S4x32 .f32) : FVec Ideal S32x4 .f32 := transpose S32x4 [1, 0] w transposes_S4x32_S32x4_1_0

/-- A 4-vector as a one-row array. -/
def row4K (b : FVec Ideal S4 .f32) : FVec Ideal S1x4 .f32 := shapeCast S1x4 b shapeCasts_S4_S1x4

/-! ## The whole program as a function of its arguments -/

/-- The encoder's per-edge messages. -/
def encK (x : FVec Ideal S100000x4 .f32) (g b : FVec Ideal S4 .f32) (w1 : FVec Ideal S32x8 .f32) (b1 : FVec Ideal S32 .f32)
    (w2 : FVec Ideal S32x32 .f32) (b2 : FVec Ideal S32 .f32) (ei : IVec S2x3200000 32) : FVec Ideal S3200000x32 .f32 :=
  Cert.Vae.encMsg (take4K x (dstK ei)) (take4K x (srcK ei)) (scaleK x g) (shiftK x g b) (w1iK w1) (w1jK w1) (row32K b1)
    (tr32K w2) (row32K b2)

/-- The aggregated node features. -/
def hK (x : FVec Ideal S100000x4 .f32) (g b : FVec Ideal S4 .f32) (w1 : FVec Ideal S32x8 .f32) (b1 : FVec Ideal S32 .f32)
    (w2 : FVec Ideal S32x32 .f32) (b2 : FVec Ideal S32 .f32) (ei : IVec S2x3200000 32) : FVec Ideal S100000x32 .f32 :=
  agg32K (dstK ei) (encK x g b w1 b1 w2 b2 ei)

/-- The mean head. -/
def muK (x : FVec Ideal S100000x4 .f32) (g b : FVec Ideal S4 .f32) (w1 : FVec Ideal S32x8 .f32) (b1 : FVec Ideal S32 .f32)
    (w2 : FVec Ideal S32x32 .f32) (b2 : FVec Ideal S32 .f32) (wm : FVec Ideal S2x32 .f32) (bm : FVec Ideal S2 .f32)
    (ei : IVec S2x3200000 32) : FVec Ideal S100000x2 .f32 :=
  Cert.Vae.nodeLin (hK x g b w1 b1 w2 b2 ei) (trHeadK wm) (row2K bm)

/-- The log-variance head. -/
def lvK (x : FVec Ideal S100000x4 .f32) (g b : FVec Ideal S4 .f32) (w1 : FVec Ideal S32x8 .f32) (b1 : FVec Ideal S32 .f32)
    (w2 : FVec Ideal S32x32 .f32) (b2 : FVec Ideal S32 .f32) (wv : FVec Ideal S2x32 .f32) (bv : FVec Ideal S2 .f32)
    (ei : IVec S2x3200000 32) : FVec Ideal S100000x2 .f32 :=
  Cert.Vae.nodeLin (hK x g b w1 b1 w2 b2 ei) (trHeadK wv) (row2K bv)

/-- The reparameterised latent. -/
def zK (x : FVec Ideal S100000x4 .f32) (eps : FVec Ideal S100000x2 .f32) (g b : FVec Ideal S4 .f32) (w1 : FVec Ideal S32x8 .f32)
    (b1 : FVec Ideal S32 .f32) (w2 : FVec Ideal S32x32 .f32) (b2 : FVec Ideal S32 .f32) (wm : FVec Ideal S2x32 .f32)
    (bm : FVec Ideal S2 .f32) (wv : FVec Ideal S2x32 .f32) (bv : FVec Ideal S2 .f32) (ei : IVec S2x3200000 32) :
    FVec Ideal S100000x2 .f32 :=
  Cert.Vae.nodeZ (hK x g b w1 b1 w2 b2 ei) eps (trHeadK wm) (row2K bm) (trHeadK wv) (row2K bv)

/-- The decoder's per-edge messages from a latent table `z`. -/
def decK (z : FVec Ideal S100000x2 .f32) (d1 : FVec Ideal S32x4 .f32) (c1 : FVec Ideal S32 .f32) (d2 : FVec Ideal S32x32 .f32)
    (c2 : FVec Ideal S32 .f32) (d3 : FVec Ideal S4x32 .f32) (c3 : FVec Ideal S4 .f32) (ei : IVec S2x3200000 32) :
    FVec Ideal S3200000x4 .f32 :=
  Cert.Vae.decMsg (take2K z (dstK ei)) (take2K z (srcK ei)) (dw1iK d1) (dw1jK d1) (row32K c1) (tr32K d2) (row32K c2)
    (tr3K d3) (row4K c3)

/-- The reconstruction: the decoder's messages averaged over the edges that enter each node. -/
def outK (z : FVec Ideal S100000x2 .f32) (d1 : FVec Ideal S32x4 .f32) (c1 : FVec Ideal S32 .f32) (d2 : FVec Ideal S32x32 .f32)
    (c2 : FVec Ideal S32 .f32) (d3 : FVec Ideal S4x32 .f32) (c3 : FVec Ideal S4 .f32) (ei : IVec S2x3200000 32) :
    FVec Ideal S100000x4 .f32 :=
  agg4K (dstK ei) (decK z d1 c1 d2 c2 d3 c3 ei)

end Cert.KernelIdeal.KTerms

end
-- ==== Proof.KHost0.lean ====
/-
  The buffers the first kernel region finds, read off the program's host operations before it: the two row-takes of the
  node features at the targets and at the sources, the normalisation's scale and shift, and the encoder's weights as the
  kernel takes them; and the buffers that later stretches read again.
-/
import proofs.«417863_j7456063226141_3_alg».proof.Proof.Gen.KernelIdeal.Frame
import proofs.«417863_j7456063226141_3_alg».proof.Proof.KTerms
import Idealize.ShloMosaic.PureOps.Ideal
import Idealize.ShloMosaic.Lib.StableHlo.Run

set_option maxRecDepth 16384

noncomputable section

namespace Cert.KernelIdeal.KHost0

open Idealize.ShloMosaic Idealize.ShloMosaic.TcCoe Idealize.SL.Sem Idealize.ShloMosaic.StableHlo
open Cert.KernelIdeal Cert.KernelIdeal.Gen Cert.KernelIdeal.KTerms

variable (m : (ℓ : Loc nD τ sig) → Buf (Elt Ideal) ℓ) (ρ : Dev nD → PrngReg) (c : Dev nD)

/-- No operation of the named stretch writes the buffer in the goal: the stretch's result buffers are listed, and each is
    another reference than the one asked about. -/
local macro "not_written " h:ident : tactic =>
  `(tactic| exact List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## What each stretch computes, from whatever the buffers hold before it -/

/-- Contents carried to a typed reference's buffer type and back are the contents: the two transports run along one
    equation and its inverse. -/
theorem ofBuf_toBuf {T : BufTy} (x : StableHlo.TRef sig T) (v : T.Contents (Elt Ideal)) :
    x.ofBuf (x.toBuf v) = v := by
  cases x with
  | mk r h hd hu => cases h; rfl

/-- The first stretch leaves row 1 of the edge list, reshaped to a vector, in the targets' buffer. -/
theorem ops0_dst (V : Valuation τ sig (Elt Ideal)) :
    StableHlo.after hostOps0 V (Proc.devRef .tc main_v3) = dstK (V (Proc.devRef .tc main_arg18)) := by
  dsimp only [hostOps0]
  after_results
  rfl

/-- The first stretch leaves row 0 of the edge list, reshaped to a vector, in the sources' buffer. -/
theorem ops0_src (V : Valuation τ sig (Elt Ideal)) :
    StableHlo.after hostOps0 V (Proc.devRef .tc main_v1) = srcK (V (Proc.devRef .tc main_arg18)) := by
  dsimp only [hostOps0]
  after_results
  rfl

set_option maxHeartbeats 1000000 in
/-- The first stretch's scale: the scale parameter times the reciprocal standard deviation, as one row. -/
theorem ops0_scale (V : Valuation τ sig (Elt Ideal)) :
    StableHlo.after hostOps0 V (Proc.devRef .tc main_v18)
      = scaleK (V (Proc.devRef .tc main_arg0)) (V (Proc.devRef .tc main_arg2)) := by
  dsimp only [hostOps0]
  after_results
  rfl

set_option maxHeartbeats 1000000 in
/-- The first stretch's shift: the shift parameter less mean times scale parameter times reciprocal standard deviation. -/
theorem ops0_shift (V : Valuation τ sig (Elt Ideal)) :
    StableHlo.after hostOps0 V (Proc.devRef .tc main_v22)
      = shiftK (V (Proc.devRef .tc main_arg0)) (V (Proc.devRef .tc main_arg2)) (V (Proc.devRef .tc main_arg3)) := by
  dsimp only [hostOps0]
  after_results
  rfl

set_option maxHeartbeats 1000000 in
/-- The second stretch is the row-take of the node features at the targets. -/
theorem ops0_1_take (V : Valuation τ sig (Elt Ideal)) :
    StableHlo.after hostOps0_1 V (Proc.devRef .tc main_v23)
      = take4K (V (Proc.devRef .tc main_arg0)) (V (Proc.devRef .tc main_v3)) := by
  dsimp only [hostOps0_1]
  after_results_simp
  simp only [ofBuf_toBuf]
  simp only [StableHlo.TRef.ofBuf, StableHlo.TRef.toBuf, cast_eq]
  unfold take4K inRangeK wrapColK
  rfl

set_option maxHeartbeats 1000000 in
/-- The third stretch is the row-take of the node features at the sources. -/
theorem ops0_2_take (V : Valuation τ sig (Elt Ideal)) :
    StableHlo.after hostOps0_2 V (Proc.devRef .tc main_v24)
      = take4K (V (Proc.devRef .tc main_arg0)) (V (Proc.devRef .tc main_v1)) := by
  dsimp only [hostOps0_2]
  after_results_simp
  simp only [ofBuf_toBuf]
  simp only [StableHlo.TRef.ofBuf, StableHlo.TRef.toBuf, cast_eq]
  unfold take4K inRangeK wrapColK
  rfl

/-- The fourth stretch lays the encoder's weights out as the kernel takes them. -/
theorem ops0_3_w1i (V : Valuation τ sig (Elt Ideal)) :
    StableHlo.after hostOps0_3 V (Proc.devRef .tc main_v26) = w1iK (V (Proc.devRef .tc main_arg4)) := by
  dsimp only [hostOps0_3]
  after_results
  rfl
theorem ops0_3_w1j (V : Valuation τ sig (Elt Ideal)) :
    StableHlo.after hostOps0_3 V (Proc.devRef .tc main_v28) = w1jK (V (Proc.devRef .tc main_arg4)) := by
  dsimp only [hostOps0_3]
  after_results
  rfl
theorem ops0_3_b1 (V : Valuation τ sig (Elt Ideal)) :
    StableHlo.after hostOps0_3 V (Proc.devRef .tc main_v30) = row32K (V (Proc.devRef .tc main_arg5)) := by
  dsimp only [hostOps0_3]
  after_results
  rfl
theorem ops0_3_w2 (V : Valuation τ sig (Elt Ideal)) :
    StableHlo.after hostOps0_3 V (Proc.devRef .tc main_v29) = tr32K (V (Proc.devRef .tc main_arg6)) := by
  dsimp only [hostOps0_3]
  after_results
  rfl
theorem ops0_3_b2 (V : Valuation τ sig (Elt Ideal)) :
    StableHlo.after hostOps0_3 V (Proc.devRef .tc main_v31) = row32K (V (Proc.devRef .tc main_arg7)) := by
  dsimp only [hostOps0_3]
  after_results
  rfl

/-! ## A buffer that a stretch does not write keeps its contents across it -/

theorem w1_keep (b : Ref sig .tc) (h0 : ∀ op ∈ (hostOps0 : List (HloOp τ sig (Elt Ideal))), Proc.devRef .tc b ∉ op.writes) :
    W1 m ρ c (Proc.devRef .tc b) = W0 m ρ c (Proc.devRef .tc b) :=
  StableHlo.after_of_forall_not_mem _ _ h0

theorem w2_keep (b : Ref sig .tc) (h1 : ∀ op ∈ (hostOps0_1 : List (HloOp τ sig (Elt Ideal))), Proc.devRef .tc b ∉ op.writes) :
    W2 m ρ c (Proc.devRef .tc b) = W1 m ρ c (Proc.devRef .tc b) :=
  StableHlo.after_of_forall_not_mem _ _ h1

theorem w3_keep (b : Ref sig .tc) (h2 : ∀ op ∈ (hostOps0_2 : List (HloOp τ sig (Elt Ideal))), Proc.devRef .tc b ∉ op.writes) :
    W3 m ρ c (Proc.devRef .tc b) = W2 m ρ c (Proc.devRef .tc b) :=
  StableHlo.after_of_forall_not_mem _ _ h2

theorem w4_keep (b : Ref sig .tc) (h3 : ∀ op ∈ (hostOps0_3 : List (HloOp τ sig (Elt Ideal))), Proc.devRef .tc b ∉ op.writes) :
    W4 m ρ c (Proc.devRef .tc b) = W3 m ρ c (Proc.devRef .tc b) :=
  StableHlo.after_of_forall_not_mem _ _ h3

/-- A buffer that only the first stretch writes holds at the first region's entry what that stretch left in it. -/
theorem w4_eq_w1 (b : Ref sig .tc) (h3 : ∀ op ∈ (hostOps0_3 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes) :
    W4 m ρ c (Proc.devRef .tc b) = W1 m ρ c (Proc.devRef .tc b) :=
  (w4_keep m ρ c b h3).trans ((w3_keep m ρ c b h2).trans (w2_keep m ρ c b h1))

/-- A buffer the first stretch does not write holds after it what the launch put there. -/
theorem w1_arg (b : Ref sig .tc) (h0 : ∀ op ∈ (hostOps0 : List (HloOp τ sig (Elt Ideal))), Proc.devRef .tc b ∉ op.writes) :
    W1 m ρ c (Proc.devRef .tc b) = m ((c : Thread nD τ).loc b) :=
  (w1_keep m ρ c b h0).trans rfl

theorem w2_arg (b : Ref sig .tc) (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W2 m ρ c (Proc.devRef .tc b) = m ((c : Thread nD τ).loc b) :=
  (w2_keep m ρ c b h1).trans (w1_arg m ρ c b h0)

theorem w3_arg (b : Ref sig .tc) (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W3 m ρ c (Proc.devRef .tc b) = m ((c : Thread nD τ).loc b) :=
  (w3_keep m ρ c b h2).trans (w2_arg m ρ c b h1 h0)

/-- A buffer no stretch before the first region writes holds at its entry what the launch put there. -/
theorem w4_arg (b : Ref sig .tc) (h3 : ∀ op ∈ (hostOps0_3 : List (HloOp τ sig (Elt Ideal))), Proc.devRef .tc b ∉ op.writes)
    (h2 : ∀ op ∈ (hostOps0_2 : List (HloOp τ sig (Elt Ideal))), Proc.devRef .tc b ∉ op.writes)
    (h1 : ∀ op ∈ (hostOps0_1 : List (HloOp τ sig (Elt Ideal))), Proc.devRef .tc b ∉ op.writes)
    (h0 : ∀ op ∈ (hostOps0 : List (HloOp τ sig (Elt Ideal))), Proc.devRef .tc b ∉ op.writes) :
    W4 m ρ c (Proc.devRef .tc b) = m ((c : Thread nD τ).loc b) :=
  (w4_keep m ρ c b h3).trans (w3_arg m ρ c b h2 h1 h0)

/-- The targets after the first stretch. -/
theorem w1_dst : W1 m ρ c (Proc.devRef .tc main_v3) = dstK (m ((c : Thread nD τ).loc main_arg18)) :=
  ops0_dst (W0 m ρ c)

/-- The sources after the first stretch. -/
theorem w1_src : W1 m ρ c (Proc.devRef .tc main_v1) = srcK (m ((c : Thread nD τ).loc main_arg18)) :=
  ops0_src (W0 m ρ c)

/-! ## The first region's operands, and the buffers that later stretches read again -/

/-- The target rows of the node features. -/
theorem v4_xi :
    V4 m ρ c main_v23
      = take4K (m ((c : Thread nD τ).loc main_arg0)) (dstK (m ((c : Thread nD τ).loc main_arg18))) :=
  ((w4_keep m ρ c main_v23 (by not_written hostOps0_3)).trans
      (w3_keep m ρ c main_v23 (by not_written hostOps0_2))).trans
    ((ops0_1_take (W1 m ρ c)).trans
      (congrArg₂ take4K (w1_arg m ρ c main_arg0 (by not_written hostOps0)) (w1_dst m ρ c)))
/-- The source rows of the node features. -/
theorem v4_xj :
    V4 m ρ c main_v24
      = take4K (m ((c : Thread nD τ).loc main_arg0)) (srcK (m ((c : Thread nD τ).loc main_arg18))) :=
  (w4_keep m ρ c main_v24 (by not_written hostOps0_3)).trans
    ((ops0_2_take (W2 m ρ c)).trans
      (congrArg₂ take4K (w2_arg m ρ c main_arg0 (by not_written hostOps0_1) (by not_written hostOps0))
        ((w2_keep m ρ c main_v1 (by not_written hostOps0_1)).trans (w1_src m ρ c))))
/-- The folded normalisation's scale. -/
theorem v4_scale :
    V4 m ρ c main_v18
      = scaleK (m ((c : Thread nD τ).loc main_arg0)) (m ((c : Thread nD τ).loc main_arg2)) :=
  (w4_eq_w1 m ρ c main_v18 (by not_written hostOps0_3) (by not_written hostOps0_2)
    (by not_written hostOps0_1)).trans (ops0_scale (W0 m ρ c))
/-- The folded normalisation's shift. -/
theorem v4_shift :
    V4 m ρ c main_v22
      = shiftK (m ((c : Thread nD τ).loc main_arg0)) (m ((c : Thread nD τ).loc main_arg2)) (m ((c : Thread nD τ).loc main_arg3)) :=
  (w4_eq_w1 m ρ c main_v22 (by not_written hostOps0_3) (by not_written hostOps0_2)
    (by not_written hostOps0_1)).trans (ops0_shift (W0 m ρ c))
/-- The first half of the first weight. -/
theorem v4_w1i :
    V4 m ρ c main_v26
      = w1iK (m ((c : Thread nD τ).loc main_arg4)) :=
  (ops0_3_w1i (W3 m ρ c)).trans (congrArg w1iK
    (w3_arg m ρ c main_arg4 (by not_written hostOps0_2) (by not_written hostOps0_1)
      (by not_written hostOps0)))
/-- The second half of the first weight. -/
theorem v4_w1j :
    V4 m ρ c main_v28
      = w1jK (m ((c : Thread nD τ).loc main_arg4)) :=
  (ops0_3_w1j (W3 m ρ c)).trans (congrArg w1jK
    (w3_arg m ρ c main_arg4 (by not_written hostOps0_2) (by not_written hostOps0_1)
      (by not_written hostOps0)))
/-- The first bias. -/
theorem v4_b1 :
    V4 m ρ c main_v30
      = row32K (m ((c : Thread nD τ).loc main_arg5)) :=
  (ops0_3_b1 (W3 m ρ c)).trans (congrArg row32K
    (w3_arg m ρ c main_arg5 (by not_written hostOps0_2) (by not_written hostOps0_1)
      (by not_written hostOps0)))
/-- The second weight. -/
theorem v4_w2 :
    V4 m ρ c main_v29
      = tr32K (m ((c : Thread nD τ).loc main_arg6)) :=
  (ops0_3_w2 (W3 m ρ c)).trans (congrArg tr32K
    (w3_arg m ρ c main_arg6 (by not_written hostOps0_2) (by not_written hostOps0_1)
      (by not_written hostOps0)))
/-- The second bias. -/
theorem v4_b2 :
    V4 m ρ c main_v31
      = row32K (m ((c : Thread nD τ).loc main_arg7)) :=
  (ops0_3_b2 (W3 m ρ c)).trans (congrArg row32K
    (w3_arg m ρ c main_arg7 (by not_written hostOps0_2) (by not_written hostOps0_1)
      (by not_written hostOps0)))
/-- The targets, as every later stretch reads them. -/
theorem w4_dst :
    W4 m ρ c (Proc.devRef .tc main_v3)
      = dstK (m ((c : Thread nD τ).loc main_arg18)) :=
  (w4_eq_w1 m ρ c main_v3 (by not_written hostOps0_3) (by not_written hostOps0_2)
    (by not_written hostOps0_1)).trans (w1_dst m ρ c)
/-- The sources, as every later stretch reads them. -/
theorem w4_src :
    W4 m ρ c (Proc.devRef .tc main_v1)
      = srcK (m ((c : Thread nD τ).loc main_arg18)) :=
  (w4_eq_w1 m ρ c main_v1 (by not_written hostOps0_3) (by not_written hostOps0_2)
    (by not_written hostOps0_1)).trans (w1_src m ρ c)
/-- Argument 1 is not written before the first region. -/
theorem w4_arg1 :
    W4 m ρ c (Proc.devRef .tc main_arg1)
      = (m ((c : Thread nD τ).loc main_arg1)) :=
  w4_arg m ρ c main_arg1 (by not_written hostOps0_3) (by not_written hostOps0_2) (by not_written hostOps0_1)
    (by not_written hostOps0)
/-- Argument 8 is not written before the first region. -/
theorem w4_arg8 :
    W4 m ρ c (Proc.devRef .tc main_arg8)
      = (m ((c : Thread nD τ).loc main_arg8)) :=
  w4_arg m ρ c main_arg8 (by not_written hostOps0_3) (by not_written hostOps0_2) (by not_written hostOps0_1)
    (by not_written hostOps0)
/-- Argument 9 is not written before the first region. -/
theorem w4_arg9 :
    W4 m ρ c (Proc.devRef .tc main_arg9)
      = (m ((c : Thread nD τ).loc main_arg9)) :=
  w4_arg m ρ c main_arg9 (by not_written hostOps0_3) (by not_written hostOps0_2) (by not_written hostOps0_1)
    (by not_written hostOps0)
/-- Argument 10 is not written before the first region. -/
theorem w4_arg10 :
    W4 m ρ c (Proc.devRef .tc main_arg10)
      = (m ((c : Thread nD τ).loc main_arg10)) :=
  w4_arg m ρ c main_arg10 (by not_written hostOps0_3) (by not_written hostOps0_2) (by not_written hostOps0_1)
    (by not_written hostOps0)
/-- Argument 11 is not written before the first region. -/
theorem w4_arg11 :
    W4 m ρ c (Proc.devRef .tc main_arg11)
      = (m ((c : Thread nD τ).loc main_arg11)) :=
  w4_arg m ρ c main_arg11 (by not_written hostOps0_3) (by not_written hostOps0_2) (by not_written hostOps0_1)
    (by not_written hostOps0)
/-- Argument 12 is not written before the first region. -/
theorem w4_arg12 :
    W4 m ρ c (Proc.devRef .tc main_arg12)
      = (m ((c : Thread nD τ).loc main_arg12)) :=
  w4_arg m ρ c main_arg12 (by not_written hostOps0_3) (by not_written hostOps0_2) (by not_written hostOps0_1)
    (by not_written hostOps0)
/-- Argument 13 is not written before the first region. -/
theorem w4_arg13 :
    W4 m ρ c (Proc.devRef .tc main_arg13)
      = (m ((c : Thread nD τ).loc main_arg13)) :=
  w4_arg m ρ c main_arg13 (by not_written hostOps0_3) (by not_written hostOps0_2) (by not_written hostOps0_1)
    (by not_written hostOps0)
/-- Argument 14 is not written before the first region. -/
theorem w4_arg14 :
    W4 m ρ c (Proc.devRef .tc main_arg14)
      = (m ((c : Thread nD τ).loc main_arg14)) :=
  w4_arg m ρ c main_arg14 (by not_written hostOps0_3) (by not_written hostOps0_2) (by not_written hostOps0_1)
    (by not_written hostOps0)
/-- Argument 15 is not written before the first region. -/
theorem w4_arg15 :
    W4 m ρ c (Proc.devRef .tc main_arg15)
      = (m ((c : Thread nD τ).loc main_arg15)) :=
  w4_arg m ρ c main_arg15 (by not_written hostOps0_3) (by not_written hostOps0_2) (by not_written hostOps0_1)
    (by not_written hostOps0)
/-- Argument 16 is not written before the first region. -/
theorem w4_arg16 :
    W4 m ρ c (Proc.devRef .tc main_arg16)
      = (m ((c : Thread nD τ).loc main_arg16)) :=
  w4_arg m ρ c main_arg16 (by not_written hostOps0_3) (by not_written hostOps0_2) (by not_written hostOps0_1)
    (by not_written hostOps0)
/-- Argument 17 is not written before the first region. -/
theorem w4_arg17 :
    W4 m ρ c (Proc.devRef .tc main_arg17)
      = (m ((c : Thread nD τ).loc main_arg17)) :=
  w4_arg m ρ c main_arg17 (by not_written hostOps0_3) (by not_written hostOps0_2) (by not_written hostOps0_1)
    (by not_written hostOps0)

end Cert.KernelIdeal.KHost0

end
-- ==== Proof.KHost1.lean ====
/-
  The buffers the second kernel region finds, read off the first region's exit contents and the host operations
  between the two: the aggregated node features (the first region's output averaged over incoming edges), the noise,
  and the two heads' parameters as the kernel takes them; and the buffers that later stretches read again.
-/
import proofs.«417863_j7456063226141_3_alg».proof.Proof.Gen.KernelIdeal.Frame
import proofs.«417863_j7456063226141_3_alg».proof.Proof.KTerms
import proofs.«417863_j7456063226141_3_alg».proof.Proof.KHost0
import Idealize.ShloMosaic.PureOps.Ideal
import Idealize.ShloMosaic.Lib.StableHlo.Run

set_option maxRecDepth 16384

noncomputable section

namespace Cert.KernelIdeal.KHost1

open Idealize.ShloMosaic Idealize.ShloMosaic.TcCoe Idealize.SL.Sem Idealize.ShloMosaic.StableHlo
open Cert.KernelIdeal Cert.KernelIdeal.Gen Cert.KernelIdeal.KTerms

variable (m : (ℓ : Loc nD τ sig) → Buf (Elt Ideal) ℓ) (ρ : Dev nD → PrngReg) (c : Dev nD)

/-- No operation of the named stretch writes the buffer in the goal: the stretch's result buffers are listed, and each is
    another reference than the one asked about. -/
local macro "not_written " h:ident : tactic =>
  `(tactic| exact List.forall_iff_forall_mem.mp (by
      simp only [$h:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-! ## What the stretch between the first two regions computes, from whatever the buffers hold before it -/

set_option maxHeartbeats 1000000 in
/-- The mean over incoming edges of the rows in the first region's output buffer, at the targets' buffer as index row. -/
theorem ops1_h (V : Valuation τ sig (Elt Ideal)) :
    StableHlo.after hostOps1 V (Proc.devRef .tc main_v44)
      = agg32K (V (Proc.devRef .tc main_v3)) (V (Proc.devRef .tc main_v32)) := by
  dsimp only [hostOps1]
  after_results
  rfl

set_option maxHeartbeats 1000000 in
/-- The floored count of incoming edges, at the targets' buffer as index row. -/
theorem ops1_cnt (V : Valuation τ sig (Elt Ideal)) :
    StableHlo.after hostOps1 V (Proc.devRef .tc main_v42) = cntK (V (Proc.devRef .tc main_v3)) := by
  dsimp only [hostOps1]
  after_results
  rfl

/-- The two heads' weights transposed and their biases as one-row arrays. -/
theorem ops1_muw (V : Valuation τ sig (Elt Ideal)) :
    StableHlo.after hostOps1 V (Proc.devRef .tc main_v45) = trHeadK (V (Proc.devRef .tc main_arg8)) := by
  dsimp only [hostOps1]
  after_results
  rfl
theorem ops1_mub (V : Valuation τ sig (Elt Ideal)) :
    StableHlo.after hostOps1 V (Proc.devRef .tc main_v47) = row2K (V (Proc.devRef .tc main_arg9)) := by
  dsimp only [hostOps1]
  after_results
  rfl
theorem ops1_varw (V : Valuation τ sig (Elt Ideal)) :
    StableHlo.after hostOps1 V (Proc.devRef .tc main_v46) = trHeadK (V (Proc.devRef .tc main_arg10)) := by
  dsimp only [hostOps1]
  after_results
  rfl
theorem ops1_varb (V : Valuation τ sig (Elt Ideal)) :
    StableHlo.after hostOps1 V (Proc.devRef .tc main_v48) = row2K (V (Proc.devRef .tc main_arg11)) := by
  dsimp only [hostOps1]
  after_results
  rfl

/-! ## Buffers the first region does not write, at its exit -/

/-- The targets at the first region's exit. -/
theorem w5_dst : W5 m ρ c (Proc.devRef .tc main_v3) = dstK (m ((c : Thread nD τ).loc main_arg18)) :=
  (W5_of_ne m ρ c main_v3 (by decide)).trans (KHost0.w4_dst m ρ c)
/-- The sources at the first region's exit. -/
theorem w5_src : W5 m ρ c (Proc.devRef .tc main_v1) = srcK (m ((c : Thread nD τ).loc main_arg18)) :=
  (W5_of_ne m ρ c main_v1 (by decide)).trans (KHost0.w4_src m ρ c)
/-- Argument 1 at the first region's exit. -/
theorem w5_arg1 : W5 m ρ c (Proc.devRef .tc main_arg1) = m ((c : Thread nD τ).loc main_arg1) :=
  (W5_of_ne m ρ c main_arg1 (by decide)).trans (KHost0.w4_arg1 m ρ c)
/-- Argument 8 at the first region's exit. -/
theorem w5_arg8 : W5 m ρ c (Proc.devRef .tc main_arg8) = m ((c : Thread nD τ).loc main_arg8) :=
  (W5_of_ne m ρ c main_arg8 (by decide)).trans (KHost0.w4_arg8 m ρ c)
/-- Argument 9 at the first region's exit. -/
theorem w5_arg9 : W5 m ρ c (Proc.devRef .tc main_arg9) = m ((c : Thread nD τ).loc main_arg9) :=
  (W5_of_ne m ρ c main_arg9 (by decide)).trans (KHost0.w4_arg9 m ρ c)
/-- Argument 10 at the first region's exit. -/
theorem w5_arg10 : W5 m ρ c (Proc.devRef .tc main_arg10) = m ((c : Thread nD τ).loc main_arg10) :=
  (W5_of_ne m ρ c main_arg10 (by decide)).trans (KHost0.w4_arg10 m ρ c)
/-- Argument 11 at the first region's exit. -/
theorem w5_arg11 : W5 m ρ c (Proc.devRef .tc main_arg11) = m ((c : Thread nD τ).loc main_arg11) :=
  (W5_of_ne m ρ c main_arg11 (by decide)).trans (KHost0.w4_arg11 m ρ c)
/-- Argument 12 at the first region's exit. -/
theorem w5_arg12 : W5 m ρ c (Proc.devRef .tc main_arg12) = m ((c : Thread nD τ).loc main_arg12) :=
  (W5_of_ne m ρ c main_arg12 (by decide)).trans (KHost0.w4_arg12 m ρ c)
/-- Argument 13 at the first region's exit. -/
theorem w5_arg13 : W5 m ρ c (Proc.devRef .tc main_arg13) = m ((c : Thread nD τ).loc main_arg13) :=
  (W5_of_ne m ρ c main_arg13 (by decide)).trans (KHost0.w4_arg13 m ρ c)
/-- Argument 14 at the first region's exit. -/
theorem w5_arg14 : W5 m ρ c (Proc.devRef .tc main_arg14) = m ((c : Thread nD τ).loc main_arg14) :=
  (W5_of_ne m ρ c main_arg14 (by decide)).trans (KHost0.w4_arg14 m ρ c)
/-- Argument 15 at the first region's exit. -/
theorem w5_arg15 : W5 m ρ c (Proc.devRef .tc main_arg15) = m ((c : Thread nD τ).loc main_arg15) :=
  (W5_of_ne m ρ c main_arg15 (by decide)).trans (KHost0.w4_arg15 m ρ c)
/-- Argument 16 at the first region's exit. -/
theorem w5_arg16 : W5 m ρ c (Proc.devRef .tc main_arg16) = m ((c : Thread nD τ).loc main_arg16) :=
  (W5_of_ne m ρ c main_arg16 (by decide)).trans (KHost0.w4_arg16 m ρ c)
/-- Argument 17 at the first region's exit. -/
theorem w5_arg17 : W5 m ρ c (Proc.devRef .tc main_arg17) = m ((c : Thread nD τ).loc main_arg17) :=
  (W5_of_ne m ρ c main_arg17 (by decide)).trans (KHost0.w4_arg17 m ρ c)

/-- A buffer the stretch between the first two regions does not write keeps its contents across it. -/
theorem w6_keep (b : Ref sig .tc) (h : ∀ op ∈ (hostOps1 : List (HloOp τ sig (Elt Ideal))), Proc.devRef .tc b ∉ op.writes) :
    W6 m ρ c (Proc.devRef .tc b) = W5 m ρ c (Proc.devRef .tc b) :=
  StableHlo.after_of_forall_not_mem _ _ h

/-! ## The second region's operands, and the buffers that later stretches read again -/

/-- The aggregated node features, from the first region's output array. -/
theorem v6_h :
    V6 m ρ c main_v44
      = agg32K (dstK (m ((c : Thread nD τ).loc main_arg18))) (W5 m ρ c (Proc.devRef .tc main_v32)) :=
  (ops1_h (W5 m ρ c)).trans
    (congrArg (fun v => agg32K v (W5 m ρ c (Proc.devRef .tc main_v32))) (w5_dst m ρ c))
/-- The noise. -/
theorem v6_eps :
    V6 m ρ c main_arg1
      = (m ((c : Thread nD τ).loc main_arg1)) :=
  (w6_keep m ρ c main_arg1 (by not_written hostOps1)).trans (w5_arg1 m ρ c)
/-- The mean head's weight. -/
theorem v6_muw :
    V6 m ρ c main_v45
      = trHeadK (m ((c : Thread nD τ).loc main_arg8)) :=
  (ops1_muw (W5 m ρ c)).trans (congrArg trHeadK (w5_arg8 m ρ c))
/-- The mean head's bias. -/
theorem v6_mub :
    V6 m ρ c main_v47
      = row2K (m ((c : Thread nD τ).loc main_arg9)) :=
  (ops1_mub (W5 m ρ c)).trans (congrArg row2K (w5_arg9 m ρ c))
/-- The log-variance head's weight. -/
theorem v6_varw :
    V6 m ρ c main_v46
      = trHeadK (m ((c : Thread nD τ).loc main_arg10)) :=
  (ops1_varw (W5 m ρ c)).trans (congrArg trHeadK (w5_arg10 m ρ c))
/-- The log-variance head's bias. -/
theorem v6_varb :
    V6 m ρ c main_v48
      = row2K (m ((c : Thread nD τ).loc main_arg11)) :=
  (ops1_varb (W5 m ρ c)).trans (congrArg row2K (w5_arg11 m ρ c))
/-- The targets at the second region's entry. -/
theorem w6_dst :
    W6 m ρ c (Proc.devRef .tc main_v3)
      = dstK (m ((c : Thread nD τ).loc main_arg18)) :=
  (w6_keep m ρ c main_v3 (by not_written hostOps1)).trans (w5_dst m ρ c)
/-- The sources at the second region's entry. -/
theorem w6_src :
    W6 m ρ c (Proc.devRef .tc main_v1)
      = srcK (m ((c : Thread nD τ).loc main_arg18)) :=
  (w6_keep m ρ c main_v1 (by not_written hostOps1)).trans (w5_src m ρ c)
/-- The floored count of incoming edges, computed once and read again after the third region. -/
theorem w6_cnt :
    W6 m ρ c (Proc.devRef .tc main_v42)
      = cntK (dstK (m ((c : Thread nD τ).loc main_arg18))) :=
  (ops1_cnt (W5 m ρ c)).trans (congrArg cntK (w5_dst m ρ c))
/-- Argument 12 is not written before the second region. -/
theorem w6_arg12 :
    W6 m ρ c (Proc.devRef .tc main_arg12)
      = (m ((c : Thread nD τ).loc main_arg12)) :=
  (w6_keep m ρ c main_arg12 (by not_written hostOps1)).trans (w5_arg12 m ρ c)
/-- Argument 13 is not written before the second region. -/
theorem w6_arg13 :
    W6 m ρ c (Proc.devRef .tc main_arg13)
      = (m ((c : Thread nD τ).loc main_arg13)) :=
  (w6_keep m ρ c main_arg13 (by not_written hostOps1)).trans (w5_arg13 m ρ c)
/-- Argument 14 is not written before the second region. -/
theorem w6_arg14 :
    W6 m ρ c (Proc.devRef .tc main_arg14)
      = (m ((c : Thread nD τ).loc main_arg14)) :=
  (w6_keep m ρ c main_arg14 (by not_written hostOps1)).trans (w5_arg14 m ρ c)
/-- Argument 15 is not written before the second region. -/
theorem w6_arg15 :
    W6 m ρ c (Proc.devRef .tc main_arg15)
      = (m ((c : Thread nD τ).loc main_arg15)) :=
  (w6_keep m ρ c main_arg15 (by not_written hostOps1)).trans (w5_arg15 m ρ c)
/-- Argument 16 is not written before the second region. -/
theorem w6_arg16 :
    W6 m ρ c (Proc.devRef .tc main_arg16)
      = (m ((c : Thread nD τ).loc main_arg16)) :=
  (w6_keep m ρ c main_arg16 (by not_written hostOps1)).trans (w5_arg16 m ρ c)
/-- Argument 17 is not written before the second region. -/
theorem w6_arg17 :
    W6 m ρ c (Proc.devRef .tc main_arg17)
      = (m ((c : Thread nD τ).loc main_arg17)) :=
  (w6_keep m ρ c main_arg17 (by not_written hostOps1)).trans (w5_arg17 m ρ c)

end Cert.KernelIdeal.KHost1

end
-- ==== Proof.KHost2.lean ====
/-
  The buffers the third kernel region finds, read off the second region's exit contents and the host operations
  between the two: the two row-takes of the latent table (the second region's third output) at the targets and at the
  sources, and the decoder's weights as the kernel takes them; and the buffers the last stretch reads again.
-/
import proofs.«417863_j7456063226141_3_alg».proof.Proof.Gen.KernelIdeal.Frame
import proofs.«417863_j7456063226141_3_alg».proof.Proof.KTerms
import proofs.«417863_j7456063226141_3_alg».proof.Proof.KHost1
import Idealize.ShloMosaic.PureOps.Ideal
import Idealize.ShloMosaic.Lib.StableHlo.Run

set_option maxRecDepth 16384

noncomputable section

namespace Cert.KernelIdeal.KHost2

open Idealize.ShloMosaic Idealize.ShloMosaic.TcCoe Idealize.SL.Sem Idealize.ShloMosaic.StableHlo
open Cert.KernelIdeal Cert.KernelIdeal.Gen Cert.KernelIdeal.KTerms

variable (m : (ℓ : Loc nD τ sig) → Buf (Elt Ideal) ℓ) (ρ : Dev nD → PrngReg) (c : Dev nD)

/-- "No operation of this literal stretch writes the buffer": the stretch is spelt out, each operation writes one
    buffer, and each of those differs from the buffer in hand (decided on the references). -/
syntax "host2_unwritten " ident : tactic
macro_rules
  | `(tactic| host2_unwritten $ops:ident) =>
    `(tactic| exact List.forall_iff_forall_mem.mp (by
        simp only [$ops:ident, List.flatten_cons, List.flatten_nil, List.append_nil, List.cons_append,
          List.nil_append, List.Forall, StableHlo.nullary_writes, StableHlo.unary_writes, StableHlo.binary_writes,
          StableHlo.ternary_writes, StableHlo.quaternary_writes, StableHlo.reshape_writes,
          StableHlo.binaryIndexed_writes, Finset.mem_singleton]
        repeat' apply And.intro
        all_goals exact StableHlo.devRef_ne_of_ne (by decide)))

/-! ## What the second region leaves of the buffers it does not write -/

/-- Argument 12 at the second region's exit: the region does not write it. -/
theorem w7_arg12 : W7 m ρ c (Proc.devRef .tc main_arg12) = m ((c : Thread nD τ).loc main_arg12) :=
  (W7_of_ne m ρ c main_arg12 (by decide)).trans (KHost1.w6_arg12 m ρ c)

/-- Argument 13 at the second region's exit: the region does not write it. -/
theorem w7_arg13 : W7 m ρ c (Proc.devRef .tc main_arg13) = m ((c : Thread nD τ).loc main_arg13) :=
  (W7_of_ne m ρ c main_arg13 (by decide)).trans (KHost1.w6_arg13 m ρ c)

/-- Argument 14 at the second region's exit: the region does not write it. -/
theorem w7_arg14 : W7 m ρ c (Proc.devRef .tc main_arg14) = m ((c : Thread nD τ).loc main_arg14) :=
  (W7_of_ne m ρ c main_arg14 (by decide)).trans (KHost1.w6_arg14 m ρ c)

/-- Argument 15 at the second region's exit: the region does not write it. -/
theorem w7_arg15 : W7 m ρ c (Proc.devRef .tc main_arg15) = m ((c : Thread nD τ).loc main_arg15) :=
  (W7_of_ne m ρ c main_arg15 (by decide)).trans (KHost1.w6_arg15 m ρ c)

/-- Argument 16 at the second region's exit: the region does not write it. -/
theorem w7_arg16 : W7 m ρ c (Proc.devRef .tc main_arg16) = m ((c : Thread nD τ).loc main_arg16) :=
  (W7_of_ne m ρ c main_arg16 (by decide)).trans (KHost1.w6_arg16 m ρ c)

/-- Argument 17 at the second region's exit: the region does not write it. -/
theorem w7_arg17 : W7 m ρ c (Proc.devRef .tc main_arg17) = m ((c : Thread nD τ).loc main_arg17) :=
  (W7_of_ne m ρ c main_arg17 (by decide)).trans (KHost1.w6_arg17 m ρ c)

/-- The targets at the second region's exit. -/
theorem w7_dst : W7 m ρ c (Proc.devRef .tc main_v3) = dstK (m ((c : Thread nD τ).loc main_arg18)) :=
  (W7_of_ne m ρ c main_v3 (by decide)).trans (KHost1.w6_dst m ρ c)
/-- The sources at the second region's exit. -/
theorem w7_src : W7 m ρ c (Proc.devRef .tc main_v1) = srcK (m ((c : Thread nD τ).loc main_arg18)) :=
  (W7_of_ne m ρ c main_v1 (by decide)).trans (KHost1.w6_src m ρ c)
/-- The floored count at the second region's exit. -/
theorem w7_cnt : W7 m ρ c (Proc.devRef .tc main_v42) = cntK (dstK (m ((c : Thread nD τ).loc main_arg18))) :=
  (W7_of_ne m ρ c main_v42 (by decide)).trans (KHost1.w6_cnt m ρ c)

/-! ## The row-takes of the latent table -/

/-- Contents moved to a typed reference's buffer type and back are unchanged: the two transports are along one
    equation and its inverse. -/
theorem ofBuf_toBuf {T : BufTy} (x : StableHlo.TRef sig T) (v : T.Contents (Elt Ideal)) :
    x.ofBuf (x.toBuf v) = v := by
  obtain ⟨r, rfl, hd, hu⟩ := x
  rfl

/-- The target rows of the latent table. -/
theorem v10_zi :
    V10 m ρ c main_v50
      = take2K (W7 m ρ c (Proc.devRef .tc main_v49_2)) (dstK (m ((c : Thread nD τ).loc main_arg18))) := by
  -- the stretch's results, read back to the second region's exit contents; the index row is the targets
  dsimp only [V10, W10, W9, W8, hostOps2_2, hostOps2_1, hostOps2]
  after_results_simp
  rw [w7_dst]
  -- the transports to and from each value's buffer type cancel, and at a literal buffer are the identity
  simp only [ofBuf_toBuf]
  simp only [StableHlo.TRef.ofBuf, StableHlo.TRef.toBuf, cast_eq]
  unfold take2K inRangeK wrapColK
  rfl
/-- The source rows of the latent table. -/
theorem v10_zj :
    V10 m ρ c main_v51
      = take2K (W7 m ρ c (Proc.devRef .tc main_v49_2)) (srcK (m ((c : Thread nD τ).loc main_arg18))) := by
  -- as for the targets, with the sources as the index row
  dsimp only [V10, W10, W9, W8, hostOps2_2, hostOps2_1, hostOps2]
  after_results_simp
  rw [w7_src]
  simp only [ofBuf_toBuf]
  simp only [StableHlo.TRef.ofBuf, StableHlo.TRef.toBuf, cast_eq]
  unfold take2K inRangeK wrapColK
  rfl

/-! ## The decoder's weights as the kernel takes them: slices, transposes and reshapes of arguments 12 to 17 -/

/-- The first half of the decoder's first weight. -/
theorem v10_w1i :
    V10 m ρ c main_v53
      = dw1iK (m ((c : Thread nD τ).loc main_arg12)) := by
  dsimp only [V10, W10, hostOps2_2]
  after_results
  rw [w7_arg12]
  rfl

/-- The second half of the decoder's first weight. -/
theorem v10_w1j :
    V10 m ρ c main_v55
      = dw1jK (m ((c : Thread nD τ).loc main_arg12)) := by
  dsimp only [V10, W10, hostOps2_2]
  after_results
  rw [w7_arg12]
  rfl

/-- The decoder's first bias. -/
theorem v10_b1 :
    V10 m ρ c main_v58
      = row32K (m ((c : Thread nD τ).loc main_arg13)) := by
  dsimp only [V10, W10, hostOps2_2]
  after_results
  rw [w7_arg13]
  rfl

/-- The decoder's second weight. -/
theorem v10_w2 :
    V10 m ρ c main_v56
      = tr32K (m ((c : Thread nD τ).loc main_arg14)) := by
  dsimp only [V10, W10, hostOps2_2]
  after_results
  rw [w7_arg14]
  rfl

/-- The decoder's second bias. -/
theorem v10_b2 :
    V10 m ρ c main_v59
      = row32K (m ((c : Thread nD τ).loc main_arg15)) := by
  dsimp only [V10, W10, hostOps2_2]
  after_results
  rw [w7_arg15]
  rfl

/-- The decoder's third weight. -/
theorem v10_w3 :
    V10 m ρ c main_v57
      = tr3K (m ((c : Thread nD τ).loc main_arg16)) := by
  dsimp only [V10, W10, hostOps2_2]
  after_results
  rw [w7_arg16]
  rfl

/-- The decoder's third bias. -/
theorem v10_b3 :
    V10 m ρ c main_v60
      = row4K (m ((c : Thread nD τ).loc main_arg17)) := by
  dsimp only [V10, W10, hostOps2_2]
  after_results
  rw [w7_arg17]
  rfl

/-! ## The buffers carried across the three stretches -/

/-- The targets at the third region's entry. -/
theorem w10_dst :
    W10 m ρ c (Proc.devRef .tc main_v3)
      = dstK (m ((c : Thread nD τ).loc main_arg18)) :=
  calc W10 m ρ c (Proc.devRef .tc main_v3)
    _ = W9 m ρ c (Proc.devRef .tc main_v3) :=
        StableHlo.after_of_forall_not_mem (b := Proc.devRef .tc main_v3) _ _ (by host2_unwritten hostOps2_2)
    _ = W8 m ρ c (Proc.devRef .tc main_v3) :=
        StableHlo.after_of_forall_not_mem (b := Proc.devRef .tc main_v3) _ _ (by host2_unwritten hostOps2_1)
    _ = W7 m ρ c (Proc.devRef .tc main_v3) :=
        StableHlo.after_of_forall_not_mem (b := Proc.devRef .tc main_v3) _ _ (by host2_unwritten hostOps2)
    _ = _ := w7_dst m ρ c
/-- The floored count at the third region's entry. -/
theorem w10_cnt :
    W10 m ρ c (Proc.devRef .tc main_v42)
      = cntK (dstK (m ((c : Thread nD τ).loc main_arg18))) :=
  calc W10 m ρ c (Proc.devRef .tc main_v42)
    _ = W9 m ρ c (Proc.devRef .tc main_v42) :=
        StableHlo.after_of_forall_not_mem (b := Proc.devRef .tc main_v42) _ _ (by host2_unwritten hostOps2_2)
    _ = W8 m ρ c (Proc.devRef .tc main_v42) :=
        StableHlo.after_of_forall_not_mem (b := Proc.devRef .tc main_v42) _ _ (by host2_unwritten hostOps2_1)
    _ = W7 m ρ c (Proc.devRef .tc main_v42) :=
        StableHlo.after_of_forall_not_mem (b := Proc.devRef .tc main_v42) _ _ (by host2_unwritten hostOps2)
    _ = _ := w7_cnt m ρ c
/-- The mean head's array is not written between the second and third regions. -/
theorem w10_mu :
    W10 m ρ c (Proc.devRef .tc main_v49_0)
      = W7 m ρ c (Proc.devRef .tc main_v49_0) :=
  calc W10 m ρ c (Proc.devRef .tc main_v49_0)
    _ = W9 m ρ c (Proc.devRef .tc main_v49_0) :=
        StableHlo.after_of_forall_not_mem (b := Proc.devRef .tc main_v49_0) _ _ (by host2_unwritten hostOps2_2)
    _ = W8 m ρ c (Proc.devRef .tc main_v49_0) :=
        StableHlo.after_of_forall_not_mem (b := Proc.devRef .tc main_v49_0) _ _ (by host2_unwritten hostOps2_1)
    _ = W7 m ρ c (Proc.devRef .tc main_v49_0) :=
        StableHlo.after_of_forall_not_mem (b := Proc.devRef .tc main_v49_0) _ _ (by host2_unwritten hostOps2)
/-- The log-variance head's array is not written between the second and third regions. -/
theorem w10_lv :
    W10 m ρ c (Proc.devRef .tc main_v49_1)
      = W7 m ρ c (Proc.devRef .tc main_v49_1) :=
  calc W10 m ρ c (Proc.devRef .tc main_v49_1)
    _ = W9 m ρ c (Proc.devRef .tc main_v49_1) :=
        StableHlo.after_of_forall_not_mem (b := Proc.devRef .tc main_v49_1) _ _ (by host2_unwritten hostOps2_2)
    _ = W8 m ρ c (Proc.devRef .tc main_v49_1) :=
        StableHlo.after_of_forall_not_mem (b := Proc.devRef .tc main_v49_1) _ _ (by host2_unwritten hostOps2_1)
    _ = W7 m ρ c (Proc.devRef .tc main_v49_1) :=
        StableHlo.after_of_forall_not_mem (b := Proc.devRef .tc main_v49_1) _ _ (by host2_unwritten hostOps2)

end Cert.KernelIdeal.KHost2

end
-- ==== Proof.KHost3.lean ====
/-
  The three results at the program's end, read off the third region's exit contents and the last host operations: the
  reconstruction is the third region's output averaged over incoming edges with the count computed after the first
  region; the two heads' arrays are what the second region left.
-/
import proofs.«417863_j7456063226141_3_alg».proof.Proof.Gen.KernelIdeal.Frame
import proofs.«417863_j7456063226141_3_alg».proof.Proof.KTerms
import proofs.«417863_j7456063226141_3_alg».proof.Proof.KHost2
import Idealize.ShloMosaic.PureOps.Ideal
import Idealize.ShloMosaic.Lib.StableHlo.Run

set_option maxRecDepth 16384

noncomputable section

namespace Cert.KernelIdeal.KHost3

open Idealize.ShloMosaic Idealize.ShloMosaic.TcCoe Idealize.SL.Sem Idealize.ShloMosaic.StableHlo
open Cert.KernelIdeal Cert.KernelIdeal.Gen Cert.KernelIdeal.KTerms

variable (m : (ℓ : Loc nD τ sig) → Buf (Elt Ideal) ℓ) (ρ : Dev nD → PrngReg) (c : Dev nD)

/-! ## What the third region leaves of the buffers it does not write -/

/-- The targets at the third region's exit: the region does not write them. -/
theorem w11_dst : W11 m ρ c (Proc.devRef .tc main_v3) = dstK (m ((c : Thread nD τ).loc main_arg18)) :=
  (W11_of_ne m ρ c main_v3 (by decide)).trans (KHost2.w10_dst m ρ c)
/-- The floored count at the third region's exit. -/
theorem w11_cnt : W11 m ρ c (Proc.devRef .tc main_v42) = cntK (dstK (m ((c : Thread nD τ).loc main_arg18))) :=
  (W11_of_ne m ρ c main_v42 (by decide)).trans (KHost2.w10_cnt m ρ c)

/-! ## The three results -/

/-- The reconstruction, from the third region's output array. -/
theorem w12_out :
    W12 m ρ c (Proc.devRef .tc main_v66)
      = agg4K (dstK (m ((c : Thread nD τ).loc main_arg18))) (W11 m ρ c (Proc.devRef .tc main_v61)) := by
  dsimp only [W12, hostOps3]
  after_results
  rw [w11_dst, w11_cnt]
  rfl
/-- The mean head's array at the end. -/
theorem w12_mu :
    W12 m ρ c (Proc.devRef .tc main_v49_0)
      = W7 m ρ c (Proc.devRef .tc main_v49_0) :=
  calc W12 m ρ c (Proc.devRef .tc main_v49_0)
    _ = W11 m ρ c (Proc.devRef .tc main_v49_0) :=
        StableHlo.after_of_forall_not_mem (b := Proc.devRef .tc main_v49_0) _ _ (by host2_unwritten hostOps3)
    _ = W10 m ρ c (Proc.devRef .tc main_v49_0) := W11_of_ne m ρ c main_v49_0 (by decide)
    _ = _ := KHost2.w10_mu m ρ c
/-- The log-variance head's array at the end. -/
theorem w12_lv :
    W12 m ρ c (Proc.devRef .tc main_v49_1)
      = W7 m ρ c (Proc.devRef .tc main_v49_1) :=
  calc W12 m ρ c (Proc.devRef .tc main_v49_1)
    _ = W11 m ρ c (Proc.devRef .tc main_v49_1) :=
        StableHlo.after_of_forall_not_mem (b := Proc.devRef .tc main_v49_1) _ _ (by host2_unwritten hostOps3)
    _ = W10 m ρ c (Proc.devRef .tc main_v49_1) := W11_of_ne m ρ c main_v49_1 (by decide)
    _ = _ := KHost2.w10_lv m ρ c

end Cert.KernelIdeal.KHost3

end
-- ==== Proof.R0Value.lean ====
/-
  The first kernel region (the encoder's per-edge network) read as a whole array.
  At each of the 400 grid points the body takes rows `8000·t … 8000·t + 7999` of the two gathered-feature arrays and the
  seven small parameter arrays whole, and stores one block of 8000 rows of 32. Each stored row depends only on the same
  row of the two row-indexed operands, so the blocks are the restrictions of ONE function of the whole arrays, and the
  400 blocks tile the 3,200,000 rows.

  The steps: the two contractions of the body read at an index as finite sums over the contracted axis; the body's stored
  block as the message function of its nine loaded blocks; the index maps decided over the grid; what a point writes back
  as its block of the message function of the whole arrays; the cover of the rows by the blocks.
-/
import proofs.«417863_j7456063226141_3_alg».proof.Proof.Gen.KernelIdeal.Frame
import proofs.«417863_j7456063226141_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.R0

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The zero offsets of a whole-block access, as the constant function. -/
theorem hz : (![0, 0] : Fin 2 → Nat) = fun _ => 0 := funext fun a => by fin_cases a <;> rfl

/-! ## The two contractions read at an index -/

/-- The four axis facts of the contraction of rows of 4 with a 4 × 32 matrix: the left operand is read at (row, k), the
    right at (k, column). -/
theorem lhs4_0 (i : S8000x32.Idx) (q : dot_S8000x4_S4x32_S8000x32_1_0_0_1_n_n.contr.Idx) :
    (dot_S8000x4_S4x32_S8000x32_1_0_0_1_n_n.lhsIdx i q 0).val = (i 0).val := by
  unfold DotDims.lhsIdx
  rw [dif_neg (show ¬(0 : Fin S8000x4.rank) ∈ dot_S8000x4_S4x32_S8000x32_1_0_0_1_n_n.lhsBatch by decide), dif_pos (show (0 : Fin S8000x4.rank) ∈ dot_S8000x4_S4x32_S8000x32_1_0_0_1_n_n.lhsNonContracting by decide)]
  rfl
theorem lhs4_1 (i : S8000x32.Idx) (q : dot_S8000x4_S4x32_S8000x32_1_0_0_1_n_n.contr.Idx) :
    (dot_S8000x4_S4x32_S8000x32_1_0_0_1_n_n.lhsIdx i q 1).val = (q ⟨0, by decide⟩).val :=
  dot_S8000x4_S4x32_S8000x32_1_0_0_1_n_n.lhsIdx_val_of_single rfl i q
theorem rhs4_0 (i : S8000x32.Idx) (q : dot_S8000x4_S4x32_S8000x32_1_0_0_1_n_n.contr.Idx) :
    (dot_S8000x4_S4x32_S8000x32_1_0_0_1_n_n.rhsIdx i q 0).val = (q ⟨0, by decide⟩).val :=
  dot_S8000x4_S4x32_S8000x32_1_0_0_1_n_n.rhsIdx_val_of_single rfl i q
theorem rhs4_1 (i : S8000x32.Idx) (q : dot_S8000x4_S4x32_S8000x32_1_0_0_1_n_n.contr.Idx) :
    (dot_S8000x4_S4x32_S8000x32_1_0_0_1_n_n.rhsIdx i q 1).val = (i 1).val := by
  unfold DotDims.rhsIdx
  rw [dif_neg (show ¬(1 : Fin S4x32.rank) ∈ dot_S8000x4_S4x32_S8000x32_1_0_0_1_n_n.rhsBatch by decide), dif_pos (show (1 : Fin S4x32.rank) ∈ dot_S8000x4_S4x32_S8000x32_1_0_0_1_n_n.rhsNonContracting by decide)]
  rfl

/-- A product of a block of rows of 4 with a 4 × 32 matrix, into zero, at row p and column q. -/
theorem matmul4_apply (a : FVec Ideal S8000x4 .f32) (b : FVec Ideal S4x32 .f32) (p : Fin 8000) (q : Fin 32) :
    matmul dot_S8000x4_S4x32_S8000x32_1_0_0_1_n_n none a b (constant (F := Ideal) S8000x32 .f32 0x00000000#32) (ix2 p q)
      = ∑ k : Fin 4, a (ix2 p k) * b (ix2 k q) := by
  simp only [matmul]
  rw [Ideal.matmul_constant_zero_apply, ← Equiv.sum_comp (contrEquiv1 dot_S8000x4_S4x32_S8000x32_1_0_0_1_n_n 4 rfl rfl).symm]
  refine Finset.sum_congr rfl fun k _ => ?_
  have hk := contrEquiv1_symm_val dot_S8000x4_S4x32_S8000x32_1_0_0_1_n_n 4 rfl rfl k
  have el : dot_S8000x4_S4x32_S8000x32_1_0_0_1_n_n.lhsIdx (ix2 p q) ((contrEquiv1 dot_S8000x4_S4x32_S8000x32_1_0_0_1_n_n 4 rfl rfl).symm k) = ix2 p k := funext fun ax => Fin.ext (by
    match ax with
    | ⟨0, _⟩ => exact lhs4_0 _ _
    | ⟨1, _⟩ => exact (lhs4_1 _ _).trans hk)
  have er : dot_S8000x4_S4x32_S8000x32_1_0_0_1_n_n.rhsIdx (ix2 p q) ((contrEquiv1 dot_S8000x4_S4x32_S8000x32_1_0_0_1_n_n 4 rfl rfl).symm k) = ix2 k q := funext fun ax => Fin.ext (by
    match ax with
    | ⟨0, _⟩ => exact (rhs4_0 _ _).trans hk
    | ⟨1, _⟩ => exact rhs4_1 _ _)
  rw [el, er]

/-- The same four facts for the contraction of rows of 32 with a 32 × 32 matrix. -/
theorem lhs32_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
theorem lhs32_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
theorem rhs32_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
theorem rhs32_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- A product of a block of rows of 32 with a 32 × 32 matrix, into zero, at row p and column q. -/
theorem matmul32_apply (a : FVec Ideal S8000x32 .f32) (b : FVec Ideal S32x32 .f32) (p : Fin 8000) (q : Fin 32) :
    matmul dot_S8000x32_S32x32_S8000x32_1_0_0_1_n_n none a b (constant (F := Ideal) S8000x32 .f32 0x00000000#32) (ix2 p q)
      = ∑ k : Fin 32, a (ix2 p k) * b (ix2 k q) := by
  simp only [matmul]
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q) ((contrEquiv1 dot_S8000x32_S32x32_S8000x32_1_0_0_1_n_n 32 rfl rfl).symm k) = ix2 p k := funext fun ax => Fin.ext (by
    match ax with
    | ⟨0, _⟩ => exact lhs32_0 _ _
    | ⟨1, _⟩ => exact (lhs32_1 _ _).trans hk)
  have er : dot_S8000x32_S32x32_S8000x32_1_0_0_1_n_n.rhsIdx (ix2 p q) ((contrEquiv1 dot_S8000x32_S32x32_S8000x32_1_0_0_1_n_n 32 rfl rfl).symm k) = ix2 k q := funext fun ax => Fin.ext (by
    match ax with
    | ⟨0, _⟩ => exact (rhs32_0 _ _).trans hk
    | ⟨1, _⟩ => exact rhs32_1 _ _)
  rw [el, er]

/-! ## The body at an index -/

/-- The hidden layer of one block of rows, at row p and unit k. -/
theorem hid_apply (x0 x1 : FVec Ideal S8000x4 .f32) (x2 x3 : FVec Ideal S1x4 .f32) (x4 x5 : FVec Ideal S4x32 .f32)
    (x6 : FVec Ideal S1x32 .f32) (p : Fin 8000) (k : Fin 32) :
    maximumf (F := Ideal)
      (addf
        (addf
          (matmul dot_S8000x4_S4x32_S8000x32_1_0_0_1_n_n none
            (addf (mulf x0 (broadcastTo S8000x4 x2 broadcasts_S1x4_S8000x4)) (broadcastTo S8000x4 x3 broadcasts_S1x4_S8000x4)) x4
            (constant (F := Ideal) S8000x32 .f32 0x00000000#32))
          (matmul dot_S8000x4_S4x32_S8000x32_1_0_0_1_n_n none
            (mulf (subf x1 x0) (broadcastTo S8000x4 x2 broadcasts_S1x4_S8000x4)) x5
            (constant (F := Ideal) S8000x32 .f32 0x00000000#32)))
        (broadcastTo S8000x32 x6 broadcasts_S1x32_S8000x32))
      (broadcast S8000x32 (Scalar.ofBits (F := Ideal) .f32 0x00000000#32)) (ix2 p k)
      = Cert.Vae.encHid x0 x1 x2 x3 x4 x5 x6 p k := by
  rw [maximumf_apply, addf_apply, addf_apply, matmul4_apply, matmul4_apply, broadcastTo_1b_ab_apply, broadcast_apply]
  simp only [addf_apply, mulf_apply, subf_apply, broadcastTo_1b_ab_apply]
  rw [show (Scalar.ofBits (F := Ideal) .f32 0x00000000#32) = (0 : EReal) from Ideal.ofBits_zero_f32]
  rfl

/-- The body's stored block is the message function of its nine loaded blocks. -/
theorem body_eq (x0 x1 : Vec Ideal S8000x4 .f32) (x2 x3 : Vec Ideal S1x4 .f32) (x4 x5 : Vec Ideal S4x32 .f32)
    (x6 : Vec Ideal S1x32 .f32) (x7 : Vec Ideal S32x32 .f32) (x8 : Vec Ideal S1x32 .f32) :
    out0_9 (F := Ideal) x0 x1 x2 x3 x4 x5 x6 x7 x8 = Cert.Vae.encMsg x0 x1 x2 x3 x4 x5 x6 x7 x8 := by
  funext j
  obtain ⟨p, q, rfl⟩ : ∃ (p : Fin 8000) (q : Fin 32), j = ix2 p q := ⟨j 0, j 1, eq_ix2 j⟩
  unfold out0_9
  rw [View.canon_unit_zero hz]
  simp only [View.ld_unit_zero (S := S8000x4) hz, View.ld_unit_zero (S := S1x4) hz, View.ld_unit_zero (S := S4x32) hz,
    View.ld_unit_zero (S := S1x32) hz, View.ld_unit_zero (S := S32x32) hz]
  unfold k0_pay1 k0_pay2 k0_pay3
  simp only [shapeCast_self]
  rw [maximumf_apply, addf_apply, matmul32_apply, broadcastTo_1b_ab_apply, broadcast_apply]
  simp only [hid_apply]
  rw [show (Scalar.ofBits (F := Ideal) .f32 0x00000000#32) = (0 : EReal) from Ideal.ofBits_zero_f32]
  rfl

/-! ## Each stored row depends only on the same row of the two row-indexed operands -/

/-- Row p of the message function of one pair of row-indexed operands is row P of the message function of another pair
    whenever the two pairs agree on those rows; the parameter arrays are read whole. -/
theorem encMsg_rows {n N : ℕ} (xi xj : Cert.Vae.Arr2 n 4) (Xi Xj : Cert.Vae.Arr2 N 4) (sc sh : Cert.Vae.Arr2 1 4)
    (w1i w1j : Cert.Vae.Arr2 4 32) (b1 : Cert.Vae.Arr2 1 32) (w2 : Cert.Vae.Arr2 32 32) (b2 : Cert.Vae.Arr2 1 32)
    (p : Fin n) (P : Fin N) (q : Fin 32)
    (hi : ∀ a : Fin 4, xi (ix2 p a) = Xi (ix2 P a)) (hj : ∀ a : Fin 4, xj (ix2 p a) = Xj (ix2 P a)) :
    Cert.Vae.encMsg xi xj sc sh w1i w1j b1 w2 b2 (ix2 p q) = Cert.Vae.encMsg Xi Xj sc sh w1i w1j b1 w2 b2 (ix2 P q) := by
  have hh : ∀ k, Cert.Vae.encHid xi xj sc sh w1i w1j b1 p k = Cert.Vae.encHid Xi Xj sc sh w1i w1j b1 P k := fun k => by
    unfold Cert.Vae.encHid
    simp only [hi, hj]
  show max ((∑ k : Fin 32, Cert.Vae.encHid xi xj sc sh w1i w1j b1 p k * w2 (ix2 k q)) + b2 (ix2 Cert.Vae.r0 q)) 0
      = max ((∑ k : Fin 32, Cert.Vae.encHid Xi Xj sc sh w1i w1j b1 P k * w2 (ix2 k q)) + b2 (ix2 Cert.Vae.r0 q)) 0
  simp only [hh]

/-- The index maps over the grid: the two row-indexed operands and the result move one block of rows per point, the
    seven parameter arrays stay at their only block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

set_option maxHeartbeats 400000 in
/-- What point t writes back is block t of the message function of the nine arrays as the region finds them. -/
theorem flushed_eq (c : Dev nD) (t : Fin cfg0.N) :
    (dat0 (F := Ideal) V c).flushed 9 t = ((cfg0.win 9).blk t).view.read (Elt Ideal)
      (Cert.Vae.encMsg (V c main_v23) (V c main_v24) (V c main_v18) (V c main_v22) (V c main_v26) (V c main_v28)
        (V c main_v30) (V c main_v29) (V c main_v31)) := by
  show (cfg0.win 9).cut (grid0.coords t) ((dat0 (F := Ideal) V c).after 9 t) = _
  rw [after0_9, body_eq]
  obtain ⟨e00, e01, e10, e11, e20, e21, e30, e31, e40, e41, e50, e51, e60, e61, e70, e71, e80, e81, e90, e91⟩ := idx_facts t
  have hN : t.val < 400 := by have h : t.val < cfg0.N := t.isLt; have e : cfg0.N = 400 := N_0; omega
  -- the seven parameter windows hold their arrays whole
  have h2 : (iblk0 V c 2 t : Vec Ideal S1x4 .f32) = V c main_v18 := by
    funext y
    show V c main_v18 (((cfg0.win 2).blk t).view.emb y) = V c main_v18 y
    refine congrArg _ (funext fun a => Fin.ext ?_)
    match a with
    | ⟨0, _⟩ => show win0_2.index t (0 : Fin 2) * 1 + 1 * (y 0).val = (y 0).val; rw [e20]; omega
    | ⟨1, _⟩ => show win0_2.index t (1 : Fin 2) * 4 + 1 * (y 1).val = (y 1).val; rw [e21]; omega
  have h3 : (iblk0 V c 3 t : Vec Ideal S1x4 .f32) = V c main_v22 := by
    funext y
    show V c main_v22 (((cfg0.win 3).blk t).view.emb y) = V c main_v22 y
    refine congrArg _ (funext fun a => Fin.ext ?_)
    match a with
    | ⟨0, _⟩ => show win0_3.index t (0 : Fin 2) * 1 + 1 * (y 0).val = (y 0).val; rw [e30]; omega
    | ⟨1, _⟩ => show win0_3.index t (1 : Fin 2) * 4 + 1 * (y 1).val = (y 1).val; rw [e31]; omega
  have h4 : (iblk0 V c 4 t : Vec Ideal S4x32 .f32) = V c main_v26 := by
    funext y
    show V c main_v26 (((cfg0.win 4).blk t).view.emb y) = V c main_v26 y
    refine congrArg _ (funext fun a => Fin.ext ?_)
    match a with
    | ⟨0, _⟩ => show win0_4.index t (0 : Fin 2) * 4 + 1 * (y 0).val = (y 0).val; rw [e40]; omega
    | ⟨1, _⟩ => show win0_4.index t (1 : Fin 2) * 32 + 1 * (y 1).val = (y 1).val; rw [e41]; omega
  have h5 : (iblk0 V c 5 t : Vec Ideal S4x32 .f32) = V c main_v28 := by
    funext y
    show V c main_v28 (((cfg0.win 5).blk t).view.emb y) = V c main_v28 y
    refine congrArg _ (funext fun a => Fin.ext ?_)
    match a with
    | ⟨0, _⟩ => show win0_5.index t (0 : Fin 2) * 4 + 1 * (y 0).val = (y 0).val; rw [e50]; omega
    | ⟨1, _⟩ => show win0_5.index t (1 : Fin 2) * 32 + 1 * (y 1).val = (y 1).val; rw [e51]; omega
  have h6 : (iblk0 V c 6 t : Vec Ideal S1x32 .f32) = V c main_v30 := by
    funext y
    show V c main_v30 (((cfg0.win 6).blk t).view.emb y) = V c main_v30 y
    refine congrArg _ (funext fun a => Fin.ext ?_)
    match a with
    | ⟨0, _⟩ => show win0_6.index t (0 : Fin 2) * 1 + 1 * (y 0).val = (y 0).val; rw [e60]; omega
    | ⟨1, _⟩ => show win0_6.index t (1 : Fin 2) * 32 + 1 * (y 1).val = (y 1).val; rw [e61]; omega
  have h7 : (iblk0 V c 7 t : Vec Ideal S32x32 .f32) = V c main_v29 := by
    funext y
    show V c main_v29 (((cfg0.win 7).blk t).view.emb y) = V c main_v29 y
    refine congrArg _ (funext fun a => Fin.ext ?_)
    match a with
    | ⟨0, _⟩ => show win0_7.index t (0 : Fin 2) * 32 + 1 * (y 0).val = (y 0).val; rw [e70]; omega
    | ⟨1, _⟩ => show win0_7.index t (1 : Fin 2) * 32 + 1 * (y 1).val = (y 1).val; rw [e71]; omega
  have h8 : (iblk0 V c 8 t : Vec Ideal S1x32 .f32) = V c main_v31 := by
    funext y
    show V c main_v31 (((cfg0.win 8).blk t).view.emb y) = V c main_v31 y
    refine congrArg _ (funext fun a => Fin.ext ?_)
    match a with
    | ⟨0, _⟩ => show win0_8.index t (0 : Fin 2) * 1 + 1 * (y 0).val = (y 0).val; rw [e80]; omega
    | ⟨1, _⟩ => show win0_8.index t (1 : Fin 2) * 32 + 1 * (y 1).val = (y 1).val; rw [e81]; omega
  rw [h2, h3, h4, h5, h6, h7, h8]
  -- row p of block t is row 8000·t + p of the arrays
  show (fun j : S8000x32.Idx => Cert.Vae.encMsg (iblk0 V c 0 t) (iblk0 V c 1 t) (V c main_v18) (V c main_v22) (V c main_v26)
        (V c main_v28) (V c main_v30) (V c main_v29) (V c main_v31) j)
      = fun j : S8000x32.Idx => Cert.Vae.encMsg (V c main_v23) (V c main_v24) (V c main_v18) (V c main_v22) (V c main_v26)
        (V c main_v28) (V c main_v30) (V c main_v29) (V c main_v31) (((cfg0.win 9).blk t).view.emb j)
  funext j
  obtain ⟨p, q, rfl⟩ : ∃ (p : Fin 8000) (q : Fin 32), j = ix2 p q := ⟨j 0, j 1, eq_ix2 j⟩
  have hP : t.val * 8000 + p.val < 3200000 := by have := p.isLt; omega
  have hemb : ((cfg0.win 9).blk t).view.emb (ix2 p q) = ix2 (⟨t.val * 8000 + p.val, hP⟩ : Fin 3200000) q := by
    funext a; apply Fin.ext
    match a with
    | ⟨0, _⟩ => show win0_9.index t (0 : Fin 2) * 8000 + 1 * p.val = t.val * 8000 + p.val; rw [e90]; omega
    | ⟨1, _⟩ => show win0_9.index t (1 : Fin 2) * 32 + 1 * q.val = q.val; rw [e91]; omega
  show Cert.Vae.encMsg (iblk0 V c 0 t) (iblk0 V c 1 t) (V c main_v18) (V c main_v22) (V c main_v26)
        (V c main_v28) (V c main_v30) (V c main_v29) (V c main_v31) (ix2 p q)
      = Cert.Vae.encMsg (V c main_v23) (V c main_v24) (V c main_v18) (V c main_v22) (V c main_v26)
        (V c main_v28) (V c main_v30) (V c main_v29) (V c main_v31) (((cfg0.win 9).blk t).view.emb (ix2 p q))
  rw [hemb]
  refine encMsg_rows _ _ _ _ _ _ _ _ _ _ _ p ⟨t.val * 8000 + p.val, hP⟩ q (fun a => ?_) (fun a => ?_)
  · show V c main_v23 (((cfg0.win 0).blk t).view.emb (ix2 p a)) = V c main_v23 (ix2 (⟨t.val * 8000 + p.val, hP⟩ : Fin 3200000) a)
    refine congrArg _ (funext fun ax => Fin.ext ?_)
    match ax with
    | ⟨0, _⟩ => show win0_0.index t (0 : Fin 2) * 8000 + 1 * p.val = t.val * 8000 + p.val; rw [e00]; omega
    | ⟨1, _⟩ => show win0_0.index t (1 : Fin 2) * 4 + 1 * a.val = a.val; rw [e01]; omega
  · show V c main_v24 (((cfg0.win 1).blk t).view.emb (ix2 p a)) = V c main_v24 (ix2 (⟨t.val * 8000 + p.val, hP⟩ : Fin 3200000) a)
    refine congrArg _ (funext fun ax => Fin.ext ?_)
    match ax with
    | ⟨0, _⟩ => show win0_1.index t (0 : Fin 2) * 8000 + 1 * p.val = t.val * 8000 + p.val; rw [e10]; omega
    | ⟨1, _⟩ => show win0_1.index t (1 : Fin 2) * 4 + 1 * a.val = a.val; rw [e11]; omega

/-- An index of the result array is in point t's block iff each coordinate is in the block's range on its axis. -/
theorem mem_blk (t : Fin cfg0.N) (i : S3200000x32.Idx) :
    i ∈ ((cfg0.win 9).blk t).view.set ↔ ∀ a : Fin 2, win0_9.index t a * S8000x32.size a ≤ (i a).val ∧ (i a).val < win0_9.index t a * S8000x32.size a + S8000x32.size a := by
  show i ∈ ((View.whole main_v32).slice (win0_9.rect t)).set ↔ _
  rw [View.set_slice_whole, Rect.mem_set_unit]
  exact Iff.rfl

/-- Row r of the result lies in the block of point r / 8000: the 400 blocks of 8000 rows tile the 3,200,000 rows. -/
theorem cover (i : S3200000x32.Idx) :
    ∃ t : Fin cfg0.N, (cfg0.win 9).flush t = true ∧ i ∈ ((cfg0.win 9).blk t).view.set := by
  have hi0 : (i 0).val < 3200000 := (i 0).isLt
  have hi1 : (i 1).val < 32 := (i 1).isLt
  obtain ⟨t, ht⟩ : ∃ t : Fin cfg0.N, t.val = (i 0).val / 8000 :=
    ⟨⟨(i 0).val / 8000, by rw [show cfg0.N = 400 from N_0]; omega⟩, rfl⟩
  obtain ⟨e00, e01, e10, e11, e20, e21, e30, e31, e40, e41, e50, e51, e60, e61, e70, e71, e80, e81, e90, e91⟩ := idx_facts t
  refine ⟨t, flush0_9 t, ?_⟩
  rw [mem_blk]
  intro a
  match a with
  | ⟨0, _⟩ => show win0_9.index t (0 : Fin 2) * 8000 ≤ (i 0).val ∧ (i 0).val < win0_9.index t (0 : Fin 2) * 8000 + 8000; rw [e90, ht]; omega
  | ⟨1, _⟩ => show win0_9.index t (1 : Fin 2) * 32 ≤ (i 1).val ∧ (i 1).val < win0_9.index t (1 : Fin 2) * 32 + 32; rw [e91]; omega

/-- What region 0 leaves in its output array, whatever the buffers hold when the region is entered: the encoder's
    message function of the nine arrays it reads. -/
theorem final (c : Dev nD) :
    (dat0 (F := Ideal) V c).arrAt 9 cfg0.N
      = Cert.Vae.encMsg (V c main_v23) (V c main_v24) (V c main_v18) (V c main_v22) (V c main_v26) (V c main_v28)
          (V c main_v30) (V c main_v29) (V c main_v31) :=
  (dat0 (F := Ideal) V c).arrAt_eq_of_cover 9 _ (fun t _ => flushed_eq V c t) cover

end Cert.KernelIdeal.R0

end
-- ==== Proof.R1Value.lean ====
/-
  The second kernel region (the node stage) read as whole arrays.
  At each of the 20 grid points the body takes rows `5000·t … 5000·t + 4999` of the aggregated features and of the noise
  and the four small head parameters whole, and stores one block of 5000 rows of each of three outputs: the mean head, the
  log-variance head and the reparameterised latent. Each stored row depends only on the same row of the row-indexed
  operands, and the 20 blocks tile the 100,000 rows.
-/
import proofs.«417863_j7456063226141_3_alg».proof.Proof.Gen.KernelIdeal.Frame
import proofs.«417863_j7456063226141_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.R1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The zero offsets of a whole-buffer access, as a constant function. -/
theorem hz : (![0, 0] : Fin 2 → Nat) = fun _ => 0 := funext fun a => by fin_cases a <;> rfl

/-! ## The head's product read at an index

The product contracts axis 1 of the features with axis 0 of the weight: the left operand's index at output index i and
contraction index k is (i 0, k), the right operand's is (k, i 1). -/

theorem lhs_dot_0 (i : S5000x2.Idx) (q : dot_S5000x32_S32x2_S5000x2_1_0_0_1_n_n.contr.Idx) :
    (dot_S5000x32_S32x2_S5000x2_1_0_0_1_n_n.lhsIdx i q 0).val = (i 0).val := by
  unfold DotDims.lhsIdx
  rw [dif_neg (show ¬(0 : Fin S5000x32.rank) ∈ dot_S5000x32_S32x2_S5000x2_1_0_0_1_n_n.lhsBatch by decide), dif_pos (show (0 : Fin S5000x32.rank) ∈ dot_S5000x32_S32x2_S5000x2_1_0_0_1_n_n.lhsNonContracting by decide)]
  rfl
theorem lhs_dot_1 (i : S5000x2.Idx) (q : dot_S5000x32_S32x2_S5000x2_1_0_0_1_n_n.contr.Idx) :
    (dot_S5000x32_S32x2_S5000x2_1_0_0_1_n_n.lhsIdx i q 1).val = (q ⟨0, by decide⟩).val :=
  dot_S5000x32_S32x2_S5000x2_1_0_0_1_n_n.lhsIdx_val_of_single rfl i q
theorem rhs_dot_0 (i : S5000x2.Idx) (q : dot_S5000x32_S32x2_S5000x2_1_0_0_1_n_n.contr.Idx) :
    (dot_S5000x32_S32x2_S5000x2_1_0_0_1_n_n.rhsIdx i q 0).val = (q ⟨0, by decide⟩).val :=
  dot_S5000x32_S32x2_S5000x2_1_0_0_1_n_n.rhsIdx_val_of_single rfl i q
theorem rhs_dot_1 (i : S5000x2.Idx) (q : dot_S5000x32_S32x2_S5000x2_1_0_0_1_n_n.contr.Idx) :
    (dot_S5000x32_S32x2_S5000x2_1_0_0_1_n_n.rhsIdx i q 1).val = (i 1).val := by
  unfold DotDims.rhsIdx
  rw [dif_neg (show ¬(1 : Fin S32x2.rank) ∈ dot_S5000x32_S32x2_S5000x2_1_0_0_1_n_n.rhsBatch by decide), dif_pos (show (1 : Fin S32x2.rank) ∈ dot_S5000x32_S32x2_S5000x2_1_0_0_1_n_n.rhsNonContracting by decide)]
  rfl

/-- Entry (p, q) of the product of a block of 5000 rows of features with a head's weight, accumulated into zero,
    is the sum over the 32 features of row p's feature times the weight's entry (k, q). -/
theorem matmul_at (x : FVec Ideal S5000x32 .f32) (w : FVec Ideal S32x2 .f32) (p : Fin 5000) (q : Fin 2) :
    matmul dot_S5000x32_S32x2_S5000x2_1_0_0_1_n_n none x w (constant (F := Ideal) S5000x2 .f32 0x00000000#32) (ix2 p q)
      = ∑ k : Fin 32, x (ix2 p k) * w (ix2 k q) := by
  refine (Ideal.matmul_constant_zero_apply dot_S5000x32_S32x2_S5000x2_1_0_0_1_n_n none x w (ix2 p q)).trans ?_
  rw [← Equiv.sum_comp (contrEquiv1 dot_S5000x32_S32x2_S5000x2_1_0_0_1_n_n 32 rfl rfl).symm]
  refine Finset.sum_congr rfl fun k _ => ?_
  have hk := contrEquiv1_symm_val dot_S5000x32_S32x2_S5000x2_1_0_0_1_n_n 32 rfl rfl k
  have el : dot_S5000x32_S32x2_S5000x2_1_0_0_1_n_n.lhsIdx (ix2 p q) ((contrEquiv1 dot_S5000x32_S32x2_S5000x2_1_0_0_1_n_n 32 rfl rfl).symm k) = ix2 p k := funext fun a => Fin.ext (by
    match a with
    | ⟨0, _⟩ => exact lhs_dot_0 _ _
    | ⟨1, _⟩ => exact (lhs_dot_1 _ _).trans hk)
  have er : dot_S5000x32_S32x2_S5000x2_1_0_0_1_n_n.rhsIdx (ix2 p q) ((contrEquiv1 dot_S5000x32_S32x2_S5000x2_1_0_0_1_n_n 32 rfl rfl).symm k) = ix2 k q := funext fun a => Fin.ext (by
    match a with
    | ⟨0, _⟩ => exact (rhs_dot_0 _ _).trans hk
    | ⟨1, _⟩ => exact rhs_dot_1 _ _)
  rw [el, er]

/-! ## The body's three stored values, as functions of its loaded blocks -/

/-- The first stored value is the linear head of the block's rows. -/
theorem pay2_eq (x : Vec Ideal S5000x32 .f32) (w : Vec Ideal S32x2 .f32) (b : Vec Ideal S1x2 .f32) :
    k1_pay2 x w b = Cert.Vae.nodeLin x w b := by
  funext j
  obtain ⟨p, q, rfl⟩ : ∃ (p : Fin 5000) (q : Fin 2), j = ix2 p q := ⟨j 0, j 1, eq_ix2 j⟩
  unfold k1_pay2 k1_pay1
  simp only [shapeCast_self]
  rw [addf_apply, matmul_at, broadcastTo_1b_ab_apply]
  rfl

/-- The second stored value is the same head with the other pair of parameters. -/
theorem pay3_eq (x : Vec Ideal S5000x32 .f32) (w : Vec Ideal S32x2 .f32) (b : Vec Ideal S1x2 .f32) :
    k1_pay3 x w b = Cert.Vae.nodeLin x w b := by
  funext j
  obtain ⟨p, q, rfl⟩ : ∃ (p : Fin 5000) (q : Fin 2), j = ix2 p q := ⟨j 0, j 1, eq_ix2 j⟩
  unfold k1_pay3 k1_pay1
  simp only [shapeCast_self]
  rw [addf_apply, matmul_at, broadcastTo_1b_ab_apply]
  rfl

/-- The third stored value: the first head plus the noise times the exponential of half the second head. -/
theorem pay4_eq (x : Vec Ideal S5000x32 .f32) (wm : Vec Ideal S32x2 .f32) (bm : Vec Ideal S1x2 .f32)
    (wv : Vec Ideal S32x2 .f32) (bv : Vec Ideal S1x2 .f32) (eps : Vec Ideal S5000x2 .f32) :
    k1_pay4 x wm bm wv bv eps = Cert.Vae.nodeZ x eps wm bm wv bv := by
  unfold k1_pay4
  rw [pay2_eq, pay3_eq]
  rfl

/-! ## What the body leaves in each output buffer, as a function of the input blocks -/

theorem out6_eq (x0 : Vec Ideal S5000x32 .f32) (x1 : Vec Ideal S5000x2 .f32) (x2 : Vec Ideal S32x2 .f32) (x3 : Vec Ideal S1x2 .f32)
    (x4 : Vec Ideal S32x2 .f32) (x5 : Vec Ideal S1x2 .f32) : out1_6 x0 x1 x2 x3 x4 x5 = Cert.Vae.nodeLin x0 x2 x3 := by
  unfold out1_6
  rw [View.canon_unit_zero hz]
  simp only [View.ld_unit_zero (S := S5000x32) hz, View.ld_unit_zero (S := S32x2) hz, View.ld_unit_zero (S := S1x2) hz]
  exact pay2_eq x0 x2 x3

theorem out7_eq (x0 : Vec Ideal S5000x32 .f32) (x1 : Vec Ideal S5000x2 .f32) (x2 : Vec Ideal S32x2 .f32) (x3 : Vec Ideal S1x2 .f32)
    (x4 : Vec Ideal S32x2 .f32) (x5 : Vec Ideal S1x2 .f32) : out1_7 x0 x1 x2 x3 x4 x5 = Cert.Vae.nodeLin x0 x4 x5 := by
  unfold out1_7
  rw [View.canon_unit_zero hz]
  simp only [View.ld_unit_zero (S := S5000x32) hz, View.ld_unit_zero (S := S32x2) hz, View.ld_unit_zero (S := S1x2) hz]
  exact pay3_eq x0 x4 x5

theorem out8_eq (x0 : Vec Ideal S5000x32 .f32) (x1 : Vec Ideal S5000x2 .f32) (x2 : Vec Ideal S32x2 .f32) (x3 : Vec Ideal S1x2 .f32)
    (x4 : Vec Ideal S32x2 .f32) (x5 : Vec Ideal S1x2 .f32) : out1_8 x0 x1 x2 x3 x4 x5 = Cert.Vae.nodeZ x0 x1 x2 x3 x4 x5 := by
  unfold out1_8
  rw [View.canon_unit_zero hz]
  simp only [View.ld_unit_zero (S := S5000x32) hz, View.ld_unit_zero (S := S32x2) hz, View.ld_unit_zero (S := S1x2) hz,
    View.ld_unit_zero (S := S5000x2) hz]
  exact pay4_eq x0 x2 x3 x4 x5 x1

/-! ## Each stored row reads only its own row of the row-indexed operands -/

/-- Row p of the head of a block is row r of the head of the whole array when the block's row p is the array's row r. -/
theorem lin_rows (H : Cert.Vae.Arr2 100000 32) (W : Cert.Vae.Arr2 32 2) (B : Cert.Vae.Arr2 1 2) (h : Cert.Vae.Arr2 5000 32)
    (p : Fin 5000) (r : Fin 100000) (q : Fin 2) (hh : ∀ k : Fin 32, h (ix2 p k) = H (ix2 r k)) :
    Cert.Vae.nodeLin h W B (ix2 p q) = Cert.Vae.nodeLin H W B (ix2 r q) := by
  show (∑ k : Fin 32, h (ix2 p k) * W (ix2 k q)) + B (ix2 Cert.Vae.r0 q)
    = (∑ k : Fin 32, H (ix2 r k) * W (ix2 k q)) + B (ix2 Cert.Vae.r0 q)
  simp only [hh]

/-- The same for the latent, whose row also reads its own row of the noise. -/
theorem z_rows (H : Cert.Vae.Arr2 100000 32) (E : Cert.Vae.Arr2 100000 2) (Wm : Cert.Vae.Arr2 32 2) (Bm : Cert.Vae.Arr2 1 2)
    (Wv : Cert.Vae.Arr2 32 2) (Bv : Cert.Vae.Arr2 1 2) (h : Cert.Vae.Arr2 5000 32) (e : Cert.Vae.Arr2 5000 2)
    (p : Fin 5000) (r : Fin 100000) (q : Fin 2) (hh : ∀ k : Fin 32, h (ix2 p k) = H (ix2 r k)) (he : e (ix2 p q) = E (ix2 r q)) :
    Cert.Vae.nodeZ h e Wm Bm Wv Bv (ix2 p q) = Cert.Vae.nodeZ H E Wm Bm Wv Bv (ix2 r q) := by
  show Cert.Vae.nodeLin h Wm Bm (ix2 p q) + e (ix2 p q) * Ideal.exp (Cert.Vae.half * Cert.Vae.nodeLin h Wv Bv (ix2 p q))
    = Cert.Vae.nodeLin H Wm Bm (ix2 r q) + E (ix2 r q) * Ideal.exp (Cert.Vae.half * Cert.Vae.nodeLin H Wv Bv (ix2 r q))
  rw [lin_rows H Wm Bm h p r q hh, lin_rows H Wv Bv h p r q hh, he]

variable (V : (c : Dev nD) → (b : Ref sig .tc) → Buf (Elt Ideal) ((c : Thread nD τ).loc b))

/-! ## The windows' index maps over the 20 grid points -/

/-- The row-block windows (features, noise, the three outputs) sit at block (t, 0) at point t; the four parameter windows at
    block (0, 0) at every point. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem lt_N (t : Fin cfg1.N) : t.val < 20 := lt_of_lt_of_eq t.isLt N_1

/-! ## The input blocks as rows of the arrays -/

/-- The features' block at point t is rows 5000·t … 5000·t + 4999 of the array. -/
theorem iblk0_apply (c : Dev nD) (t : Fin cfg1.N) (x : S5000x32.Idx) (k : S100000x32.Idx)
    (hk0 : (k 0).val = 5000 * t.val + (x 0).val) (hk1 : (k 1).val = (x 1).val) :
    (iblk1 V c 0 t : Vec Ideal S5000x32 .f32) x = (V c main_v44 : S100000x32.Idx → EReal) k := by
  obtain ⟨e0, e1, -⟩ := idx_facts t
  unfold iblk1
  rw [View.read_apply]
  show V c main_v44 _ = V c main_v44 _
  congr 1
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 32 + 1 * (x 1).val = (k 1).val; rw [e1, hk1]; omega

/-- The noise's block at point t is the same rows of the noise array. -/
theorem iblk1_apply (c : Dev nD) (t : Fin cfg1.N) (x : S5000x2.Idx) (k : S100000x2.Idx)
    (hk0 : (k 0).val = 5000 * t.val + (x 0).val) (hk1 : (k 1).val = (x 1).val) :
    (iblk1 V c 1 t : Vec Ideal S5000x2 .f32) x = (V c main_arg1 : S100000x2.Idx → EReal) k := by
  obtain ⟨-, -, e0, e1, -⟩ := idx_facts t
  unfold iblk1
  rw [View.read_apply]
  show V c main_arg1 _ = V c main_arg1 _
  congr 1
  funext a
  apply Fin.ext
  match a with
  | ⟨0, _⟩ => show win1_1.index t (0 : Fin 2) * 5000 + 1 * (x 0).val = (k 0).val; rw [e0, hk0]; omega
  | ⟨1, _⟩ => show win1_1.index t (1 : Fin 2) * 2 + 1 * (x 1).val = (k 1).val; rw [e1, hk1]; omega

/-- A parameter window's block is its whole array, at every point. -/
theorem iblk2_eq (c : Dev nD) (t : Fin cfg1.N) : (iblk1 V c 2 t : Vec Ideal S32x2 .f32) = V c main_v45 := by
  obtain ⟨-, -, -, -, e0, e1, -⟩ := idx_facts t
  funext x
  unfold iblk1
  rw [View.read_apply]
  show V c main_v45 _ = V c main_v45 x
  congr 1
  funext a
  apply Fin.ext
  match a with
  | ⟨0, _⟩ => show win1_2.index t (0 : Fin 2) * 32 + 1 * (x 0).val = (x 0).val; rw [e0]; omega
  | ⟨1, _⟩ => show win1_2.index t (1 : Fin 2) * 2 + 1 * (x 1).val = (x 1).val; rw [e1]; omega

theorem iblk3_eq (c : Dev nD) (t : Fin cfg1.N) : (iblk1 V c 3 t : Vec Ideal S1x2 .f32) = V c main_v47 := by
  obtain ⟨-, -, -, -, -, -, e0, e1, -⟩ := idx_facts t
  funext x
  unfold iblk1
  rw [View.read_apply]
  show V c main_v47 _ = V c main_v47 x
  congr 1
  funext a
  apply Fin.ext
  match a with
  | ⟨0, _⟩ => show win1_3.index t (0 : Fin 2) * 1 + 1 * (x 0).val = (x 0).val; rw [e0]; omega
  | ⟨1, _⟩ => show win1_3.index t (1 : Fin 2) * 2 + 1 * (x 1).val = (x 1).val; rw [e1]; omega

theorem iblk4_eq (c : Dev nD) (t : Fin cfg1.N) : (iblk1 V c 4 t : Vec Ideal S32x2 .f32) = V c main_v46 := by
  obtain ⟨-, -, -, -, -, -, -, -, e0, e1, -⟩ := idx_facts t
  funext x
  unfold iblk1
  rw [View.read_apply]
  show V c main_v46 _ = V c main_v46 x
  congr 1
  funext a
  apply Fin.ext
  match a with
  | ⟨0, _⟩ => show win1_4.index t (0 : Fin 2) * 32 + 1 * (x 0).val = (x 0).val; rw [e0]; omega
  | ⟨1, _⟩ => show win1_4.index t (1 : Fin 2) * 2 + 1 * (x 1).val = (x 1).val; rw [e1]; omega

theorem iblk5_eq (c : Dev nD) (t : Fin cfg1.N) : (iblk1 V c 5 t : Vec Ideal S1x2 .f32) = V c main_v48 := by
  obtain ⟨-, -, -, -, -, -, -, -, -, -, e0, e1, -⟩ := idx_facts t
  funext x
  unfold iblk1
  rw [View.read_apply]
  show V c main_v48 _ = V c main_v48 x
  congr 1
  funext a
  apply Fin.ext
  match a with
  | ⟨0, _⟩ => show win1_5.index t (0 : Fin 2) * 1 + 1 * (x 0).val = (x 0).val; rw [e0]; omega
  | ⟨1, _⟩ => show win1_5.index t (1 : Fin 2) * 2 + 1 * (x 1).val = (x 1).val; rw [e1]; omega

/-! ## The mean head's array -/

/-- Entry (p, q) of the block point t writes sits at row 5000·t + p, column q of the array. -/
theorem emb6 (t : Fin cfg1.N) (p : Fin 5000) (q : Fin 2) :
    ((cfg1.win 6).blk t).view.emb (ix2 p q) = ix2 (⟨5000 * t.val + p.val, by have := lt_N t; omega⟩ : Fin 100000) q := by
  obtain ⟨-, -, -, -, -, -, -, -, -, -, -, -, e0, e1, -⟩ := idx_facts t
  funext a
  apply Fin.ext
  match a with
  | ⟨0, _⟩ => show win1_6.index t (0 : Fin 2) * 5000 + 1 * p.val = 5000 * t.val + p.val; rw [e0]; omega
  | ⟨1, _⟩ => show win1_6.index t (1 : Fin 2) * 2 + 1 * q.val = q.val; rw [e1]; omega

/-- What point t writes back is block t of the head of the whole arrays. -/
theorem flushed6_eq (c : Dev nD) (t : Fin cfg1.N) :
    (dat1 (F := Ideal) V c).flushed 6 t
      = ((cfg1.win 6).blk t).view.read (Elt Ideal) (Cert.Vae.nodeLin (V c main_v44) (V c main_v45) (V c main_v47)) := by
  show (cfg1.win 6).cut (grid1.coords t) ((dat1 V c).after 6 t) = _
  rw [after1_6, out6_eq, iblk2_eq, iblk3_eq]
  funext j
  obtain ⟨p, q, rfl⟩ : ∃ (p : Fin 5000) (q : Fin 2), j = ix2 p q := ⟨j 0, j 1, eq_ix2 j⟩
  rw [View.read_apply, emb6]
  exact lin_rows (V c main_v44) (V c main_v45) (V c main_v47) (iblk1 V c 0 t) p _ q
    (fun k => iblk0_apply V c t (ix2 p k) (ix2 _ k) rfl rfl)

/-- An index of the array is in point t's block iff each coordinate is in the block's range on its axis. -/
theorem mem_blk6 (t : Fin cfg1.N) (i : S100000x2.Idx) :
    i ∈ ((cfg1.win 6).blk t).view.set ↔ ∀ a : Fin 2, win1_6.index t a * S5000x2.size a ≤ (i a).val
      ∧ (i a).val < win1_6.index t a * S5000x2.size a + S5000x2.size a := by
  show i ∈ ((View.whole main_v49_0).slice (win1_6.rect t)).set ↔ _
  rw [View.set_slice_whole, Rect.mem_set_unit]
  exact Iff.rfl

/-- Row r of the array lies in the block of point r / 5000: the 20 blocks of 5000 rows tile the 100,000 rows. -/
theorem cover6 (i : S100000x2.Idx) : ∃ t : Fin cfg1.N, (cfg1.win 6).flush t = true ∧ i ∈ ((cfg1.win 6).blk t).view.set := by
  have h0 : (i 0).val < 100000 := (i 0).isLt
  have h1 : (i 1).val < 2 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e0, e1, -⟩ := idx_facts t
  refine ⟨t, flush1_6 t, ?_⟩
  rw [mem_blk6]
  intro a
  match a with
  | ⟨0, _⟩ =>
    show win1_6.index t (0 : Fin 2) * 5000 ≤ (i 0).val ∧ (i 0).val < win1_6.index t (0 : Fin 2) * 5000 + 5000
    rw [e0, ht]; omega
  | ⟨1, _⟩ =>
    show win1_6.index t (1 : Fin 2) * 2 ≤ (i 1).val ∧ (i 1).val < win1_6.index t (1 : Fin 2) * 2 + 2
    rw [e1]; omega

/-- The mean head. -/
theorem final_mu (c : Dev nD) :
    (dat1 (F := Ideal) V c).arrAt 6 cfg1.N = Cert.Vae.nodeLin (V c main_v44) (V c main_v45) (V c main_v47) :=
  (dat1 V c).arrAt_eq_of_cover 6 _ (fun t _ => flushed6_eq V c t) cover6

/-! ## The log-variance head's array -/

theorem emb7 (t : Fin cfg1.N) (p : Fin 5000) (q : Fin 2) :
    ((cfg1.win 7).blk t).view.emb (ix2 p q) = ix2 (⟨5000 * t.val + p.val, by have := lt_N t; omega⟩ : Fin 100000) q := by
  obtain ⟨-, -, -, -, -, -, -, -, -, -, -, -, -, -, e0, e1, -⟩ := idx_facts t
  funext a
  apply Fin.ext
  match a with
  | ⟨0, _⟩ => show win1_7.index t (0 : Fin 2) * 5000 + 1 * p.val = 5000 * t.val + p.val; rw [e0]; omega
  | ⟨1, _⟩ => show win1_7.index t (1 : Fin 2) * 2 + 1 * q.val = q.val; rw [e1]; omega

/-- What point t writes back is block t of the head of the whole arrays. -/
theorem flushed7_eq (c : Dev nD) (t : Fin cfg1.N) :
    (dat1 (F := Ideal) V c).flushed 7 t
      = ((cfg1.win 7).blk t).view.read (Elt Ideal) (Cert.Vae.nodeLin (V c main_v44) (V c main_v46) (V c main_v48)) := by
  show (cfg1.win 7).cut (grid1.coords t) ((dat1 V c).after 7 t) = _
  rw [after1_7, out7_eq, iblk4_eq, iblk5_eq]
  funext j
  obtain ⟨p, q, rfl⟩ : ∃ (p : Fin 5000) (q : Fin 2), j = ix2 p q := ⟨j 0, j 1, eq_ix2 j⟩
  rw [View.read_apply, emb7]
  exact lin_rows (V c main_v44) (V c main_v46) (V c main_v48) (iblk1 V c 0 t) p _ q
    (fun k => iblk0_apply V c t (ix2 p k) (ix2 _ k) rfl rfl)

theorem mem_blk7 (t : Fin cfg1.N) (i : S100000x2.Idx) :
    i ∈ ((cfg1.win 7).blk t).view.set ↔ ∀ a : Fin 2, win1_7.index t a * S5000x2.size a ≤ (i a).val
      ∧ (i a).val < win1_7.index t a * S5000x2.size a + S5000x2.size a := by
  show i ∈ ((View.whole main_v49_1).slice (win1_7.rect t)).set ↔ _
  rw [View.set_slice_whole, Rect.mem_set_unit]
  exact Iff.rfl

theorem cover7 (i : S100000x2.Idx) : ∃ t : Fin cfg1.N, (cfg1.win 7).flush t = true ∧ i ∈ ((cfg1.win 7).blk t).view.set := by
  have h0 : (i 0).val < 100000 := (i 0).isLt
  have h1 : (i 1).val < 2 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, e0, e1, -⟩ := idx_facts t
  refine ⟨t, flush1_7 t, ?_⟩
  rw [mem_blk7]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 2 ≤ (i 1).val ∧ (i 1).val < win1_7.index t (1 : Fin 2) * 2 + 2
    rw [e1]; omega

/-- The log-variance head. -/
theorem final_lv (c : Dev nD) :
    (dat1 (F := Ideal) V c).arrAt 7 cfg1.N = Cert.Vae.nodeLin (V c main_v44) (V c main_v46) (V c main_v48) :=
  (dat1 V c).arrAt_eq_of_cover 7 _ (fun t _ => flushed7_eq V c t) cover7

/-! ## The latent's array -/

theorem emb8 (t : Fin cfg1.N) (p : Fin 5000) (q : Fin 2) :
    ((cfg1.win 8).blk t).view.emb (ix2 p q) = ix2 (⟨5000 * t.val + p.val, by have := lt_N t; omega⟩ : Fin 100000) q := by
  obtain ⟨-, -, -, -, -, -, -, -, -, -, -, -, -, -, -, -, e0, e1⟩ := idx_facts t
  funext a
  apply Fin.ext
  match a with
  | ⟨0, _⟩ => show win1_8.index t (0 : Fin 2) * 5000 + 1 * p.val = 5000 * t.val + p.val; rw [e0]; omega
  | ⟨1, _⟩ => show win1_8.index t (1 : Fin 2) * 2 + 1 * q.val = q.val; rw [e1]; omega

/-- What point t writes back is block t of the latent of the whole arrays. -/
theorem flushed8_eq (c : Dev nD) (t : Fin cfg1.N) :
    (dat1 (F := Ideal) V c).flushed 8 t
      = ((cfg1.win 8).blk t).view.read (Elt Ideal)
          (Cert.Vae.nodeZ (V c main_v44) (V c main_arg1) (V c main_v45) (V c main_v47) (V c main_v46) (V c main_v48)) := by
  show (cfg1.win 8).cut (grid1.coords t) ((dat1 V c).after 8 t) = _
  rw [after1_8, out8_eq, iblk2_eq, iblk3_eq, iblk4_eq, iblk5_eq]
  funext j
  obtain ⟨p, q, rfl⟩ : ∃ (p : Fin 5000) (q : Fin 2), j = ix2 p q := ⟨j 0, j 1, eq_ix2 j⟩
  rw [View.read_apply, emb8]
  exact z_rows (V c main_v44) (V c main_arg1) (V c main_v45) (V c main_v47) (V c main_v46) (V c main_v48)
    (iblk1 V c 0 t) (iblk1 V c 1 t) p _ q
    (fun k => iblk0_apply V c t (ix2 p k) (ix2 _ k) rfl rfl) (iblk1_apply V c t (ix2 p q) (ix2 _ q) rfl rfl)

theorem mem_blk8 (t : Fin cfg1.N) (i : S100000x2.Idx) :
    i ∈ ((cfg1.win 8).blk t).view.set ↔ ∀ a : Fin 2, win1_8.index t a * S5000x2.size a ≤ (i a).val
      ∧ (i a).val < win1_8.index t a * S5000x2.size a + S5000x2.size a := by
  show i ∈ ((View.whole main_v49_2).slice (win1_8.rect t)).set ↔ _
  rw [View.set_slice_whole, Rect.mem_set_unit]
  exact Iff.rfl

theorem cover8 (i : S100000x2.Idx) : ∃ t : Fin cfg1.N, (cfg1.win 8).flush t = true ∧ i ∈ ((cfg1.win 8).blk t).view.set := by
  have h0 : (i 0).val < 100000 := (i 0).isLt
  have h1 : (i 1).val < 2 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, -, -, -, -, e0, e1⟩ := idx_facts t
  refine ⟨t, flush1_8 t, ?_⟩
  rw [mem_blk8]
  intro a
  match a with
  | ⟨0, _⟩ =>
    show win1_8.index t (0 : Fin 2) * 5000 ≤ (i 0).val ∧ (i 0).val < win1_8.index t (0 : Fin 2) * 5000 + 5000
    rw [e0, ht]; omega
  | ⟨1, _⟩ =>
    show win1_8.index t (1 : Fin 2) * 2 ≤ (i 1).val ∧ (i 1).val < win1_8.index t (1 : Fin 2) * 2 + 2
    rw [e1]; omega

/-- The reparameterised latent. -/
theorem final_z (c : Dev nD) :
    (dat1 (F := Ideal) V c).arrAt 8 cfg1.N
      = Cert.Vae.nodeZ (V c main_v44) (V c main_arg1) (V c main_v45) (V c main_v47) (V c main_v46) (V c main_v48) :=
  (dat1 V c).arrAt_eq_of_cover 8 _ (fun t _ => flushed8_eq V c t) cover8

end Cert.KernelIdeal.R1

end
-- ==== Proof.R2Value.lean ====
/-
  The third kernel region (the decoder's per-edge network) read as a whole array.
  At each of the 400 grid points the body takes rows `8000·t … 8000·t + 7999` of the two gathered-latent arrays and the
  seven small parameter arrays whole, and stores one block of 8000 rows of 4. Each stored row depends only on the same
  row of the two row-indexed operands, and the 400 blocks tile the 3,200,000 rows.

  In order: the three matrix products read at an index as sums over the contracted coordinate; the three layers at an
  index; the body's result on one block as the message function of the blocks; a row of the message function reads one
  row of its row-indexed operands; the windows' index maps over the grid; each input block as a part of its array; what
  a point writes back; the cover of the rows by the points' blocks; the array.
-/
import proofs.«417863_j7456063226141_3_alg».proof.Proof.Gen.KernelIdeal.Frame
import proofs.«417863_j7456063226141_3_alg».proof.Proof.Spec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

open scoped BigOperators

namespace Cert.KernelIdeal.R2

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## The three matrix products at an index

    Each product contracts axis 1 of its left operand with axis 0 of its right operand and has no batch axis, so the
    operand indices at output index `(p, q)` and contraction index `k` are `(p, k)` and `(k, q)`. -/

/-- The product [8000,2] × [2,32]: axis 0 of the left operand's index is the row of the output index, -/
theorem lhs_dotIn_0 (i : S8000x32.Idx) (q : dot_S8000x2_S2x32_S8000x32_1_0_0_1_n_n.contr.Idx) :
    (dot_S8000x2_S2x32_S8000x32_1_0_0_1_n_n.lhsIdx i q 0).val = (i 0).val := by
  unfold DotDims.lhsIdx
  rw [dif_neg (show ¬(0 : Fin S8000x2.rank) ∈ dot_S8000x2_S2x32_S8000x32_1_0_0_1_n_n.lhsBatch by decide), dif_pos (show (0 : Fin S8000x2.rank) ∈ dot_S8000x2_S2x32_S8000x32_1_0_0_1_n_n.lhsNonContracting by decide)]
  rfl
/-- its axis 1 the contraction index; -/
theorem lhs_dotIn_1 (i : S8000x32.Idx) (q : dot_S8000x2_S2x32_S8000x32_1_0_0_1_n_n.contr.Idx) :
    (dot_S8000x2_S2x32_S8000x32_1_0_0_1_n_n.lhsIdx i q 1).val = (q ⟨0, by decide⟩).val :=
  dot_S8000x2_S2x32_S8000x32_1_0_0_1_n_n.lhsIdx_val_of_single rfl i q
/-- axis 0 of the right operand's index is the contraction index, -/
theorem rhs_dotIn_0 (i : S8000x32.Idx) (q : dot_S8000x2_S2x32_S8000x32_1_0_0_1_n_n.contr.Idx) :
    (dot_S8000x2_S2x32_S8000x32_1_0_0_1_n_n.rhsIdx i q 0).val = (q ⟨0, by decide⟩).val :=
  dot_S8000x2_S2x32_S8000x32_1_0_0_1_n_n.rhsIdx_val_of_single rfl i q
/-- its axis 1 the column of the output index. -/
theorem rhs_dotIn_1 (i : S8000x32.Idx) (q : dot_S8000x2_S2x32_S8000x32_1_0_0_1_n_n.contr.Idx) :
    (dot_S8000x2_S2x32_S8000x32_1_0_0_1_n_n.rhsIdx i q 1).val = (i 1).val := by
  unfold DotDims.rhsIdx
  rw [dif_neg (show ¬(1 : Fin S2x32.rank) ∈ dot_S8000x2_S2x32_S8000x32_1_0_0_1_n_n.rhsBatch by decide), dif_pos (show (1 : Fin S2x32.rank) ∈ dot_S8000x2_S2x32_S8000x32_1_0_0_1_n_n.rhsNonContracting by decide)]
  rfl

/-- So the product into the zero accumulator, at row `p` and column `q`, is `Σ_k a (p, k) · b (k, q)` over the 2 contracted
    coordinates. -/
theorem dotIn_apply (a : FVec Ideal S8000x2 .f32) (b : FVec Ideal S2x32 .f32) (p : Fin 8000) (q : Fin 32) :
    matmul dot_S8000x2_S2x32_S8000x32_1_0_0_1_n_n none a b (constant (F := Ideal) S8000x32 .f32 0x00000000#32) (ix2 p q)
      = ∑ k : Fin 2, a (ix2 p k) * b (ix2 k q) := by
  simp only [matmul]
  rw [Ideal.matmul_constant_zero_apply, ← Equiv.sum_comp (contrEquiv1 dot_S8000x2_S2x32_S8000x32_1_0_0_1_n_n 2 rfl rfl).symm]
  refine Finset.sum_congr rfl fun k _ => ?_
  have hk := contrEquiv1_symm_val dot_S8000x2_S2x32_S8000x32_1_0_0_1_n_n 2 rfl rfl k
  have el : dot_S8000x2_S2x32_S8000x32_1_0_0_1_n_n.lhsIdx (ix2 p q) ((contrEquiv1 dot_S8000x2_S2x32_S8000x32_1_0_0_1_n_n 2 rfl rfl).symm k) = ix2 p k := funext fun a => Fin.ext (by
    match a with
    | ⟨0, _⟩ => exact lhs_dotIn_0 _ _
    | ⟨1, _⟩ => exact (lhs_dotIn_1 _ _).trans hk)
  have er : dot_S8000x2_S2x32_S8000x32_1_0_0_1_n_n.rhsIdx (ix2 p q) ((contrEquiv1 dot_S8000x2_S2x32_S8000x32_1_0_0_1_n_n 2 rfl rfl).symm k) = ix2 k q := funext fun a => Fin.ext (by
    match a with
    | ⟨0, _⟩ => exact (rhs_dotIn_0 _ _).trans hk
    | ⟨1, _⟩ => exact rhs_dotIn_1 _ _)
  rw [el, er]

/-- The product [8000,32] × [32,32]: axis 0 of the left operand's index is the row of the output index, -/
theorem lhs_dotMid_0 (i : S8000x32.Idx) (q : dot_S8000x32_S32x32_S8000x32_1_0_0_1_n_n.contr.Idx) :
    (dot_S8000x32_S32x32_S8000x32_1_0_0_1_n_n.lhsIdx i q 0).val = (i 0).val := by
  unfold DotDims.lhsIdx
  rw [dif_neg (show ¬(0 : Fin S8000x32.rank) ∈ dot_S8000x32_S32x32_S8000x32_1_0_0_1_n_n.lhsBatch by decide), dif_pos (show (0 : Fin S8000x32.rank) ∈ dot_S8000x32_S32x32_S8000x32_1_0_0_1_n_n.lhsNonContracting by decide)]
  rfl
/-- its axis 1 the contraction index; -/
theorem lhs_dotMid_1 (i : S8000x32.Idx) (q : dot_S8000x32_S32x32_S8000x32_1_0_0_1_n_n.contr.Idx) :
    (dot_S8000x32_S32x32_S8000x32_1_0_0_1_n_n.lhsIdx i q 1).val = (q ⟨0, by decide⟩).val :=
  dot_S8000x32_S32x32_S8000x32_1_0_0_1_n_n.lhsIdx_val_of_single rfl i q
/-- axis 0 of the right operand's index is the contraction index, -/
theorem rhs_dotMid_0 (i : S8000x32.Idx) (q : dot_S8000x32_S32x32_S8000x32_1_0_0_1_n_n.contr.Idx) :
    (dot_S8000x32_S32x32_S8000x32_1_0_0_1_n_n.rhsIdx i q 0).val = (q ⟨0, by decide⟩).val :=
  dot_S8000x32_S32x32_S8000x32_1_0_0_1_n_n.rhsIdx_val_of_single rfl i q
/-- its axis 1 the column of the output index. -/
theorem rhs_dotMid_1 (i : S8000x32.Idx) (q : dot_S8000x32_S32x32_S8000x32_1_0_0_1_n_n.contr.Idx) :
    (dot_S8000x32_S32x32_S8000x32_1_0_0_1_n_n.rhsIdx i q 1).val = (i 1).val := by
  unfold DotDims.rhsIdx
  rw [dif_neg (show ¬(1 : Fin S32x32.rank) ∈ dot_S8000x32_S32x32_S8000x32_1_0_0_1_n_n.rhsBatch by decide), dif_pos (show (1 : Fin S32x32.rank) ∈ dot_S8000x32_S32x32_S8000x32_1_0_0_1_n_n.rhsNonContracting by decide)]
  rfl

/-- So the product into the zero accumulator, at row `p` and column `q`, is `Σ_k a (p, k) · b (k, q)` over the 32 contracted
    coordinates. -/
theorem dotMid_apply (a : FVec Ideal S8000x32 .f32) (b : FVec Ideal S32x32 .f32) (p : Fin 8000) (q : Fin 32) :
    matmul dot_S8000x32_S32x32_S8000x32_1_0_0_1_n_n none a b (constant (F := Ideal) S8000x32 .f32 0x00000000#32) (ix2 p q)
      = ∑ k : Fin 32, a (ix2 p k) * b (ix2 k q) := by
  simp only [matmul]
  rw [Ideal.matmul_constant_zero_apply, ← Equiv.sum_comp (contrEquiv1 dot_S8000x32_S32x32_S8000x32_1_0_0_1_n_n 32 rfl rfl).symm]
  refine Finset.sum_congr rfl fun k _ => ?_
  have hk := contrEquiv1_symm_val dot_S8000x32_S32x32_S8000x32_1_0_0_1_n_n 32 rfl rfl k
  have el : dot_S8000x32_S32x32_S8000x32_1_0_0_1_n_n.lhsIdx (ix2 p q) ((contrEquiv1 dot_S8000x32_S32x32_S8000x32_1_0_0_1_n_n 32 rfl rfl).symm k) = ix2 p k := funext fun a => Fin.ext (by
    match a with
    | ⟨0, _⟩ => exact lhs_dotMid_0 _ _
    | ⟨1, _⟩ => exact (lhs_dotMid_1 _ _).trans hk)
  have er : dot_S8000x32_S32x32_S8000x32_1_0_0_1_n_n.rhsIdx (ix2 p q) ((contrEquiv1 dot_S8000x32_S32x32_S8000x32_1_0_0_1_n_n 32 rfl rfl).symm k) = ix2 k q := funext fun a => Fin.ext (by
    match a with
    | ⟨0, _⟩ => exact (rhs_dotMid_0 _ _).trans hk
    | ⟨1, _⟩ => exact rhs_dotMid_1 _ _)
  rw [el, er]

/-- The product [8000,32] × [32,4]: axis 0 of the left operand's index is the row of the output index, -/
theorem lhs_dotOut_0 (i : S8000x4.Idx) (q : dot_S8000x32_S32x4_S8000x4_1_0_0_1_n_n.contr.Idx) :
    (dot_S8000x32_S32x4_S8000x4_1_0_0_1_n_n.lhsIdx i q 0).val = (i 0).val := by
  unfold DotDims.lhsIdx
  rw [dif_neg (show ¬(0 : Fin S8000x32.rank) ∈ dot_S8000x32_S32x4_S8000x4_1_0_0_1_n_n.lhsBatch by decide), dif_pos (show (0 : Fin S8000x32.rank) ∈ dot_S8000x32_S32x4_S8000x4_1_0_0_1_n_n.lhsNonContracting by decide)]
  rfl
/-- its axis 1 the contraction index; -/
theorem lhs_dotOut_1 (i : S8000x4.Idx) (q : dot_S8000x32_S32x4_S8000x4_1_0_0_1_n_n.contr.Idx) :
    (dot_S8000x32_S32x4_S8000x4_1_0_0_1_n_n.lhsIdx i q 1).val = (q ⟨0, by decide⟩).val :=
  dot_S8000x32_S32x4_S8000x4_1_0_0_1_n_n.lhsIdx_val_of_single rfl i q
/-- axis 0 of the right operand's index is the contraction index, -/
theorem rhs_dotOut_0 (i : S8000x4.Idx) (q : dot_S8000x32_S32x4_S8000x4_1_0_0_1_n_n.contr.Idx) :
    (dot_S8000x32_S32x4_S8000x4_1_0_0_1_n_n.rhsIdx i q 0).val = (q ⟨0, by decide⟩).val :=
  dot_S8000x32_S32x4_S8000x4_1_0_0_1_n_n.rhsIdx_val_of_single rfl i q
/-- its axis 1 the column of the output index. -/
theorem rhs_dotOut_1 (i : S8000x4.Idx) (q : dot_S8000x32_S32x4_S8000x4_1_0_0_1_n_n.contr.Idx) :
    (dot_S8000x32_S32x4_S8000x4_1_0_0_1_n_n.rhsIdx i q 1).val = (i 1).val := by
  unfold DotDims.rhsIdx
  rw [dif_neg (show ¬(1 : Fin S32x4.rank) ∈ dot_S8000x32_S32x4_S8000x4_1_0_0_1_n_n.rhsBatch by decide), dif_pos (show (1 : Fin S32x4.rank) ∈ dot_S8000x32_S32x4_S8000x4_1_0_0_1_n_n.rhsNonContracting by decide)]
  rfl

/-- So the product into the zero accumulator, at row `p` and column `q`, is `Σ_k a (p, k) · b (k, q)` over the 32 contracted
    coordinates. -/
theorem dotOut_apply (a : FVec Ideal S8000x32 .f32) (b : FVec Ideal S32x4 .f32) (p : Fin 8000) (q : Fin 4) :
    matmul dot_S8000x32_S32x4_S8000x4_1_0_0_1_n_n none a b (constant (F := Ideal) S8000x4 .f32 0x00000000#32) (ix2 p q)
      = ∑ k : Fin 32, a (ix2 p k) * b (ix2 k q) := by
  simp only [matmul]
  rw [Ideal.matmul_constant_zero_apply, ← Equiv.sum_comp (contrEquiv1 dot_S8000x32_S32x4_S8000x4_1_0_0_1_n_n 32 rfl rfl).symm]
  refine Finset.sum_congr rfl fun k _ => ?_
  have hk := contrEquiv1_symm_val dot_S8000x32_S32x4_S8000x4_1_0_0_1_n_n 32 rfl rfl k
  have el : dot_S8000x32_S32x4_S8000x4_1_0_0_1_n_n.lhsIdx (ix2 p q) ((contrEquiv1 dot_S8000x32_S32x4_S8000x4_1_0_0_1_n_n 32 rfl rfl).symm k) = ix2 p k := funext fun a => Fin.ext (by
    match a with
    | ⟨0, _⟩ => exact lhs_dotOut_0 _ _
    | ⟨1, _⟩ => exact (lhs_dotOut_1 _ _).trans hk)
  have er : dot_S8000x32_S32x4_S8000x4_1_0_0_1_n_n.rhsIdx (ix2 p q) ((contrEquiv1 dot_S8000x32_S32x4_S8000x4_1_0_0_1_n_n 32 rfl rfl).symm k) = ix2 k q := funext fun a => Fin.ext (by
    match a with
    | ⟨0, _⟩ => exact (rhs_dotOut_0 _ _).trans hk
    | ⟨1, _⟩ => exact rhs_dotOut_1 _ _)
  rw [el, er]

/-- The zero offsets of a whole-buffer access. -/
theorem hz : (![0, 0] : Fin 2 → Nat) = fun _ => 0 := funext fun a => by fin_cases a <;> rfl

/-! ## The three layers at an index -/

/-- The first layer: the two products into zero accumulators added, the bias row added to every row, and the maximum
    with the zero word, at row `p` and unit `k`, is the first hidden unit of the specification. -/
theorem layer1_apply (x0 x1 : FVec Ideal S8000x2 .f32) (x2 x3 : FVec Ideal S2x32 .f32) (x4 : FVec Ideal S1x32 .f32)
    (p : Fin 8000) (k : Fin 32) :
    maximumf
        (addf
          (addf (matmul dot_S8000x2_S2x32_S8000x32_1_0_0_1_n_n none x0 x2 (constant (F := Ideal) S8000x32 .f32 0x00000000#32))
            (matmul dot_S8000x2_S2x32_S8000x32_1_0_0_1_n_n none (subf x1 x0) x3 (constant (F := Ideal) S8000x32 .f32 0x00000000#32)))
          (broadcastTo S8000x32 x4 broadcasts_S1x32_S8000x32))
        (broadcast S8000x32 (FloatOps.ofBits (F := Ideal) .f32 0x00000000#32)) (ix2 p k)
      = Cert.Vae.decHid1 x0 x1 x2 x3 x4 p k := by
  rw [maximumf_apply, addf_apply, addf_apply, dotIn_apply, dotIn_apply, broadcastTo_1b_ab_apply, broadcast_apply,
    Ideal.ofBits_def, Ideal.ofBits_zero_f32]
  simp only [subf_apply]
  rfl

/-- The second layer over ANY hidden array `h`: `max (Σ_l h (p, l) · w (l, k) + b k) 0`. -/
theorem layer2_apply (h : FVec Ideal S8000x32 .f32) (w : FVec Ideal S32x32 .f32) (b : FVec Ideal S1x32 .f32)
    (p : Fin 8000) (k : Fin 32) :
    maximumf
        (addf (matmul dot_S8000x32_S32x32_S8000x32_1_0_0_1_n_n none h w (constant (F := Ideal) S8000x32 .f32 0x00000000#32))
          (broadcastTo S8000x32 b broadcasts_S1x32_S8000x32))
        (broadcast S8000x32 (FloatOps.ofBits (F := Ideal) .f32 0x00000000#32)) (ix2 p k)
      = max ((∑ l : Fin 32, h (ix2 p l) * w (ix2 l k)) + b (ix2 Cert.Vae.r0 k)) 0 := by
  rw [maximumf_apply, addf_apply, dotMid_apply, broadcastTo_1b_ab_apply, broadcast_apply,
    Ideal.ofBits_def, Ideal.ofBits_zero_f32]

/-- The last layer over ANY hidden array `h`, with no maximum: `Σ_k h (p, k) · w (k, q) + b q`. -/
theorem layer3_apply (h : FVec Ideal S8000x32 .f32) (w : FVec Ideal S32x4 .f32) (b : FVec Ideal S1x4 .f32)
    (p : Fin 8000) (q : Fin 4) :
    addf (matmul dot_S8000x32_S32x4_S8000x4_1_0_0_1_n_n none h w (constant (F := Ideal) S8000x4 .f32 0x00000000#32))
        (broadcastTo S8000x4 b broadcasts_S1x4_S8000x4) (ix2 p q)
      = (∑ k : Fin 32, h (ix2 p k) * w (ix2 k q)) + b (ix2 Cert.Vae.r0 q) := by
  rw [addf_apply, dotOut_apply, broadcastTo_1b_ab_apply]

/-! ## The body on one block -/

/-- What the body leaves in the output buffer, as a function of the nine blocks it loads, is the decoder's message
    function of those blocks (at 8000 rows): the one store covers the buffer, every load is of a whole buffer, the casts
    are between equal shapes, and the three layers read as above. -/
theorem block_eq (x0 x1 : Vec Ideal S8000x2 .f32) (x2 x3 : Vec Ideal S2x32 .f32) (x4 : Vec Ideal S1x32 .f32)
    (x5 : Vec Ideal S32x32 .f32) (x6 : Vec Ideal S1x32 .f32) (x7 : Vec Ideal S32x4 .f32) (x8 : Vec Ideal S1x4 .f32) :
    out2_9 (F := Ideal) x0 x1 x2 x3 x4 x5 x6 x7 x8 = Cert.Vae.decMsg x0 x1 x2 x3 x4 x5 x6 x7 x8 := by
  funext j
  obtain ⟨p, q, rfl⟩ : ∃ (p : Fin 8000) (q : Fin 4), j = ix2 p q := ⟨j 0, j 1, eq_ix2 j⟩
  unfold out2_9
  rw [View.canon_unit_zero hz]
  simp only [View.ld_unit_zero (S := S8000x2) hz, View.ld_unit_zero (S := S2x32) hz, View.ld_unit_zero (S := S1x32) hz,
    View.ld_unit_zero (S := S32x32) hz, View.ld_unit_zero (S := S32x4) hz, View.ld_unit_zero (S := S1x4) hz]
  unfold k2_pay1
  simp only [shapeCast_self]
  rw [layer3_apply]
  unfold Cert.Vae.decMsg Cert.Vae.decHid2
  simp only [layer2_apply, layer1_apply]

/-! ## A row of the decoder's message reads only that row of the two row-indexed operands -/

/-- If row `e` of `zi`, `zj` is row `e'` of `zi'`, `zj'` (arrays of any two heights), the message's row `e` over the
    first pair is its row `e'` over the second, the parameters being the same. -/
theorem decMsg_row {n n' : ℕ} (zi zj : Cert.Vae.Arr2 n 2) (zi' zj' : Cert.Vae.Arr2 n' 2) (w1i w1j : Cert.Vae.Arr2 2 32)
    (b1 : Cert.Vae.Arr2 1 32) (w2 : Cert.Vae.Arr2 32 32) (b2 : Cert.Vae.Arr2 1 32) (w3 : Cert.Vae.Arr2 32 4) (b3 : Cert.Vae.Arr2 1 4)
    (e : Fin n) (e' : Fin n') (col : Fin 4)
    (hi : ∀ k : Fin 2, zi (ix2 e k) = zi' (ix2 e' k)) (hj : ∀ k : Fin 2, zj (ix2 e k) = zj' (ix2 e' k)) :
    Cert.Vae.decMsg zi zj w1i w1j b1 w2 b2 w3 b3 (ix2 e col) = Cert.Vae.decMsg zi' zj' w1i w1j b1 w2 b2 w3 b3 (ix2 e' col) := by
  have h1 : ∀ k, Cert.Vae.decHid1 zi zj w1i w1j b1 e k = Cert.Vae.decHid1 zi' zj' w1i w1j b1 e' k := fun k => by
    unfold Cert.Vae.decHid1; simp only [hi, hj]
  have h2 : ∀ k, Cert.Vae.decHid2 zi zj w1i w1j b1 w2 b2 e k = Cert.Vae.decHid2 zi' zj' w1i w1j b1 w2 b2 e' k := fun k => by
    unfold Cert.Vae.decHid2; simp only [h1]
  show (∑ k : Fin 32, Cert.Vae.decHid2 zi zj w1i w1j b1 w2 b2 e k * w3 (ix2 k col)) + b3 (ix2 Cert.Vae.r0 col)
    = (∑ k : Fin 32, Cert.Vae.decHid2 zi' zj' w1i w1j b1 w2 b2 e' k * w3 (ix2 k col)) + b3 (ix2 Cert.Vae.r0 col)
  simp only [h2]

/-! ## The windows' index maps over the grid -/

/-- At point `t` the two row-indexed inputs and the output are at row-block `t`, column-block 0 (decided over the 400
    points). -/
theorem idx_rows : ∀ t : Fin cfg2.N,
    win2_0.index t (0 : Fin 2) = t.val ∧ win2_0.index t (1 : Fin 2) = 0
    ∧ win2_1.index t (0 : Fin 2) = t.val ∧ win2_1.index t (1 : Fin 2) = 0
    ∧ win2_9.index t (0 : Fin 2) = t.val ∧ win2_9.index t (1 : Fin 2) = 0 :=
  (by decide +kernel : ∀ t : Fin grid2.N, _)

/-- At every point the seven parameter windows are at block (0, 0): each is its whole array. -/
theorem idx_params : ∀ t : Fin cfg2.N,
    (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

/-! ## The input blocks as parts of the arrays

    An element of a block sits in its array, on each axis, at block index × block size + 1 × its coordinate in the block. -/

/-- Window 2's block at any point is the whole of its array. -/
theorem param_blk2 (c : Dev nD) (t : Fin cfg2.N) :
    (iblk2 V c 2 t : Vec Ideal S2x32 .f32) = (V c main_v53 : Vec Ideal S2x32 .f32) := by
  obtain ⟨e0, e1⟩ := (idx_params t).1
  funext y
  show V c main_v53 (((cfg2.win 2).blk t).view.emb y) = V c main_v53 y
  congr 1
  funext a; apply Fin.ext
  match a with
  | ⟨0, _⟩ => show win2_2.index t (0 : Fin 2) * 2 + 1 * (y 0).val = (y 0).val; rw [e0]; omega
  | ⟨1, _⟩ => show win2_2.index t (1 : Fin 2) * 32 + 1 * (y 1).val = (y 1).val; rw [e1]; omega

/-- Window 3's block at any point is the whole of its array. -/
theorem param_blk3 (c : Dev nD) (t : Fin cfg2.N) :
    (iblk2 V c 3 t : Vec Ideal S2x32 .f32) = (V c main_v55 : Vec Ideal S2x32 .f32) := by
  obtain ⟨e0, e1⟩ := (idx_params t).2.1
  funext y
  show V c main_v55 (((cfg2.win 3).blk t).view.emb y) = V c main_v55 y
  congr 1
  funext a; apply Fin.ext
  match a with
  | ⟨0, _⟩ => show win2_3.index t (0 : Fin 2) * 2 + 1 * (y 0).val = (y 0).val; rw [e0]; omega
  | ⟨1, _⟩ => show win2_3.index t (1 : Fin 2) * 32 + 1 * (y 1).val = (y 1).val; rw [e1]; omega

/-- Window 4's block at any point is the whole of its array. -/
theorem param_blk4 (c : Dev nD) (t : Fin cfg2.N) :
    (iblk2 V c 4 t : Vec Ideal S1x32 .f32) = (V c main_v58 : Vec Ideal S1x32 .f32) := by
  obtain ⟨e0, e1⟩ := (idx_params t).2.2.1
  funext y
  show V c main_v58 (((cfg2.win 4).blk t).view.emb y) = V c main_v58 y
  congr 1
  funext a; apply Fin.ext
  match a with
  | ⟨0, _⟩ => show win2_4.index t (0 : Fin 2) * 1 + 1 * (y 0).val = (y 0).val; rw [e0]; omega
  | ⟨1, _⟩ => show win2_4.index t (1 : Fin 2) * 32 + 1 * (y 1).val = (y 1).val; rw [e1]; omega

/-- Window 5's block at any point is the whole of its array. -/
theorem param_blk5 (c : Dev nD) (t : Fin cfg2.N) :
    (iblk2 V c 5 t : Vec Ideal S32x32 .f32) = (V c main_v56 : Vec Ideal S32x32 .f32) := by
  obtain ⟨e0, e1⟩ := (idx_params t).2.2.2.1
  funext y
  show V c main_v56 (((cfg2.win 5).blk t).view.emb y) = V c main_v56 y
  congr 1
  funext a; apply Fin.ext
  match a with
  | ⟨0, _⟩ => show win2_5.index t (0 : Fin 2) * 32 + 1 * (y 0).val = (y 0).val; rw [e0]; omega
  | ⟨1, _⟩ => show win2_5.index t (1 : Fin 2) * 32 + 1 * (y 1).val = (y 1).val; rw [e1]; omega

/-- Window 6's block at any point is the whole of its array. -/
theorem param_blk6 (c : Dev nD) (t : Fin cfg2.N) :
    (iblk2 V c 6 t : Vec Ideal S1x32 .f32) = (V c main_v59 : Vec Ideal S1x32 .f32) := by
  obtain ⟨e0, e1⟩ := (idx_params t).2.2.2.2.1
  funext y
  show V c main_v59 (((cfg2.win 6).blk t).view.emb y) = V c main_v59 y
  congr 1
  funext a; apply Fin.ext
  match a with
  | ⟨0, _⟩ => show win2_6.index t (0 : Fin 2) * 1 + 1 * (y 0).val = (y 0).val; rw [e0]; omega
  | ⟨1, _⟩ => show win2_6.index t (1 : Fin 2) * 32 + 1 * (y 1).val = (y 1).val; rw [e1]; omega

/-- Window 7's block at any point is the whole of its array. -/
theorem param_blk7 (c : Dev nD) (t : Fin cfg2.N) :
    (iblk2 V c 7 t : Vec Ideal S32x4 .f32) = (V c main_v57 : Vec Ideal S32x4 .f32) := by
  obtain ⟨e0, e1⟩ := (idx_params t).2.2.2.2.2.1
  funext y
  show V c main_v57 (((cfg2.win 7).blk t).view.emb y) = V c main_v57 y
  congr 1
  funext a; apply Fin.ext
  match a with
  | ⟨0, _⟩ => show win2_7.index t (0 : Fin 2) * 32 + 1 * (y 0).val = (y 0).val; rw [e0]; omega
  | ⟨1, _⟩ => show win2_7.index t (1 : Fin 2) * 4 + 1 * (y 1).val = (y 1).val; rw [e1]; omega

/-- Window 8's block at any point is the whole of its array. -/
theorem param_blk8 (c : Dev nD) (t : Fin cfg2.N) :
    (iblk2 V c 8 t : Vec Ideal S1x4 .f32) = (V c main_v60 : Vec Ideal S1x4 .f32) := by
  obtain ⟨e0, e1⟩ := (idx_params t).2.2.2.2.2.2
  funext y
  show V c main_v60 (((cfg2.win 8).blk t).view.emb y) = V c main_v60 y
  congr 1
  funext a; apply Fin.ext
  match a with
  | ⟨0, _⟩ => show win2_8.index t (0 : Fin 2) * 1 + 1 * (y 0).val = (y 0).val; rw [e0]; omega
  | ⟨1, _⟩ => show win2_8.index t (1 : Fin 2) * 4 + 1 * (y 1).val = (y 1).val; rw [e1]; omega

/-- Row `e` of window 0's block at point `t` is row `8000·t + e` of its array. -/
theorem rows_blk0 (c : Dev nD) (t : Fin cfg2.N) (e : Fin 8000) (k : Fin 2) (r : Fin 3200000) (hr : r.val = t.val * 8000 + e.val) :
    (iblk2 V c 0 t : Vec Ideal S8000x2 .f32) (ix2 e k) = (V c main_v50 : Vec Ideal S3200000x2 .f32) (ix2 r k) := by
  obtain ⟨e0, e1, e2, e3, -, -⟩ := idx_rows t
  show V c main_v50 (((cfg2.win 0).blk t).view.emb (ix2 e k)) = V c main_v50 (ix2 r k)
  congr 1
  funext a; apply Fin.ext
  match a with
  | ⟨0, _⟩ => show win2_0.index t (0 : Fin 2) * 8000 + 1 * e.val = r.val; rw [e0, hr]; omega
  | ⟨1, _⟩ => show win2_0.index t (1 : Fin 2) * 2 + 1 * k.val = k.val; rw [e1]; omega

/-- Row `e` of window 1's block at point `t` is row `8000·t + e` of its array. -/
theorem rows_blk1 (c : Dev nD) (t : Fin cfg2.N) (e : Fin 8000) (k : Fin 2) (r : Fin 3200000) (hr : r.val = t.val * 8000 + e.val) :
    (iblk2 V c 1 t : Vec Ideal S8000x2 .f32) (ix2 e k) = (V c main_v51 : Vec Ideal S3200000x2 .f32) (ix2 r k) := by
  obtain ⟨e0, e1, e2, e3, -, -⟩ := idx_rows t
  show V c main_v51 (((cfg2.win 1).blk t).view.emb (ix2 e k)) = V c main_v51 (ix2 r k)
  congr 1
  funext a; apply Fin.ext
  match a with
  | ⟨0, _⟩ => show win2_1.index t (0 : Fin 2) * 8000 + 1 * e.val = r.val; rw [e2, hr]; omega
  | ⟨1, _⟩ => show win2_1.index t (1 : Fin 2) * 2 + 1 * k.val = k.val; rw [e3]; omega

/-! ## What a point writes back, the cover, the array -/

/-- Point `t` writes back block `t` of the message function of the WHOLE arrays: the body's result on the blocks is
    the message function of the blocks; the parameter blocks are the parameter arrays; and row `e` of the result reads
    only row `e` of the two row-indexed blocks, which is row `8000·t + e` of their arrays, the row the output block's
    row `e` sits at. -/
theorem written_eq (c : Dev nD) (t : Fin cfg2.N) :
    (dat2 (F := Ideal) V c).flushed 9 t = ((cfg2.win 9).blk t).view.read (Elt Ideal)
      (Cert.Vae.decMsg (V c main_v50) (V c main_v51) (V c main_v53) (V c main_v55) (V c main_v58) (V c main_v56)
        (V c main_v59) (V c main_v57) (V c main_v60)) := by
  show (cfg2.win 9).cut (grid2.coords t) ((dat2 V c).after 9 t) = _
  rw [after2_9, block_eq (iblk2 V c 0 t) (iblk2 V c 1 t) (iblk2 V c 2 t) (iblk2 V c 3 t) (iblk2 V c 4 t) (iblk2 V c 5 t)
    (iblk2 V c 6 t) (iblk2 V c 7 t) (iblk2 V c 8 t), param_blk2, param_blk3, param_blk4, param_blk5, param_blk6, param_blk7,
    param_blk8]
  obtain ⟨-, -, -, -, e4, e5⟩ := idx_rows t
  have hN : t.val < 400 := by have := t.isLt; have h : cfg2.N = 400 := N_2; omega
  funext j
  have hj0 : (j 0).val < 8000 := (j 0).isLt
  have hj1 : (j 1).val < 4 := (j 1).isLt
  have hx : (cfg2.win 9).xinj (grid2.coords t) j = ix2 (⟨(j 0).val, hj0⟩ : Fin 8000) (⟨(j 1).val, hj1⟩ : Fin 4) :=
    funext fun a => match a with | ⟨0, _⟩ => rfl | ⟨1, _⟩ => rfl
  have hr : t.val * 8000 + (j 0).val < 3200000 := by omega
  have hm : ((cfg2.win 9).blk t).view.emb j = ix2 (⟨t.val * 8000 + (j 0).val, hr⟩ : Fin 3200000) (⟨(j 1).val, hj1⟩ : Fin 4) :=
    funext fun a => Fin.ext (by
      match a with
      | ⟨0, _⟩ => show win2_9.index t (0 : Fin 2) * 8000 + 1 * (j 0).val = t.val * 8000 + (j 0).val; rw [e4]; omega
      | ⟨1, _⟩ => show win2_9.index t (1 : Fin 2) * 4 + 1 * (j 1).val = (j 1).val; rw [e5]; omega)
  show Cert.Vae.decMsg _ _ _ _ _ _ _ _ _ ((cfg2.win 9).xinj (grid2.coords t) j)
    = Cert.Vae.decMsg _ _ _ _ _ _ _ _ _ (((cfg2.win 9).blk t).view.emb j)
  rw [hx, hm]
  exact decMsg_row _ _ _ _ _ _ _ _ _ _ _ _ _ _ (fun k => rows_blk0 V c t _ k _ rfl) (fun k => rows_blk1 V c t _ k _ rfl)

/-- An index of the output array is in point `t`'s block iff each coordinate is in the block's range on its axis. -/
theorem mem_rows (t : Fin cfg2.N) (i : S3200000x4.Idx) :
    i ∈ ((cfg2.win 9).blk t).view.set ↔ ∀ a : Fin 2, win2_9.index t a * S8000x4.size a ≤ (i a).val ∧ (i a).val < win2_9.index t a * S8000x4.size a + S8000x4.size a := by
  show i ∈ ((View.whole main_v61).slice (win2_9.rect t)).set ↔ _
  rw [View.set_slice_whole, Rect.mem_set_unit]
  exact Iff.rfl

/-- What region 2 leaves in its output array, whatever the buffers hold when the region is entered: the decoder's
    message function of the nine arrays it reads. Row `r` is in the block of point `r / 8000`, every point writes its
    block back, and 400 blocks of 8000 rows are the 3,200,000 rows. -/
theorem final (c : Dev nD) :
    (dat2 (F := Ideal) V c).arrAt 9 cfg2.N
      = Cert.Vae.decMsg (V c main_v50) (V c main_v51) (V c main_v53) (V c main_v55) (V c main_v58) (V c main_v56)
          (V c main_v59) (V c main_v57) (V c main_v60) :=
  (dat2 (F := Ideal) V c).arrAt_eq_of_cover 9 _ (fun t _ => written_eq V c t) fun i => by
    have hi0 : (i 0).val < 3200000 := (i 0).isLt
    have hi1 : (i 1).val < 4 := (i 1).isLt
    have hN : cfg2.N = 400 := N_2
    have ht : (i 0).val / 8000 < cfg2.N := by rw [hN]; omega
    obtain ⟨-, -, -, -, e4, e5⟩ := idx_rows ⟨(i 0).val / 8000, ht⟩
    refine ⟨⟨(i 0).val / 8000, ht⟩, flush2_9 _, ?_⟩
    rw [mem_rows]
    intro a
    match a with
    | ⟨0, _⟩ =>
      show win2_9.index ⟨(i 0).val / 8000, ht⟩ (0 : Fin 2) * 8000 ≤ (i 0).val ∧ (i 0).val < win2_9.index ⟨(i 0).val / 8000, ht⟩ (0 : Fin 2) * 8000 + 8000
      rw [e4]; show (i 0).val / 8000 * 8000 ≤ (i 0).val ∧ (i 0).val < (i 0).val / 8000 * 8000 + 8000; omega
    | ⟨1, _⟩ =>
      show win2_9.index ⟨(i 0).val / 8000, ht⟩ (1 : Fin 2) * 4 ≤ (i 1).val ∧ (i 1).val < win2_9.index ⟨(i 0).val / 8000, ht⟩ (1 : Fin 2) * 4 + 4
      rw [e5]; omega

end Cert.KernelIdeal.R2

end
-- ==== Proof.KValue.lean ====
/-
  The kernel program's three results as functions of its arguments: each region's output array is its function of the
  arrays the region finds, those arrays are the host operations' values of the arguments and of the earlier regions'
  outputs, and the last stretch averages the decoder's messages over incoming edges.
-/
import proofs.«417863_j7456063226141_3_alg».proof.Proof.KHost3
import proofs.«417863_j7456063226141_3_alg».proof.Proof.R0Value
import proofs.«417863_j7456063226141_3_alg».proof.Proof.R1Value
import proofs.«417863_j7456063226141_3_alg».proof.Proof.R2Value

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.KTerms

variable (m : (ℓ : Loc nD τ sig) → Buf (Elt Ideal) ℓ) (ρ : Dev nD → PrngReg) (c : Dev nD)

/-- The first region's output array holds the encoder's messages. -/
theorem w5_enc :
    W5 m ρ c (Proc.devRef .tc main_v32) = encK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg18)) := by
  refine (W5_arr m ρ c 9).trans ?_
  rw [Cert.KernelIdeal.R0.final (V4 m ρ) c, KHost0.v4_xi, KHost0.v4_xj, KHost0.v4_scale, KHost0.v4_shift, KHost0.v4_w1i,
    KHost0.v4_w1j, KHost0.v4_b1, KHost0.v4_w2, KHost0.v4_b2]
  rfl

/-- The second region's first output array holds the mean head. -/
theorem w7_mu :
    W7 m ρ c (Proc.devRef .tc main_v49_0) = muK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) := by
  refine (W7_arr m ρ c 6).trans ?_
  rw [Cert.KernelIdeal.R1.final_mu (V6 m ρ) c, KHost1.v6_h, KHost1.v6_muw, KHost1.v6_mub, w5_enc]
  rfl

/-- The second region's second output array holds the log-variance head. -/
theorem w7_lv :
    W7 m ρ c (Proc.devRef .tc main_v49_1) = lvK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg18)) := by
  refine (W7_arr m ρ c 7).trans ?_
  rw [Cert.KernelIdeal.R1.final_lv (V6 m ρ) c, KHost1.v6_h, KHost1.v6_varw, KHost1.v6_varb, w5_enc]
  rfl

/-- The second region's third output array holds the latent table. -/
theorem w7_z :
    W7 m ρ c (Proc.devRef .tc main_v49_2) = zK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18)) := by
  refine (W7_arr m ρ c 8).trans ?_
  rw [Cert.KernelIdeal.R1.final_z (V6 m ρ) c, KHost1.v6_h, KHost1.v6_eps, KHost1.v6_muw, KHost1.v6_mub, KHost1.v6_varw,
    KHost1.v6_varb, w5_enc]
  rfl

/-- The third region's output array holds the decoder's messages. -/
theorem w11_dec :
    W11 m ρ c (Proc.devRef .tc main_v61)
      = decK (zK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18))) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W11_arr m ρ c 9).trans ?_
  rw [Cert.KernelIdeal.R2.final (V10 m ρ) c, KHost2.v10_zi, KHost2.v10_zj, KHost2.v10_w1i, KHost2.v10_w1j, KHost2.v10_b1,
    KHost2.v10_w2, KHost2.v10_b2, KHost2.v10_w3, KHost2.v10_b3, w7_z]
  rfl

/-- The reconstruction at the program's end. -/
theorem out_val :
    W12 m ρ c (Proc.devRef .tc main_v66)
      = outK (zK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg18))) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  rw [KHost3.w12_out, w11_dec]
  rfl

/-- The mean head at the program's end. -/
theorem mu_val :
    W12 m ρ c (Proc.devRef .tc main_v49_0) = muK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg18)) := by
  rw [KHost3.w12_mu, w7_mu]

/-- The log-variance head at the program's end. -/
theorem lv_val :
    W12 m ρ c (Proc.devRef .tc main_v49_1) = lvK (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg10)) (m ((c : Thread nD τ).loc main_arg11)) (m ((c : Thread nD τ).loc main_arg18)) := by
  rw [KHost3.w12_lv, w7_lv]

end Cert.KernelIdeal.KValue

end
-- ==== Proof.LibRows.lean ====
/-
  General lemmas about gathering whole rows of a matrix.

  `table[idx]` for a matrix `table : [N, C]` and a vector of row numbers `idx : [R]` (kept as a column `[R, 1]`) lowers to a
  gather whose one collapsed, start-indexed operand axis is the row axis, whose one offset axis is the column axis, and
  whose slice is one whole row. Element `(p, q)` of the result is the table's element `(r, q)`, where the row `r` is the
  start index at position `p` read as a signed integer and clamped into `[0, N − 1]`: the column is kept, and the row depends
  only on the row numbers and on `p`. So gathering rows commutes with any map that acts on each column of the table by
  itself (`gather_rows_map`).
-/
import Idealize.ShloMosaic.PureOps.Ideal
import Idealize.ShloMosaic.Lib.ValueIdx

noncomputable section

namespace Cert.LibRows

open Idealize.ShloMosaic Idealize.ShloMosaic.ValueIdx

variable {α : Type}

/-- Any element of a list that is a singleton is its one member. -/
theorem getElem_of_eq_singleton {β : Type} (l : List β) (b : β) (hl : l = [b]) (n : ℕ) (h : n < l.length) : l[n] = b := by
  subst hl
  have hn : n = 0 := by simpa using h
  subst hn
  rfl

/-- The row a gather of whole rows reads at result row `p`: the start index there, read signed, clamped into the table. -/
def gatherRow {N R w : ℕ} (hN : 0 < N) (idx : IVec ⟨2, ![R, 1]⟩ w) (p : Fin R) : Fin N :=
  ⟨min (idx (ix2 p (0 : Fin 1))).toInt.toNat (N - 1), by omega⟩

/-- A gather of whole rows read at `(p, q)`: the table at the clamped start row and the same column. The hypotheses are
    the printed dimension numbers, each closed by `rfl` on a program's record. -/
theorem gather_rows_apply {N C R w : ℕ} (hN : 0 < N) (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![R, 1]⟩ w) (p : Fin R) (q : Fin C) :
    Host.gather d x idx (ix2 p q) = x (ix2 (gatherRow hN idx p) q) := by
  unfold Host.gather
  congr 1
  funext a
  apply Fin.ext
  have hb : ∀ a : Fin 2, a ∉ d.operandBatchingDims := fun a => by rw [hob]; exact List.not_mem_nil
  match a with
  | ⟨0, _⟩ =>
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    show d.start (ix2 p q) idx 0 + d.batchCoord (ix2 p q) 0 + d.offCoord (ix2 p q) 0 = _
    simp only [GatherDims.batchCoord_eq_zero _ _ _ (hb 0), GatherDims.offCoord_eq_zero _ _ _ hk, Nat.add_zero,
      GatherDims.start, dif_pos hm]
    show min (idx _).toInt.toNat (N - d.sliceSizes 0) = min (idx (ix2 p (0 : Fin 1))).toInt.toNat (N - 1)
    rw [hsl]
    congr 3
    congr 1
    funext b
    match b with
    | ⟨0, _⟩ =>
      unfold GatherDims.siIdx
      rw [dif_neg (by rw [hivd]; simp)]
      unfold GatherDims.siCoord
      apply Fin.ext
      simp only [Fin.val_cast]
      -- the result's one batch axis is axis 0 (axis 1 is the offset axis)
      have hbd : d.batchDims = [0] := by
        show (⟨2, ![R, C]⟩ : Shape).kept d.offsetDims = [0]
        rw [hoff]; rfl
      have hsk : d.siKept = [0] := by
        show (List.finRange 2).filter (fun b : Fin 2 => decide (b.val ≠ d.indexVectorDim)) = [0]
        rw [hivd]; rfl
      have hp : List.idxOf (⟨0, by decide⟩ : Fin 2) d.siKept < d.batchDims.length := by rw [hbd, hsk]; simp
      have e : d.batchDims[List.idxOf (⟨0, by decide⟩ : Fin 2) d.siKept]'hp = 0 :=
        getElem_of_eq_singleton _ _ hbd _ _
      exact (congrArg (fun X : Fin 2 => ((ix2 p q X : Fin _) : ℕ)) e).trans rfl
    | ⟨1, _⟩ =>
      unfold GatherDims.siIdx
      rw [dif_pos (by rw [hivd])]
      apply Fin.ext
      show List.idxOf (0 : Fin 2) d.startIndexMap = 0
      rw [hsim]; simp
  | ⟨1, _⟩ =>
    have hk : (1 : Fin 2) ∈ d.sKept := by rw [GatherDims.mem_sKept, hcoll]; exact ⟨by simp, hb 1⟩
    have hm : (1 : Fin 2) ∉ d.startIndexMap := by rw [hsim]; simp
    show d.start (ix2 p q) idx 1 + d.batchCoord (ix2 p q) 1 + d.offCoord (ix2 p q) 1 = q.val
    rw [GatherDims.batchCoord_eq_zero _ _ _ (hb 1), Nat.add_zero]
    unfold GatherDims.start
    rw [dif_neg hm, Nat.zero_add]
    unfold GatherDims.offCoord
    rw [dif_pos hk]
    have hskp : d.sKept = [1] := by
      show (⟨2, ![N, C]⟩ : Shape).kept (d.collapsedSliceDims ++ d.operandBatchingDims) = [1]
      rw [hcoll, hob]; rfl
    have hp : List.idxOf (1 : Fin 2) d.sKept < d.offsetDims.length := by rw [hoff, hskp]; simp
    have e : d.offsetDims[List.idxOf (1 : Fin 2) d.sKept]'hp = 1 := getElem_of_eq_singleton _ _ hoff _ _
    exact (congrArg (fun X : Fin 2 => ((ix2 p q X : Fin _) : ℕ)) e).trans rfl

/-- Gathering rows commutes with a map that acts on each entry by its column alone. -/
theorem gather_rows_map {N C R w : ℕ} {β : Type} (hN : 0 < N) (d : GatherDims ⟨2, ![N, C]⟩ ⟨2, ![R, 1]⟩ ⟨2, ![R, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (f : Fin C → α → β) (idx : IVec ⟨2, ![R, 1]⟩ w) (p : Fin R) (q : Fin C) :
    Host.gather d (fun i => f (i 1) (x i)) idx (ix2 p q) = f q (Host.gather d x idx (ix2 p q)) := by
  rw [gather_rows_apply hN d hoff hcoll hob hsim hivd, gather_rows_apply hN d hoff hcoll hob hsim hivd]
  rfl

end Cert.LibRows

end
-- ==== Proof.LibSums.lean ====
/-
  Sums regrouped.

  A sum over a range cut into equal blocks is the double sum over blocks and places inside a block; a sum over a range
  whose tail terms vanish is the sum over the head; a sum over the indices of a rank-1, rank-2 or rank-3 array is the
  iterated sum over the coordinates. All of it holds in any additive commutative monoid, so also for the extended reals,
  whose addition is commutative and associative even at the infinities. The last part is about the extended reals alone:
  negation passes through a sum of non-negative terms, the embedding of the reals passes through a sum, and a few facts
  on the sign and the finiteness of sums and squares.
-/
import Mathlib.Algebra.BigOperators.Fin
import Mathlib.Algebra.BigOperators.Group.Finset.Basic
import Mathlib.Algebra.Order.BigOperators.Group.Finset
import Mathlib.Logic.Equiv.Fin.Basic
import Mathlib.Data.EReal.Operations
import Idealize.ShloMosaic.PureOps.Ideal
import Idealize.ShloMosaic.Lib.ValueIdx

open scoped BigOperators

namespace Cert.LibSums

open Idealize.ShloMosaic

section Monoid

variable {M : Type*} [AddCommMonoid M]

/-! ## Blocks and tails -/

/-- `B` blocks of `R` consecutive places: the double sum over (block, place in the block) is the sum over all `B * R` places. -/
theorem sum_blocks (B R : ℕ) (f : ℕ → M) :
    ∑ t : Fin B, ∑ r : Fin R, f (t.val * R + r.val) = ∑ i : Fin (B * R), f i.val := by
  rw [← Equiv.sum_comp (finProdFinEquiv (m := B) (n := R)) (fun i => f i.val), Fintype.sum_prod_type]
  refine Finset.sum_congr rfl fun t _ => Finset.sum_congr rfl fun r _ => ?_
  show f (t.val * R + r.val) = f (r.val + R * t.val)
  rw [Nat.mul_comm, Nat.add_comm]

/-- Five blocks of 3000. -/
theorem sum_blocks_5_3000 (f : ℕ → M) :
    ∑ t : Fin 5, ∑ r : Fin 3000, f (t.val * 3000 + r.val) = ∑ i : Fin 15000, f i.val := sum_blocks 5 3000 f

/-- Twenty-five blocks of 4000. -/
theorem sum_blocks_25_4000 (f : ℕ → M) :
    ∑ t : Fin 25, ∑ r : Fin 4000, f (t.val * 4000 + r.val) = ∑ i : Fin 100000, f i.val := sum_blocks 25 4000 f

/-- A hundred and fifty-eight blocks of 64. -/
theorem sum_blocks_158_64 (f : ℕ → M) :
    ∑ t : Fin 158, ∑ r : Fin 64, f (t.val * 64 + r.val) = ∑ i : Fin 10112, f i.val := sum_blocks 158 64 f

/-- A sum over the first `N` naturals whose terms from `n` on vanish is the sum over the first `n`. -/
theorem sum_fin_le (n N : ℕ) (h : n ≤ N) (f : ℕ → M) (hf : ∀ i, n ≤ i → i < N → f i = 0) :
    ∑ i : Fin N, f i.val = ∑ i : Fin n, f i.val := by
  rw [Fin.sum_univ_eq_sum_range f N, Fin.sum_univ_eq_sum_range f n]
  refine (Finset.sum_subset (Finset.range_subset_range.2 h) fun i hi hni => ?_).symm
  exact hf i (Nat.le_of_not_lt fun hlt => hni (Finset.mem_range.2 hlt)) (Finset.mem_range.1 hi)

/-- Two indices at once: rows in `B` blocks of `R`, columns up to `C`, the function vanishing as soon as the row
    reaches `n` or the column reaches `m`: the triple sum is the double sum over `n` rows and `m` columns. -/
theorem sum_blocks_tail2 (B R C n m : ℕ) (hn : n ≤ B * R) (hm : m ≤ C) (f : ℕ → ℕ → M)
    (hf : ∀ r c, n ≤ r ∨ m ≤ c → f r c = 0) :
    ∑ t : Fin B, ∑ r : Fin R, ∑ c : Fin C, f (t.val * R + r.val) c.val = ∑ r : Fin n, ∑ c : Fin m, f r.val c.val := by
  rw [sum_blocks B R (fun i => ∑ c : Fin C, f i c.val)]
  rw [sum_fin_le n (B * R) hn (fun i => ∑ c : Fin C, f i c.val)
    (fun i hi _ => Finset.sum_eq_zero fun c _ => hf i c.val (Or.inl hi))]
  refine Finset.sum_congr rfl fun r _ => ?_
  exact sum_fin_le m C hm (f r.val) (fun c hc _ => hf r.val c (Or.inr hc))

/-- Rows in 158 blocks of 64 against 10112 columns, of which the first 10000 rows and columns count. -/
theorem sum_158_64_10112 (f : ℕ → ℕ → M) (hf : ∀ r c, 10000 ≤ r ∨ 10000 ≤ c → f r c = 0) :
    ∑ t : Fin 158, ∑ r : Fin 64, ∑ c : Fin 10112, f (t.val * 64 + r.val) c.val
      = ∑ r : Fin 10000, ∑ c : Fin 10000, f r.val c.val :=
  sum_blocks_tail2 158 64 10112 10000 10000 (by decide) (by decide) f hf

end Monoid

section Idx

variable {M : Type*} [AddCommMonoid M]

open Idealize.ShloMosaic.ValueIdx

/-! ## Sums over an array's indices, by coordinates (rank 2 is the library's `ValueIdx.sum_idx2`) -/

/-- A rank-1 index set is its one coordinate's range. -/
def idxEquiv1 {n : ℕ} : (⟨1, ![n]⟩ : Shape).Idx ≃ Fin n where
  toFun i := i 0
  invFun a := ix1 a
  left_inv i := (eq_ix1 i).symm
  right_inv _ := rfl

/-- A sum over the indices of a rank-1 array is the sum over its one coordinate. -/
theorem sum_idx1 {n : ℕ} (g : (⟨1, ![n]⟩ : Shape).Idx → M) : ∑ j, g j = ∑ p : Fin n, g (ix1 p) := by
  rw [← Equiv.sum_comp (idxEquiv1 (n := n)).symm g]
  rfl

/-- A rank-3 index set is the product of its three coordinate ranges. -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over the indices of a rank-3 array is the triple sum over the coordinates. -/
theorem sum_idx3 {n0 n1 n2 : ℕ} (g : (⟨3, ![n0, n1, n2]⟩ : Shape).Idx → M) :
    ∑ j, g j = ∑ p : Fin n0, ∑ q : Fin n1, ∑ r : Fin n2, g (ix3 p q r) := by
  rw [← Equiv.sum_comp (idxEquiv3 (n0 := n0) (n1 := n1) (n2 := n2)).symm g, Fintype.sum_prod_type]
  refine Finset.sum_congr rfl fun p _ => ?_
  rw [Fintype.sum_prod_type]
  rfl

/-- A sum over the indices of a rank-2 array is the double sum over the coordinates (the library's `sum_idx2`, restated
    with the index type written out). -/
theorem sum_idx2' {a b : ℕ} (g : (⟨2, ![a, b]⟩ : Shape).Idx → M) :
    ∑ j : (⟨2, ![a, b]⟩ : Shape).Idx, g j = ∑ p : Fin a, ∑ q : Fin b, g (ix2 p q) := sum_idx2 g

end Idx

/-! ## The extended reals -/

section EReal

variable {ι : Type*}

/-- The embedding of the reals passes through a finite sum. -/
theorem sum_coe (s : Finset ι) (f : ι → ℝ) : ∑ i ∈ s, ((f i : ℝ) : EReal) = ((∑ i ∈ s, f i : ℝ) : EReal) := by
  classical
  induction s using Finset.induction_on with
  | empty => simp
  | insert i s hi ih => rw [Finset.sum_insert hi, Finset.sum_insert hi, ih, EReal.coe_add]

/-- A sum none of whose terms is `⊥` is not `⊥`. -/
theorem sum_ne_bot (s : Finset ι) (a : ι → EReal) (h : ∀ i ∈ s, a i ≠ ⊥) : ∑ i ∈ s, a i ≠ ⊥ := by
  classical
  induction s using Finset.induction_on with
  | empty => simp
  | insert i s hi ih =>
    rw [Finset.sum_insert hi]
    exact EReal.add_ne_bot_iff.2 ⟨h i (Finset.mem_insert_self i s), ih fun j hj => h j (Finset.mem_insert_of_mem hj)⟩

/-- A sum none of whose terms is `⊤` is not `⊤` (whatever the other terms: `⊤ + ⊥ = ⊥`). -/
theorem sum_ne_top (s : Finset ι) (a : ι → EReal) (h : ∀ i ∈ s, a i ≠ ⊤) : ∑ i ∈ s, a i ≠ ⊤ := by
  classical
  induction s using Finset.induction_on with
  | empty => simp
  | insert i s hi ih =>
    rw [Finset.sum_insert hi]
    exact EReal.add_ne_top (h i (Finset.mem_insert_self i s)) (ih fun j hj => h j (Finset.mem_insert_of_mem hj))

/-- A sum of reals is not `⊥`. -/
theorem sum_coe_ne_bot (s : Finset ι) (f : ι → ℝ) : ∑ i ∈ s, ((f i : ℝ) : EReal) ≠ ⊥ :=
  sum_ne_bot s _ fun i _ => EReal.coe_ne_bot (f i)

/-- A sum of reals is not `⊤`. -/
theorem sum_coe_ne_top (s : Finset ι) (f : ι → ℝ) : ∑ i ∈ s, ((f i : ℝ) : EReal) ≠ ⊤ :=
  sum_ne_top s _ fun i _ => EReal.coe_ne_top (f i)

/-- A sum of non-negative terms is non-negative. -/
theorem sum_nonneg (s : Finset ι) (a : ι → EReal) (h : ∀ i ∈ s, 0 ≤ a i) : 0 ≤ ∑ i ∈ s, a i :=
  Finset.sum_nonneg h

/-- Each term of a sum of non-negative terms is at most the sum. -/
theorem le_sum_of_nonneg (s : Finset ι) (a : ι → EReal) (h : ∀ i ∈ s, 0 ≤ a i) {i : ι} (hi : i ∈ s) :
    a i ≤ ∑ j ∈ s, a j :=
  Finset.single_le_sum h hi

/-- A sum of non-negative terms one of which is positive is positive. -/
theorem sum_pos (s : Finset ι) (a : ι → EReal) (h : ∀ i ∈ s, 0 ≤ a i) {i : ι} (hi : i ∈ s) (hpos : 0 < a i) :
    0 < ∑ j ∈ s, a j :=
  lt_of_lt_of_le hpos (le_sum_of_nonneg s a h hi)

/-- If a sum of non-negative terms is below `⊤`, so is every term. -/
theorem lt_top_of_sum_lt_top (s : Finset ι) (a : ι → EReal) (h : ∀ i ∈ s, 0 ≤ a i) (hs : ∑ i ∈ s, a i < ⊤) :
    ∀ i ∈ s, a i < ⊤ :=
  fun _ hi => lt_of_le_of_lt (le_sum_of_nonneg s a h hi) hs

/-- Negation passes through a sum of non-negative terms: no partial sum is `⊥`, so no `⊤ + ⊥` is met. -/
theorem neg_sum_of_nonneg (s : Finset ι) (a : ι → EReal) (h : ∀ i ∈ s, 0 ≤ a i) :
    ∑ i ∈ s, -(a i) = -(∑ i ∈ s, a i) := by
  classical
  induction s using Finset.induction_on with
  | empty => simp
  | insert i s hi ih =>
    have hs : ∀ j ∈ s, 0 ≤ a j := fun j hj => h j (Finset.mem_insert_of_mem hj)
    have h1 : a i ≠ ⊥ := ne_of_gt (lt_of_lt_of_le EReal.bot_lt_zero (h i (Finset.mem_insert_self i s)))
    have h2 : ∑ j ∈ s, a j ≠ ⊥ := ne_of_gt (lt_of_lt_of_le EReal.bot_lt_zero (sum_nonneg s a hs))
    rw [Finset.sum_insert hi, Finset.sum_insert hi, ih hs, EReal.neg_add (Or.inl h1) (Or.inr h2), sub_eq_add_neg]

/-- A square is non-negative, also at the infinities (`⊥ * ⊥ = ⊤`). -/
theorem ereal_mul_self_nonneg (x : EReal) : 0 ≤ x * x := by
  induction x with
  | bot => rw [EReal.bot_mul_bot]; exact le_top
  | coe r => rw [← EReal.coe_mul]; exact EReal.coe_nonneg.2 (_root_.mul_self_nonneg r)
  | top => rw [EReal.top_mul_top]; exact le_top

/-- The square of a non-zero extended real is positive. -/
theorem ereal_mul_self_pos (x : EReal) (hx : x ≠ 0) : 0 < x * x := by
  induction x with
  | bot => rw [EReal.bot_mul_bot]; exact EReal.zero_lt_top
  | coe r =>
    rw [← EReal.coe_mul]
    exact EReal.coe_pos.2 (_root_.mul_self_pos.2 fun hr => hx (by rw [hr, EReal.coe_zero]))
  | top => rw [EReal.top_mul_top]; exact EReal.zero_lt_top

/-- A square below `⊤` is the square of a real. -/
theorem ereal_of_mul_self_lt_top (x : EReal) (h : x * x < ⊤) : x ≠ ⊥ ∧ x ≠ ⊤ := by
  refine ⟨fun hx => ?_, fun hx => ?_⟩
  · rw [hx, EReal.bot_mul_bot] at h; exact lt_irrefl _ h
  · rw [hx, EReal.top_mul_top] at h; exact lt_irrefl _ h

end EReal

end Cert.LibSums
-- ==== Proof.TakeFacts.lean ====
/-
  The row-take of a table at a row of node numbers is the bare gather of rows when every number is a node number.
  The take wraps negative numbers by the table's length, gathers, and keeps the gathered row only where the wrapped
  number lies in `[0, 99999]`, putting a fill word elsewhere. For `0 ≤ n < 100000` (signed) nothing is wrapped and the
  range test holds on every row, so every row is the gathered one. The two rows of the edge list inherit the range from
  the edge list's entries.
-/
import proofs.«417863_j7456063226141_3_alg».proof.Proof.KTerms
import proofs.«417863_j7456063226141_3_alg».proof.Proof.Spec
import Idealize.ShloMosaic.PureOps.Ideal
import Idealize.ShloMosaic.Lib.ValueIdx
import Idealize.ShloMosaic.Lib.ReduceAll
import Idealize.ShloMosaic.Lib.Pipeline.Value
import Idealize.ShloMosaic.Lib.StableHlo.Predicate

noncomputable section

namespace Cert.TakeFacts

open Idealize.ShloMosaic Idealize.ShloMosaic.ValueIdx
open Cert.KernelIdeal Cert.KernelIdeal.Gen Cert.KernelIdeal.KTerms

/-- A left fold by `and` over one-bit words that starts at 1 and meets only 1s ends at 1. -/
theorem foldl_andi_one {ι : Type} (f : ι → BitVec 1) (hf : ∀ n, f n = 1#1) :
    ∀ (l : List ι) (init : BitVec 1), init = 1#1 → l.foldl (fun r n => IntOp.andi r (f n)) init = 1#1
  | [], _, h => h
  | a :: l, init, h => by
    rw [List.foldl_cons]
    exact foldl_andi_one f hf l _ (IntOp.andi_eq_one.2 ⟨h, hf a⟩)

/-- A row of the edge list holds node numbers when the edge list does: the targets. Each entry of the row is an entry
    of the edge list (the slice and the reshape only re-index). -/
theorem dstK_range (ei : IVec S2x3200000 32) (hlo : ∀ i, 0 ≤ (ei i).toInt) (hhi : ∀ i, (ei i).toInt < 100000)
    (i : S3200000.Idx) : 0 ≤ (dstK ei i).toInt ∧ (dstK ei i).toInt < 100000 := by
  unfold dstK shapeCast extractStridedSlice
  exact ⟨hlo _, hhi _⟩

/-- A row of the edge list holds node numbers when the edge list does: the sources. -/
theorem srcK_range (ei : IVec S2x3200000 32) (hlo : ∀ i, 0 ≤ (ei i).toInt) (hhi : ∀ i, (ei i).toInt < 100000)
    (i : S3200000.Idx) : 0 ≤ (srcK ei i).toInt ∧ (srcK ei i).toInt < 100000 := by
  unfold srcK shapeCast extractStridedSlice
  exact ⟨hlo _, hhi _⟩

/-- A node number is not wrapped: the wrapped column holds, at every row, an entry of the row of numbers itself
    (the test `n < 0` fails, so the select keeps `n`), hence again a node number. -/
theorem wrapColK_range (v : IVec S3200000 32) (hv : ∀ i, 0 ≤ (v i).toInt ∧ (v i).toInt < 100000) (k : S3200000x1.Idx) :
    0 ≤ (wrapColK v k).toInt ∧ (wrapColK v k).toInt < 100000 := by
  obtain ⟨k', hk'⟩ : ∃ k' : S3200000.Idx, wrapColK v k
      = Scalar.select (IntOp.cmpi .slt (v k') 0#32) (IntOp.addi (v k') 100000#32) (v k') := ⟨_, rfl⟩
  have hc : IntOp.cmpi .slt (v k') 0#32 = 0#1 := by
    refine eq_zero_of_ne_one fun h1 => ?_
    have h2 := IntOp.cmpi_slt.1 h1
    rw [show (0#32 : BitVec 32).toInt = 0 from by decide] at h2
    exact absurd (hv k').1 (by omega)
  rw [hk', hc, select_zero]
  exact hv k'

/-- The range test holds on every row of a column of node numbers: `0 ≤ n` and `n ≤ 99999` are both 1 there, and the
    and-reduction over the unit axis folds only 1s from 1. -/
theorem inRangeK_one (I : IVec S3200000x1 32) (hI : ∀ k, 0 ≤ (I k).toInt ∧ (I k).toInt < 100000) (i : S3200000.Idx) :
    inRangeK I i = 1#1 := by
  unfold inRangeK
  rw [Host.reduce_eq_foldl]
  refine foldl_andi_one _ (fun k => ?_) _ _ rfl
  show IntOp.andi (IntOp.cmpi .sge (I k) 0#32) (IntOp.cmpi .sle (I k) 99999#32) = 1#1
  rw [IntOp.andi_eq_one, IntOp.cmpi_sge, IntOp.cmpi_sle, show (0#32 : BitVec 32).toInt = 0 from by decide,
    show (99999#32 : BitVec 32).toInt = 99999 from by decide]
  have := hI k
  omega

/-- The take of a 4-column table at a row of node numbers is the gather of its rows. -/
theorem take4K_eq (x : FVec Ideal S100000x4 .f32) (v : IVec S3200000 32)
    (hv : ∀ i, 0 ≤ (v i).toInt ∧ (v i).toInt < 100000) :
    take4K x v = Host.gather gather_S100000x4_S3200000x1_S3200000x4_1_0_n_n_0_1_14 x (wrapColK v) := by
  funext j
  unfold take4K
  rw [select_apply]
  have hm : broadcastInDim S3200000x4 ![0] bcast_S3200000_S3200000x4_0 (inRangeK (wrapColK v)) j = 1#1 :=
    inRangeK_one (wrapColK v) (wrapColK_range v hv) _
  rw [hm, select_one]

/-- The take of a 2-column table at a row of node numbers is the gather of its rows. -/
theorem take2K_eq (z : FVec Ideal S100000x2 .f32) (v : IVec S3200000 32)
    (hv : ∀ i, 0 ≤ (v i).toInt ∧ (v i).toInt < 100000) :
    take2K z v = Host.gather gather_S100000x2_S3200000x1_S3200000x2_1_0_n_n_0_1_12 z (wrapColK v) := by
  funext j
  unfold take2K
  rw [select_apply]
  have hm : broadcastInDim S3200000x2 ![0] bcast_S3200000_S3200000x2_0 (inRangeK (wrapColK v)) j = 1#1 :=
    inRangeK_one (wrapColK v) (wrapColK_range v hv) _
  rw [hm, select_one]

end Cert.TakeFacts

end
-- ==== Proof.RefEncFacts.lean ====
/-
  Real arithmetic behind the folded normalisation.
  The three words the normalisation spells are real numbers: zero, the node count 100000, and a positive ε. A mean of
  reals is real, a mean of squares of reals is a non-negative real, and the reciprocal square root of a positive real
  is real. On reals the extended reals' operations are the reals', so the normalisation applied to a row and its folded
  form are one real expression, and in the difference of two normalised rows the shift cancels.
-/
import proofs.«417863_j7456063226141_3_alg».proof.Proof.LibSums
import Idealize.ShloMosaic.PureOps.Ideal
import Idealize.ShloMosaic.PureOps.Ideal.Laws

noncomputable section

open scoped BigOperators

namespace Cert.RefEncFacts

open Idealize.ShloMosaic

/-! ## The three words -/

/-- The word `0x47C35000` is the real 100000. -/
theorem ofBits_count : Ideal.ofBits .f32 0x47C35000#32 = ((100000 : ℝ) : EReal) := by
  simp [Ideal.ofBits, Ideal.ieee, -EReal.coe_mul]; norm_num

/-- The word `0x3727C5AC` is a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

/-! ## Means and the reciprocal standard deviation -/

/-- The quotient of a real by the node count is a real. -/
theorem div_count (a : ℝ) : Ideal.div (a : EReal) (Ideal.ofBits .f32 0x47C35000#32) = ((a * (1 / 100000) : ℝ) : EReal) := by
  rw [ofBits_count, Ideal.div_coe (by norm_num), EReal.coe_mul]

/-- The mean of finitely many reals, as the programs spell it (zero plus the sum, over the count), is a real. -/
theorem mean_real {n : ℕ} (f : Fin n → EReal) (hf : ∀ k, ∃ r : ℝ, f k = (r : EReal)) :
    ∃ m : ℝ, Ideal.div (Ideal.ofBits .f32 0x00000000#32 + ∑ k : Fin n, f k) (Ideal.ofBits .f32 0x47C35000#32) = (m : EReal) := by
  choose r hr using hf
  refine ⟨(∑ k : Fin n, r k) * (1 / 100000), ?_⟩
  rw [Ideal.ofBits_zero_f32, zero_add, show (∑ k : Fin n, f k) = ∑ k : Fin n, ((r k : ℝ) : EReal) from Finset.sum_congr rfl fun k _ => hr k,
    Cert.LibSums.sum_coe, div_count]

/-- The mean of the squares of finitely many reals is a non-negative real. -/
theorem meansq_real {n : ℕ} (f : Fin n → EReal) (hf : ∀ k, ∃ r : ℝ, f k = (r : EReal)) :
    ∃ v : ℝ, 0 ≤ v ∧ Ideal.div (Ideal.ofBits .f32 0x00000000#32 + ∑ k : Fin n, f k * f k) (Ideal.ofBits .f32 0x47C35000#32) = (v : EReal) := by
  choose r hr using hf
  refine ⟨(∑ k : Fin n, r k * r k) * (1 / 100000), ?_, ?_⟩
  · exact mul_nonneg (Finset.sum_nonneg fun k _ => mul_self_nonneg (r k)) (by norm_num)
  · rw [Ideal.ofBits_zero_f32, zero_add,
      show (∑ k : Fin n, f k * f k) = ∑ k : Fin n, ((r k * r k : ℝ) : EReal) from
        Finset.sum_congr rfl fun k _ => by rw [hr k, EReal.coe_mul],
      Cert.LibSums.sum_coe, div_count]

/-- The reciprocal square root of a non-negative real plus ε is a real. -/
theorem rstd_real (v : ℝ) (hv : 0 ≤ v) :
    ∃ r : ℝ, Ideal.rsqrt ((v : EReal) + Ideal.ofBits .f32 0x3727C5AC#32) = (r : EReal) := by
  obtain ⟨e, he, hE⟩ := ofBits_eps
  have hpos : 0 < v + e := by linarith
  refine ⟨(Real.sqrt (v + e))⁻¹, ?_⟩
  rw [hE, ← EReal.coe_add, Ideal.rsqrt_coe, if_neg (not_lt.2 hpos.le), if_neg hpos.ne']

/-! ## The normalisation folded -/

/-- The normalisation of a real entry is the entry times the scale plus the shift. -/
theorem norm_fold (x m r γ β : ℝ) :
    (((x : EReal) - (m : EReal)) * (r : EReal)) * (γ : EReal) + (β : EReal)
      = (x : EReal) * ((γ : EReal) * (r : EReal)) + ((β : EReal) - ((m : EReal) * (γ : EReal)) * (r : EReal)) := by
  rw [← EReal.coe_sub, ← EReal.coe_mul, ← EReal.coe_mul, ← EReal.coe_add, ← EReal.coe_mul, ← EReal.coe_mul, ← EReal.coe_mul,
    ← EReal.coe_mul, ← EReal.coe_sub, ← EReal.coe_add]
  congr 1; ring

/-- In the difference of two normalised entries of one column the shift cancels. -/
theorem diff_fold (xi xj m r γ β : ℝ) :
    ((((xj : EReal) - (m : EReal)) * (r : EReal)) * (γ : EReal) + (β : EReal))
        - ((((xi : EReal) - (m : EReal)) * (r : EReal)) * (γ : EReal) + (β : EReal))
      = ((xj : EReal) - (xi : EReal)) * ((γ : EReal) * (r : EReal)) := by
  simp only [← EReal.coe_sub, ← EReal.coe_mul, ← EReal.coe_add]
  congr 1; ring

end Cert.RefEncFacts

end
-- ==== Proof.RefEnc.lean ====
/-
  The reference's encoder messages are the kernel's.
  The reference normalises the whole feature table, `((x − mean) · rstd) · γ + β` per feature, gathers the target and the
  source row of every edge from the NORMALISED table, joins the target row and the difference of the two rows into one
  row of eight, and multiplies by the whole first weight. The kernel gathers the RAW rows and applies the normalisation
  folded into a scale `γ · rstd` and a shift `β − (mean · γ) · rstd`, and multiplies the target row and the scaled
  difference by the two halves of the weight. Where the features, γ and β are real numbers the mean and the reciprocal
  standard deviation are real too, so per entry both are the same real expression: `x · (γ r) + (β − (m γ) r) = ((x − m) r) γ + β`,
  and in the difference of two normalised rows the shift cancels, `(xj − xi) · (γ r)`. A sum over the eight joined
  columns is the sum over the first four plus the sum over the last four. The kernel's row-take differs from a bare
  gather only where a node number falls outside the table, which the precondition excludes.
-/
import proofs.«417863_j7456063226141_3_alg».proof.Proof.ReadP
import proofs.«417863_j7456063226141_3_alg».proof.Proof.KTerms
import proofs.«417863_j7456063226141_3_alg».proof.Proof.Spec
import proofs.«417863_j7456063226141_3_alg».proof.Proof.LibRows
import proofs.«417863_j7456063226141_3_alg».proof.Proof.LibSums
import proofs.«417863_j7456063226141_3_alg».proof.Proof.TakeFacts
import proofs.«417863_j7456063226141_3_alg».proof.Proof.RefEncFacts
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.RefEnc

open Idealize.ShloMosaic Idealize.ShloMosaic.ValueIdx
open Cert.KernelIdeal.KTerms Cert.Vae

variable (x : FVec Ideal Cert.KernelIdeal.S100000x4 .f32) (eps : FVec Ideal Cert.KernelIdeal.S100000x2 .f32) (g b : FVec Ideal Cert.KernelIdeal.S4 .f32) (w1 : FVec Ideal Cert.KernelIdeal.S32x8 .f32) (b1 : FVec Ideal Cert.KernelIdeal.S32 .f32)
    (w2 : FVec Ideal Cert.KernelIdeal.S32x32 .f32) (b2 : FVec Ideal Cert.KernelIdeal.S32 .f32) (wm : FVec Ideal Cert.KernelIdeal.S2x32 .f32) (bm : FVec Ideal Cert.KernelIdeal.S2 .f32) (wv : FVec Ideal Cert.KernelIdeal.S2x32 .f32) (bv : FVec Ideal Cert.KernelIdeal.S2 .f32)
    (d1 : FVec Ideal Cert.KernelIdeal.S32x4 .f32) (c1 : FVec Ideal Cert.KernelIdeal.S32 .f32) (d2 : FVec Ideal Cert.KernelIdeal.S32x32 .f32) (c2 : FVec Ideal Cert.KernelIdeal.S32 .f32) (d3 : FVec Ideal Cert.KernelIdeal.S4x32 .f32) (c3 : FVec Ideal Cert.KernelIdeal.S4 .f32)
    (ei : IVec Cert.KernelIdeal.S2x3200000 32)

open Cert.ReferenceIdeal.Read Cert.LibRows Cert.RefEncFacts

/-! ## The kernel's folded weights, read at an index -/

/-- The scale at feature `j` is γ · rstd. -/
theorem scaleK_apply (j : Fin 4) : scaleK x g (ix2 r0 j) = g (ix1 j) * rstdK x (ix1 j) := by
  unfold scaleK
  exact shapeCast_a_1a_apply _ _ r0 j

/-- The shift at feature `j` is β − (mean · γ) · rstd. -/
theorem shiftK_apply (j : Fin 4) :
    shiftK x g b (ix2 r0 j) = b (ix1 j) - (meanK x (ix1 j) * g (ix1 j)) * rstdK x (ix1 j) := by
  unfold shiftK
  exact shapeCast_a_1a_apply _ _ r0 j

/-- The first half of the first weight, transposed: entry `(j, k)` is `W1[k, j]`. -/
theorem w1iK_apply (j : Fin 4) (k : Fin 32) :
    w1iK w1 (ix2 j k) = w1 (ix2 k (⟨j.val, by have := j.isLt; omega⟩ : Fin 8)) := by
  unfold w1iK
  rw [transpose_ix2_apply]
  exact slice2_axis1_apply 0 w1 _ k j _ (Nat.zero_add _).symm

/-- The second half of the first weight, transposed: entry `(j, k)` is `W1[k, 4 + j]`. -/
theorem w1jK_apply (j : Fin 4) (k : Fin 32) :
    w1jK w1 (ix2 j k) = w1 (ix2 k (⟨4 + j.val, by have := j.isLt; omega⟩ : Fin 8)) := by
  unfold w1jK
  rw [transpose_ix2_apply]
  exact slice2_axis1_apply 4 w1 _ k j _ rfl

/-- A bias as a one-row array. -/
theorem row32K_apply (v : FVec Ideal Cert.KernelIdeal.S32 .f32) (k : Fin 32) : row32K v (ix2 r0 k) = v (ix1 k) := by
  unfold row32K
  exact shapeCast_a_1a_apply _ _ r0 k

/-- The second weight transposed: entry `(k, q)` is `W2[q, k]`. -/
theorem tr32K_apply (k q : Fin 32) : tr32K w2 (ix2 k q) = w2 (ix2 q k) := by
  unfold tr32K
  exact transpose_ix2_apply _ _ k q

/-! ## The kernel's names for the statistics and the index columns are the reference's stages -/

/-- The kernel's per-feature mean is the reference's. -/
theorem meanK_eq : meanK x = val_main_v6 (F := Ideal) x := by
  unfold meanK val_main_v6 val_main_v5 val_main_v4 val_main_cst val_main_cst_0
  rfl

/-- The kernel's reciprocal standard deviation is the reference's. -/
theorem rstdK_eq : rstdK x = val_main_v19 (F := Ideal) x := by
  unfold rstdK cenK meanK val_main_v19 val_main_v18 val_main_v17 val_main_cst_3 val_main_v13 val_main_v12 val_main_cst_2
    val_main_v11 val_main_cst_1 val_main_v10 val_main_v9 val_main_v8 val_main_v7 val_main_v6 val_main_v5 val_main_v4
    val_main_cst val_main_cst_0
  rfl

/-- The wrapped column of targets is the reference's. -/
theorem dstCol_eq : wrapColK (dstK ei) = val_main_v34 (F := Ideal) ei := by
  unfold wrapColK dstK val_main_v34 val_main_v33 val_main_v32 val_main_v31 val_main_c_4 val_main_v30 val_main_v29 val_main_c
    val_main_v3 val_main_v2
  rfl

/-- The wrapped column of sources is the reference's. -/
theorem srcCol_eq : wrapColK (srcK ei) = val_main_v41 (F := Ideal) ei := by
  unfold wrapColK srcK val_main_v41 val_main_v40 val_main_v39 val_main_v38 val_main_c_6 val_main_v37 val_main_v36 val_main_c_5
    val_main_v1 val_main_v0
  rfl

/-! ## The reference's stages read at an index -/

/-- The broadcast zero of the first `max`. -/
theorem call0_zero (i : Cert.ReferenceIdeal.S3200000x32.Idx) : val_main_call0_v0 (F := Ideal) i = 0 := by
  rw [val_main_call0_v0_apply, val_main_call0_cst_apply]
  exact Ideal.ofBits_zero_f32

/-- The broadcast zero of the second `max`. -/
theorem call1_zero (i : Cert.ReferenceIdeal.S3200000x32.Idx) : val_main_call1_v0 (F := Ideal) i = 0 := by
  rw [val_main_call1_v0_apply, val_main_call1_cst_apply]
  exact Ideal.ofBits_zero_f32

/-- The first weight transposed: entry `(c, k)` is `W1[k, c]`. -/
theorem v45_ix2 (c : Fin 8) (k : Fin 32) : val_main_v45 (F := Ideal) w1 (ix2 c k) = w1 (ix2 k c) := by
  rw [val_main_v45_apply]
  exact congrArg w1 (funext fun a => match a with | ⟨0, _⟩ => rfl | ⟨1, _⟩ => rfl)

/-- The first bias broadcast over the edges. -/
theorem v48_ix2 (e : Fin 3200000) (k : Fin 32) : val_main_v48 (F := Ideal) b1 (ix2 e k) = b1 (ix1 k) := by
  rw [val_main_v48_apply, val_main_v47_apply]
  exact congrArg b1 (funext fun a => match a with | ⟨0, _⟩ => rfl)

/-- The second weight transposed: entry `(k, q)` is `W2[q, k]`. -/
theorem v51_ix2 (k q : Fin 32) : val_main_v51 (F := Ideal) w2 (ix2 k q) = w2 (ix2 q k) := by
  rw [val_main_v51_apply]
  exact congrArg w2 (funext fun a => match a with | ⟨0, _⟩ => rfl | ⟨1, _⟩ => rfl)

/-- The second bias broadcast over the edges. -/
theorem v54_ix2 (e : Fin 3200000) (q : Fin 32) : val_main_v54 (F := Ideal) b2 (ix2 e q) = b2 (ix1 q) := by
  rw [val_main_v54_apply, val_main_v53_apply]
  exact congrArg b2 (funext fun a => match a with | ⟨0, _⟩ => rfl)

/-- The first product at edge `e` and unit `k`: the sum over the eight joined columns. -/
theorem v46_ix2 (e : Fin 3200000) (k : Fin 32) :
    val_main_v46 (F := Ideal) x g b w1 ei (ix2 e k)
      = ∑ c : Fin 8, val_main_v44 (F := Ideal) x g b ei (ix2 e c) * val_main_v45 (F := Ideal) w1 (ix2 c k) := by
  rw [val_main_v46_apply]
  refine Finset.sum_congr rfl fun c _ => ?_
  have el : lidx_main_v46 (ix2 e k) c = ix2 e c := funext fun a => match a with | ⟨0, _⟩ => rfl | ⟨1, _⟩ => rfl
  have er : ridx_main_v46 (ix2 e k) c = ix2 c k := funext fun a => match a with | ⟨0, _⟩ => rfl | ⟨1, _⟩ => rfl
  rw [el, er]

/-- The second product at edge `e` and unit `q`: the sum over the 32 hidden units. -/
theorem v52_ix2 (e : Fin 3200000) (q : Fin 32) :
    val_main_v52 (F := Ideal) x g b w1 b1 w2 ei (ix2 e q)
      = ∑ k : Fin 32, val_main_v50 (F := Ideal) x g b w1 b1 ei (ix2 e k) * val_main_v51 (F := Ideal) w2 (ix2 k q) := by
  rw [val_main_v52_apply]
  refine Finset.sum_congr rfl fun k _ => ?_
  have el : lidx_main_v52 (ix2 e q) k = ix2 e k := funext fun a => match a with | ⟨0, _⟩ => rfl | ⟨1, _⟩ => rfl
  have er : ridx_main_v52 (ix2 e q) k = ix2 k q := funext fun a => match a with | ⟨0, _⟩ => rfl | ⟨1, _⟩ => rfl
  rw [el, er]

/-- The normalised table at node `n` and feature `j`. -/
theorem v28_ix2 (n : Fin 100000) (j : Fin 4) :
    val_main_v28 (F := Ideal) x g b (ix2 n j)
      = ((x (ix2 n j) - val_main_v6 (F := Ideal) x (ix1 j)) * val_main_v19 (F := Ideal) x (ix1 j)) * g (ix1 j) + b (ix1 j) := by
  have e1 : idx_main_v14 (idx_main_v15 (ix2 n j)) = ix1 j := funext fun a => match a with | ⟨0, _⟩ => rfl
  have e2 : idx_main_v20 (idx_main_v21 (ix2 n j)) = ix1 j := funext fun a => match a with | ⟨0, _⟩ => rfl
  have e3 : idx_main_v23 (idx_main_v24 (ix2 n j)) = ix1 j := funext fun a => match a with | ⟨0, _⟩ => rfl
  have e4 : idx_main_v26 (idx_main_v27 (ix2 n j)) = ix1 j := funext fun a => match a with | ⟨0, _⟩ => rfl
  rw [val_main_v28_apply, val_main_v25_apply, val_main_v22_apply, val_main_v16_apply, val_main_v15_apply, val_main_v14_apply,
    val_main_v21_apply, val_main_v20_apply, val_main_v24_apply, val_main_v23_apply, val_main_v27_apply, val_main_v26_apply,
    e1, e2, e3, e4]
  rfl

/-! ## The statistics of real features are real -/

/-- The per-feature mean of real features is a real. -/
theorem v6_real (hx : ∀ i, ∃ r : ℝ, x i = (r : EReal)) (i : Cert.ReferenceIdeal.S4.Idx) :
    ∃ m : ℝ, val_main_v6 (F := Ideal) x i = (m : EReal) := by
  rw [val_main_v6_apply, val_main_v4_apply, val_main_v5_apply, val_main_cst_apply, val_main_cst_0_apply]
  exact mean_real _ fun k => hx _

/-- The centred real features are real. -/
theorem v9_real (hx : ∀ i, ∃ r : ℝ, x i = (r : EReal)) (i : Cert.ReferenceIdeal.S100000x4.Idx) :
    ∃ c : ℝ, val_main_v9 (F := Ideal) x i = (c : EReal) := by
  obtain ⟨a, ha⟩ := hx i
  obtain ⟨m, hm⟩ := v6_real x hx (idx_main_v7 (idx_main_v8 i))
  refine ⟨a - m, ?_⟩
  rw [val_main_v9_apply, val_main_v8_apply, val_main_v7_apply, hm, ha, EReal.coe_sub]
  rfl

/-- The per-feature reciprocal standard deviation of real features is a real. -/
theorem v19_real (hx : ∀ i, ∃ r : ℝ, x i = (r : EReal)) (i : Cert.ReferenceIdeal.S4.Idx) :
    ∃ r : ℝ, val_main_v19 (F := Ideal) x i = (r : EReal) := by
  obtain ⟨v, hv, hV⟩ := meansq_real (fun k : Fin 100000 => val_main_v9 (F := Ideal) x (idx_main_v11 i k))
    fun k => v9_real x hx _
  obtain ⟨r, hr⟩ := rstd_real v hv
  refine ⟨r, ?_⟩
  rw [val_main_v19_apply, val_main_v18_apply, val_main_v13_apply, val_main_v11_apply, val_main_v12_apply, val_main_v17_apply,
    val_main_cst_1_apply, val_main_cst_2_apply, val_main_cst_3_apply]
  simp only [val_main_v10_apply]
  exact (congrArg (fun t => Ideal.rsqrt (t + Ideal.ofBits .f32 0x3727C5AC#32)) hV).trans hr

/-! ## The gathers and the joined row -/

/-- The node whose row the reference's and the kernel's target gather read at edge `e`. -/
abbrev dstRow (e : Fin 3200000) : Fin 100000 := gatherRow (by decide) (val_main_v34 (F := Ideal) ei) e

/-- The node whose row the reference's and the kernel's source gather read at edge `e`. -/
abbrev srcRow (e : Fin 3200000) : Fin 100000 := gatherRow (by decide) (val_main_v41 (F := Ideal) ei) e

/-- The reference's target gather reads the normalised table's row. -/
theorem v35_ix2 (e : Fin 3200000) (j : Fin 4) :
    val_main_v35 (F := Ideal) x g b ei (ix2 e j) = val_main_v28 (F := Ideal) x g b (ix2 (dstRow ei e) j) := by
  unfold val_main_v35
  exact gather_rows_apply (by decide) _ rfl rfl rfl rfl rfl _ _ e j

/-- The reference's source gather reads the normalised table's row. -/
theorem v42_ix2 (e : Fin 3200000) (j : Fin 4) :
    val_main_v42 (F := Ideal) x g b ei (ix2 e j) = val_main_v28 (F := Ideal) x g b (ix2 (srcRow ei e) j) := by
  unfold val_main_v42
  exact gather_rows_apply (by decide) _ rfl rfl rfl rfl rfl _ _ e j

/-- The kernel's target take reads the raw table's same row. -/
theorem take_dst (hg : Good x g b ei) (e : Fin 3200000) (j : Fin 4) :
    take4K x (dstK ei) (ix2 e j) = x (ix2 (dstRow ei e) j) := by
  rw [Cert.TakeFacts.take4K_eq x (dstK ei) fun i => Cert.TakeFacts.dstK_range ei hg.idx_lo hg.idx_hi i, dstCol_eq]
  exact gather_rows_apply (by decide) _ rfl rfl rfl rfl rfl _ _ e j

/-- The kernel's source take reads the raw table's same row. -/
theorem take_src (hg : Good x g b ei) (e : Fin 3200000) (j : Fin 4) :
    take4K x (srcK ei) (ix2 e j) = x (ix2 (srcRow ei e) j) := by
  rw [Cert.TakeFacts.take4K_eq x (srcK ei) fun i => Cert.TakeFacts.srcK_range ei hg.idx_lo hg.idx_hi i, srcCol_eq]
  exact gather_rows_apply (by decide) _ rfl rfl rfl rfl rfl _ _ e j

/-- The first four joined columns are the target's normalised row. -/
theorem v44_left (e : Fin 3200000) (j : Fin 4) :
    val_main_v44 (F := Ideal) x g b ei (ix2 e (⟨j.val, by have := j.isLt; omega⟩ : Fin 8))
      = val_main_v35 (F := Ideal) x g b ei (ix2 e j) := by
  unfold val_main_v44
  exact concatenate_pair_apply_left (t := Cert.ReferenceIdeal.S3200000x8) 1 (val_main_v35 (F := Ideal) x g b ei)
    (val_main_v43 (F := Ideal) x g b ei) _ (ix2 e (⟨j.val, by have := j.isLt; omega⟩ : Fin 8)) rfl (ix2 e j)
    fun c => match c with | ⟨0, _⟩ => rfl | ⟨1, _⟩ => rfl

/-- The last four joined columns are the difference of the two normalised rows. -/
theorem v44_right (e : Fin 3200000) (j : Fin 4) :
    val_main_v44 (F := Ideal) x g b ei (ix2 e (⟨4 + j.val, by have := j.isLt; omega⟩ : Fin 8))
      = val_main_v43 (F := Ideal) x g b ei (ix2 e j) := by
  unfold val_main_v44
  exact concatenate_pair_apply_right (t := Cert.ReferenceIdeal.S3200000x8) 1 (val_main_v35 (F := Ideal) x g b ei)
    (val_main_v43 (F := Ideal) x g b ei) _ (ix2 e (⟨4 + j.val, by have := j.isLt; omega⟩ : Fin 8)) rfl rfl (ix2 e j)
    (fun c hc => match c, hc with | ⟨0, _⟩, _ => rfl | ⟨1, _⟩, hc => absurd rfl hc)
    (show j.val + 4 = 4 + j.val from Nat.add_comm _ _)

/-! ## One joined column: the reference's entry is the kernel's -/

/-- A target entry: the normalised entry is the raw entry times the scale plus the shift. -/
theorem entry_left (hg : Good x g b ei) (e : Fin 3200000) (j : Fin 4) :
    val_main_v35 (F := Ideal) x g b ei (ix2 e j)
      = take4K x (dstK ei) (ix2 e j) * scaleK x g (ix2 r0 j) + shiftK x g b (ix2 r0 j) := by
  obtain ⟨a, ha⟩ := hg.x_real (ix2 (dstRow ei e) j)
  obtain ⟨m, hm⟩ := v6_real x hg.x_real (ix1 j)
  obtain ⟨r, hr⟩ := v19_real x hg.x_real (ix1 j)
  obtain ⟨γ, hγ⟩ := hg.g_real (ix1 j)
  obtain ⟨β, hβ⟩ := hg.b_real (ix1 j)
  rw [v35_ix2, v28_ix2, take_dst x g b ei hg, scaleK_apply, shiftK_apply, meanK_eq, rstdK_eq, ha, hm, hr, hγ, hβ]
  exact norm_fold a m r γ β

/-- A difference entry: the shift cancels and the scale factors out. -/
theorem entry_right (hg : Good x g b ei) (e : Fin 3200000) (j : Fin 4) :
    val_main_v43 (F := Ideal) x g b ei (ix2 e j)
      = (take4K x (srcK ei) (ix2 e j) - take4K x (dstK ei) (ix2 e j)) * scaleK x g (ix2 r0 j) := by
  obtain ⟨ai, hai⟩ := hg.x_real (ix2 (dstRow ei e) j)
  obtain ⟨aj, haj⟩ := hg.x_real (ix2 (srcRow ei e) j)
  obtain ⟨m, hm⟩ := v6_real x hg.x_real (ix1 j)
  obtain ⟨r, hr⟩ := v19_real x hg.x_real (ix1 j)
  obtain ⟨γ, hγ⟩ := hg.g_real (ix1 j)
  obtain ⟨β, hβ⟩ := hg.b_real (ix1 j)
  rw [val_main_v43_apply, v42_ix2, v35_ix2, v28_ix2, v28_ix2, take_dst x g b ei hg, take_src x g b ei hg, scaleK_apply, rstdK_eq,
    hai, haj, hm, hr, hγ, hβ]
  exact diff_fold ai aj m r γ β

/-! ## The two layers -/

/-- A sum over eight columns is the sum over the first four plus the sum over the last four. -/
theorem sum_four_four (f : Fin 8 → EReal) :
    ∑ c : Fin 8, f c
      = (∑ j : Fin 4, f (⟨j.val, by have := j.isLt; omega⟩ : Fin 8))
        + ∑ j : Fin 4, f (⟨4 + j.val, by have := j.isLt; omega⟩ : Fin 8) :=
  Fin.sum_univ_add (a := 4) (b := 4) f

/-- The reference's hidden unit `k` of edge `e` is the kernel's. -/
theorem hid_eq (hg : Good x g b ei) (e : Fin 3200000) (k : Fin 32) :
    val_main_v50 (F := Ideal) x g b w1 b1 ei (ix2 e k)
      = encHid (take4K x (dstK ei)) (take4K x (srcK ei)) (scaleK x g) (shiftK x g b) (w1iK w1) (w1jK w1) (row32K b1) e k := by
  unfold encHid
  rw [val_main_v50_apply, val_main_v49_apply, call0_zero, v48_ix2, v46_ix2, sum_four_four, row32K_apply]
  simp only [v44_left, v44_right, v45_ix2, entry_left x g b ei hg, entry_right x g b ei hg, w1iK_apply, w1jK_apply]
  rfl

/-- The reference's message array `relu (relu (concat(xi, xj − xi) · W1ᵀ + b1) · W2ᵀ + b2)` is the kernel's. -/
theorem enc_eq (hg : Good x g b ei) :
    Cert.ReferenceIdeal.Read.val_main_v56 (F := Ideal) x g b w1 b1 w2 b2 ei
      = encK x g b w1 b1 w2 b2 ei := by
  funext i
  obtain ⟨e, q, rfl⟩ : ∃ (e : Fin 3200000) (q : Fin 32), i = ix2 e q := ⟨i 0, i 1, eq_ix2 i⟩
  unfold encK encMsg
  show val_main_v56 (F := Ideal) x g b w1 b1 w2 b2 ei (ix2 e q)
    = max ((∑ k : Fin 32, encHid (take4K x (dstK ei)) (take4K x (srcK ei)) (scaleK x g) (shiftK x g b) (w1iK w1) (w1jK w1)
        (row32K b1) e k * tr32K w2 (ix2 k q)) + row32K b2 (ix2 r0 q)) 0
  rw [val_main_v56_apply, val_main_v55_apply, call1_zero, v54_ix2, v52_ix2, row32K_apply]
  simp only [hid_eq x g b w1 b1 ei hg, v51_ix2, tr32K_apply]
  rfl

end Cert.RefEnc

end
-- ==== Proof.RefNode.lean ====
/-
  The reference's node stage is the kernel's: `h · Wᵀ + b` as a `dot_general` against the transposed weight plus the
  broadcast bias is, entry by entry, `Σ_k h_k · Wᵀ_kq + b_q`; the latent is the mean head plus the noise times
  `exp (½ · log-variance head)`.
-/
import proofs.«417863_j7456063226141_3_alg».proof.Proof.ReadP
import proofs.«417863_j7456063226141_3_alg».proof.Proof.KTerms
import proofs.«417863_j7456063226141_3_alg».proof.Proof.Spec
import proofs.«417863_j7456063226141_3_alg».proof.Proof.LibRows
import proofs.«417863_j7456063226141_3_alg».proof.Proof.LibSums
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.RefNode

open Idealize.ShloMosaic Idealize.ShloMosaic.ValueIdx
open Cert.KernelIdeal.KTerms Cert.Vae

variable (x : FVec Ideal Cert.KernelIdeal.S100000x4 .f32) (eps : FVec Ideal Cert.KernelIdeal.S100000x2 .f32) (g b : FVec Ideal Cert.KernelIdeal.S4 .f32) (w1 : FVec Ideal Cert.KernelIdeal.S32x8 .f32) (b1 : FVec Ideal Cert.KernelIdeal.S32 .f32)
    (w2 : FVec Ideal Cert.KernelIdeal.S32x32 .f32) (b2 : FVec Ideal Cert.KernelIdeal.S32 .f32) (wm : FVec Ideal Cert.KernelIdeal.S2x32 .f32) (bm : FVec Ideal Cert.KernelIdeal.S2 .f32) (wv : FVec Ideal Cert.KernelIdeal.S2x32 .f32) (bv : FVec Ideal Cert.KernelIdeal.S2 .f32)
    (d1 : FVec Ideal Cert.KernelIdeal.S32x4 .f32) (c1 : FVec Ideal Cert.KernelIdeal.S32 .f32) (d2 : FVec Ideal Cert.KernelIdeal.S32x32 .f32) (c2 : FVec Ideal Cert.KernelIdeal.S32 .f32) (d3 : FVec Ideal Cert.KernelIdeal.S4x32 .f32) (c3 : FVec Ideal Cert.KernelIdeal.S4 .f32)
    (ei : IVec Cert.KernelIdeal.S2x3200000 32)

/-- `h · Wᵀ` at an entry: the contraction over the 32 aggregated features. -/
theorem dot_head_apply (h : FVec Ideal Cert.ReferenceIdeal.S100000x32 .f32) (wt : FVec Ideal Cert.ReferenceIdeal.S32x2 .f32)
    (e : Fin 100000) (q : Fin 2) :
    Host.dotGeneral Cert.ReferenceIdeal.dot_S100000x32_S32x2_S100000x2_1_0_0_1_n_n none h wt (ix2 e q)
      = ∑ k : Fin 32, h (ix2 e k) * wt (ix2 k q) := by
  simp only [Host.dotGeneral]
  rw [Ideal.dotGeneral_apply,
    ← Equiv.sum_comp (contrEquiv1 Cert.ReferenceIdeal.dot_S100000x32_S32x2_S100000x2_1_0_0_1_n_n 32 rfl rfl).symm]
  refine Finset.sum_congr rfl fun k _ => ?_
  have hk := contrEquiv1_symm_val Cert.ReferenceIdeal.dot_S100000x32_S32x2_S100000x2_1_0_0_1_n_n 32 rfl rfl k
  have el : Cert.ReferenceIdeal.dot_S100000x32_S32x2_S100000x2_1_0_0_1_n_n.lhsIdx (ix2 e q)
      ((contrEquiv1 Cert.ReferenceIdeal.dot_S100000x32_S32x2_S100000x2_1_0_0_1_n_n 32 rfl rfl).symm k) = ix2 e k :=
    funext fun a => Fin.ext (by
      match a with
      | ⟨0, _⟩ => exact Cert.ReferenceIdeal.Read.lhs_main_v70_0 _ _
      | ⟨1, _⟩ => exact (Cert.ReferenceIdeal.Read.lhs_main_v70_1 _ _).trans hk)
  have er : Cert.ReferenceIdeal.dot_S100000x32_S32x2_S100000x2_1_0_0_1_n_n.rhsIdx (ix2 e q)
      ((contrEquiv1 Cert.ReferenceIdeal.dot_S100000x32_S32x2_S100000x2_1_0_0_1_n_n 32 rfl rfl).symm k) = ix2 k q :=
    funext fun a => Fin.ext (by
      match a with
      | ⟨0, _⟩ => exact (Cert.ReferenceIdeal.Read.rhs_main_v70_0 _ _).trans hk
      | ⟨1, _⟩ => exact Cert.ReferenceIdeal.Read.rhs_main_v70_1 _ _)
  rw [el, er]

/-- A bias vector broadcast to one row and then down the rows reads, at `(e, q)`, what the vector kept as a one-row
    array reads at `(0, q)`: entry `q`. -/
theorem bias_apply (bb : FVec Ideal Cert.KernelIdeal.S2 .f32) (e : Fin 100000) (q : Fin 2) :
    Cert.ReferenceIdeal.Read.val_main_v72 (F := Ideal) bb (ix2 e q) = row2K bb (ix2 r0 q) := by
  rw [Cert.ReferenceIdeal.Read.val_main_v72_apply, Cert.ReferenceIdeal.Read.val_main_v71_apply]
  unfold row2K
  rw [shapeCast_a_1a_apply]
  exact congrArg bb (funext fun a => match a with | ⟨0, _⟩ => rfl)

/-- A `dot_general` of any `h : [100000, 32]` against a transposed head weight plus the broadcast bias is the linear
    head `Σ_k h_k · Wᵀ_kq + b_q`. -/
theorem head_eq (h : FVec Ideal Cert.ReferenceIdeal.S100000x32 .f32) (w : FVec Ideal Cert.KernelIdeal.S2x32 .f32)
    (bb : FVec Ideal Cert.KernelIdeal.S2 .f32) :
    addf (Host.dotGeneral (φ₁ := .f32) (φ₂ := .f32) Cert.ReferenceIdeal.dot_S100000x32_S32x2_S100000x2_1_0_0_1_n_n none h
        (Cert.ReferenceIdeal.Read.val_main_v69 (F := Ideal) w : FVec Ideal Cert.ReferenceIdeal.S32x2 .f32))
        (Cert.ReferenceIdeal.Read.val_main_v72 (F := Ideal) bb : FVec Ideal Cert.ReferenceIdeal.S100000x2 .f32)
      = nodeLin h (trHeadK w) (row2K bb) := by
  funext i
  obtain ⟨e, q, rfl⟩ : ∃ e q, i = ix2 e q := ⟨i 0, i 1, eq_ix2 i⟩
  show Host.dotGeneral (φ₁ := .f32) (φ₂ := .f32) Cert.ReferenceIdeal.dot_S100000x32_S32x2_S100000x2_1_0_0_1_n_n none h
        (Cert.ReferenceIdeal.Read.val_main_v69 (F := Ideal) w : FVec Ideal Cert.ReferenceIdeal.S32x2 .f32) (ix2 e q)
      + Cert.ReferenceIdeal.Read.val_main_v72 (F := Ideal) bb (ix2 e q)
    = (∑ k : Fin 32, h (ix2 e k) * trHeadK w (ix2 k q)) + row2K bb (ix2 r0 q)
  rw [dot_head_apply, bias_apply]
  rfl

/-- The mean head. -/
theorem mu_eq :
    Cert.ReferenceIdeal.Read.val_main_v73 (F := Ideal) x g b w1 b1 w2 b2 wm bm ei
      = nodeLin (Cert.ReferenceIdeal.Read.val_main_v68 (F := Ideal) x g b w1 b1 w2 b2 ei) (trHeadK wm) (row2K bm) := by
  unfold Cert.ReferenceIdeal.Read.val_main_v73 Cert.ReferenceIdeal.Read.val_main_v70
  generalize Cert.ReferenceIdeal.Read.val_main_v68 (F := Ideal) x g b w1 b1 w2 b2 ei = h
  exact head_eq h wm bm

/-- The log-variance head. -/
theorem lv_eq :
    Cert.ReferenceIdeal.Read.val_main_v78 (F := Ideal) x g b w1 b1 w2 b2 wv bv ei
      = nodeLin (Cert.ReferenceIdeal.Read.val_main_v68 (F := Ideal) x g b w1 b1 w2 b2 ei) (trHeadK wv) (row2K bv) := by
  unfold Cert.ReferenceIdeal.Read.val_main_v78 Cert.ReferenceIdeal.Read.val_main_v75
  generalize Cert.ReferenceIdeal.Read.val_main_v68 (F := Ideal) x g b w1 b1 w2 b2 ei = h
  exact head_eq h wv bv

/-- The reparameterised latent. -/
theorem z_eq :
    Cert.ReferenceIdeal.Read.val_main_v83 (F := Ideal) x eps g b w1 b1 w2 b2 wm bm wv bv ei
      = nodeZ (Cert.ReferenceIdeal.Read.val_main_v68 (F := Ideal) x g b w1 b1 w2 b2 ei) eps (trHeadK wm) (row2K bm) (trHeadK wv) (row2K bv) := by
  funext i
  rw [Cert.ReferenceIdeal.Read.val_main_v83_apply, Cert.ReferenceIdeal.Read.val_main_v82_apply,
    Cert.ReferenceIdeal.Read.val_main_v81_apply, Cert.ReferenceIdeal.Read.val_main_v80_apply,
    Cert.ReferenceIdeal.Read.val_main_v79_apply, Cert.ReferenceIdeal.Read.val_main_cst_11_apply, mu_eq, lv_eq]
  -- the aggregated features and the two heads' values enter only as atoms
  generalize Cert.ReferenceIdeal.Read.val_main_v68 (F := Ideal) x g b w1 b1 w2 b2 ei = h
  unfold nodeZ
  generalize nodeLin h (trHeadK wm) (row2K bm) i = mu
  generalize nodeLin h (trHeadK wv) (row2K bv) i = lv
  rfl

end Cert.RefNode

end
-- ==== Proof.RefDec.lean ====
/-
  The reference's decoder messages are the kernel's: the reference gathers the target and the source row of every edge
  from the latent table, joins the target row and the difference into one row of four and multiplies by the whole first
  weight; the kernel multiplies the target row and the difference by the two halves of the weight. A sum over the four
  joined columns is the sum over the first two plus the sum over the last two; the two further layers are the same
  operations. The kernel's row-take differs from a bare gather only where a node number falls outside the table, which
  the precondition excludes.
-/
import proofs.«417863_j7456063226141_3_alg».proof.Proof.ReadP
import proofs.«417863_j7456063226141_3_alg».proof.Proof.KTerms
import proofs.«417863_j7456063226141_3_alg».proof.Proof.Spec
import proofs.«417863_j7456063226141_3_alg».proof.Proof.LibRows
import proofs.«417863_j7456063226141_3_alg».proof.Proof.LibSums
import proofs.«417863_j7456063226141_3_alg».proof.Proof.TakeFacts
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.RefDec

open Idealize.ShloMosaic Idealize.ShloMosaic.ValueIdx
open Cert.KernelIdeal.KTerms Cert.Vae

variable (x : FVec Ideal Cert.KernelIdeal.S100000x4 .f32) (eps : FVec Ideal Cert.KernelIdeal.S100000x2 .f32) (g b : FVec Ideal Cert.KernelIdeal.S4 .f32) (w1 : FVec Ideal Cert.KernelIdeal.S32x8 .f32) (b1 : FVec Ideal Cert.KernelIdeal.S32 .f32)
    (w2 : FVec Ideal Cert.KernelIdeal.S32x32 .f32) (b2 : FVec Ideal Cert.KernelIdeal.S32 .f32) (wm : FVec Ideal Cert.KernelIdeal.S2x32 .f32) (bm : FVec Ideal Cert.KernelIdeal.S2 .f32) (wv : FVec Ideal Cert.KernelIdeal.S2x32 .f32) (bv : FVec Ideal Cert.KernelIdeal.S2 .f32)
    (d1 : FVec Ideal Cert.KernelIdeal.S32x4 .f32) (c1 : FVec Ideal Cert.KernelIdeal.S32 .f32) (d2 : FVec Ideal Cert.KernelIdeal.S32x32 .f32) (c2 : FVec Ideal Cert.KernelIdeal.S32 .f32) (d3 : FVec Ideal Cert.KernelIdeal.S4x32 .f32) (c3 : FVec Ideal Cert.KernelIdeal.S4 .f32)
    (ei : IVec Cert.KernelIdeal.S2x3200000 32)

open Cert.ReferenceIdeal.Read

/-! ## The index columns and the two gathers -/

/-- The reference's index column of the target gather is the kernel's wrapped column of the targets. -/
theorem v89_eq : val_main_v89 (F := Ideal) ei = wrapColK (dstK ei) := by
  unfold val_main_v89 val_main_v88 val_main_v87 val_main_v86 val_main_c_13 val_main_v85 val_main_v84 val_main_c_12
    val_main_v3 val_main_v2 wrapColK dstK
  rfl

/-- The reference's index column of the source gather is the kernel's wrapped column of the sources. -/
theorem v96_eq : val_main_v96 (F := Ideal) ei = wrapColK (srcK ei) := by
  unfold val_main_v96 val_main_v95 val_main_v94 val_main_v93 val_main_c_15 val_main_v92 val_main_v91 val_main_c_14
    val_main_v1 val_main_v0 wrapColK srcK
  rfl

/-- Where every entry of the edge list is a node number, the reference's gathered target rows are the kernel's row-take. -/
theorem zi_eq (hg : Good x g b ei) :
    val_main_v90 (F := Ideal) x eps g b w1 b1 w2 b2 wm bm wv bv ei
      = take2K (val_main_v83 (F := Ideal) x eps g b w1 b1 w2 b2 wm bm wv bv ei) (dstK ei) := by
  unfold val_main_v90
  -- the latent table enters only as an atom
  generalize val_main_v83 (F := Ideal) x eps g b w1 b1 w2 b2 wm bm wv bv ei = z
  rw [Cert.TakeFacts.take2K_eq z _ (fun i => Cert.TakeFacts.dstK_range ei hg.idx_lo hg.idx_hi i), ← v89_eq]
  rfl

/-- The same for the source rows. -/
theorem zj_eq (hg : Good x g b ei) :
    val_main_v97 (F := Ideal) x eps g b w1 b1 w2 b2 wm bm wv bv ei
      = take2K (val_main_v83 (F := Ideal) x eps g b w1 b1 w2 b2 wm bm wv bv ei) (srcK ei) := by
  unfold val_main_v97
  generalize val_main_v83 (F := Ideal) x eps g b w1 b1 w2 b2 wm bm wv bv ei = z
  rw [Cert.TakeFacts.take2K_eq z _ (fun i => Cert.TakeFacts.srcK_range ei hg.idx_lo hg.idx_hi i), ← v96_eq]
  rfl

/-! ## The joined row of an edge -/

/-- Columns 0 and 1 of the joined row are the target row. -/
theorem v99_left (e : Fin 3200000) (j : Fin 2) (c : Fin 4) (hc : c.val = j.val) :
    val_main_v99 (F := Ideal) x eps g b w1 b1 w2 b2 wm bm wv bv ei (ix2 e c) = val_main_v90 (F := Ideal) x eps g b w1 b1 w2 b2 wm bm wv bv ei (ix2 e j) := by
  unfold val_main_v99
  exact concatenate_pair_apply_left (t := Cert.ReferenceIdeal.S3200000x4) (s₁ := Cert.ReferenceIdeal.S3200000x2)
    (s₂ := Cert.ReferenceIdeal.S3200000x2) (1 : Fin 2) _ _ _ (ix2 e c) rfl (ix2 e j) (fun a => by
      match a with
      | ⟨0, _⟩ => rfl
      | ⟨1, _⟩ => exact hc.symm)

/-- Columns 2 and 3 of the joined row are the source row less the target row. -/
theorem v99_right (e : Fin 3200000) (j : Fin 2) (c : Fin 4) (hc : j.val + 2 = c.val) :
    val_main_v99 (F := Ideal) x eps g b w1 b1 w2 b2 wm bm wv bv ei (ix2 e c)
      = val_main_v97 (F := Ideal) x eps g b w1 b1 w2 b2 wm bm wv bv ei (ix2 e j) - val_main_v90 (F := Ideal) x eps g b w1 b1 w2 b2 wm bm wv bv ei (ix2 e j) := by
  unfold val_main_v99
  refine (concatenate_pair_apply_right (t := Cert.ReferenceIdeal.S3200000x4) (s₁ := Cert.ReferenceIdeal.S3200000x2)
    (s₂ := Cert.ReferenceIdeal.S3200000x2) (1 : Fin 2) _ _ _ (ix2 e c) rfl rfl (ix2 e j) (fun a ha => by
      match a with
      | ⟨0, _⟩ => rfl
      | ⟨1, _⟩ => exact absurd rfl ha) hc).trans ?_
  rw [val_main_v98_apply]
  exact Ideal.subf_def _ _

/-! ## The weights and the biases at an entry -/

/-- The first weight's first two input columns, transposed, are rows 0 and 1 of the whole weight transposed. -/
theorem w1i_apply (j : Fin 2) (l : Fin 32) (c : Fin 4) (hc : c.val = 0 + j.val) :
    dw1iK d1 (ix2 j l) = val_main_v100 (F := Ideal) d1 (ix2 c l) := by
  unfold dw1iK val_main_v100
  rw [transpose_ix2_apply, transpose_ix2_apply, slice2_axis1_apply 0 d1 _ l j c hc]

/-- The first weight's last two input columns, transposed, are rows 2 and 3 of the whole weight transposed. -/
theorem w1j_apply (j : Fin 2) (l : Fin 32) (c : Fin 4) (hc : c.val = 2 + j.val) :
    dw1jK d1 (ix2 j l) = val_main_v100 (F := Ideal) d1 (ix2 c l) := by
  unfold dw1jK val_main_v100
  rw [transpose_ix2_apply, transpose_ix2_apply, slice2_axis1_apply 2 d1 _ l j c hc]

/-- A 32-vector broadcast to one row and then down the edges reads, at `(e, k)`, the one-row array at `(0, k)`. -/
theorem bias1_apply (e : Fin 3200000) (k : Fin 32) :
    val_main_v103 (F := Ideal) c1 (ix2 e k) = row32K c1 (ix2 r0 k) := by
  rw [val_main_v103_apply, val_main_v102_apply]
  unfold row32K
  rw [shapeCast_a_1a_apply]
  exact congrArg c1 (funext fun a => match a with | ⟨0, _⟩ => rfl)

theorem bias2_apply (e : Fin 3200000) (k : Fin 32) :
    val_main_v109 (F := Ideal) c2 (ix2 e k) = row32K c2 (ix2 r0 k) := by
  rw [val_main_v109_apply, val_main_v108_apply]
  unfold row32K
  rw [shapeCast_a_1a_apply]
  exact congrArg c2 (funext fun a => match a with | ⟨0, _⟩ => rfl)

theorem bias3_apply (e : Fin 3200000) (q : Fin 4) :
    val_main_v115 (F := Ideal) c3 (ix2 e q) = row4K c3 (ix2 r0 q) := by
  rw [val_main_v115_apply, val_main_v114_apply]
  unfold row4K
  rw [shapeCast_a_1a_apply]
  exact congrArg c3 (funext fun a => match a with | ⟨0, _⟩ => rfl)

/-- The zero the reference's two `max` stages compare with. -/
theorem zero2_apply (i : Cert.ReferenceIdeal.S3200000x32.Idx) : val_main_call2_v0 (F := Ideal) i = 0 := by
  rw [val_main_call2_v0_apply, val_main_call2_cst_apply]
  exact Ideal.ofBits_zero_f32

theorem zero3_apply (i : Cert.ReferenceIdeal.S3200000x32.Idx) : val_main_call3_v0 (F := Ideal) i = 0 := by
  rw [val_main_call3_v0_apply, val_main_call3_cst_apply]
  exact Ideal.ofBits_zero_f32

/-! ## The index maps of the three contractions -/

theorem lidx101 (e : Fin 3200000) (l : Fin 32) (c : Fin 4) : lidx_main_v101 (ix2 e l) c = ix2 e c := by
  funext a; match a with | ⟨0, _⟩ => rfl | ⟨1, _⟩ => rfl
theorem ridx101 (e : Fin 3200000) (l : Fin 32) (c : Fin 4) : ridx_main_v101 (ix2 e l) c = ix2 c l := by
  funext a; match a with | ⟨0, _⟩ => rfl | ⟨1, _⟩ => rfl
theorem lidx107 (e : Fin 3200000) (k : Fin 32) (l : Fin 32) : lidx_main_v107 (ix2 e k) l = ix2 e l := by
  funext a; match a with | ⟨0, _⟩ => rfl | ⟨1, _⟩ => rfl
theorem ridx107 (e : Fin 3200000) (k : Fin 32) (l : Fin 32) : ridx_main_v107 (ix2 e k) l = ix2 l k := by
  funext a; match a with | ⟨0, _⟩ => rfl | ⟨1, _⟩ => rfl
theorem lidx113 (e : Fin 3200000) (q : Fin 4) (k : Fin 32) : lidx_main_v113 (ix2 e q) k = ix2 e k := by
  funext a; match a with | ⟨0, _⟩ => rfl | ⟨1, _⟩ => rfl
theorem ridx113 (e : Fin 3200000) (q : Fin 4) (k : Fin 32) : ridx_main_v113 (ix2 e q) k = ix2 k q := by
  funext a; match a with | ⟨0, _⟩ => rfl | ⟨1, _⟩ => rfl

/-! ## The three layers -/

/-- The first layer before the bias: the sum over the four joined columns is the sum over the target row's two against
    the first half of the weight plus the sum over the difference's two against the second half. -/
theorem v101_eq (e : Fin 3200000) (l : Fin 32) :
    val_main_v101 (F := Ideal) x eps g b w1 b1 w2 b2 wm bm wv bv d1 ei (ix2 e l)
      = (∑ j : Fin 2, val_main_v90 (F := Ideal) x eps g b w1 b1 w2 b2 wm bm wv bv ei (ix2 e j) * dw1iK d1 (ix2 j l))
        + (∑ j : Fin 2, (val_main_v97 (F := Ideal) x eps g b w1 b1 w2 b2 wm bm wv bv ei (ix2 e j)
            - val_main_v90 (F := Ideal) x eps g b w1 b1 w2 b2 wm bm wv bv ei (ix2 e j)) * dw1jK d1 (ix2 j l)) := by
  rw [val_main_v101_apply, Fin.sum_univ_four, Fin.sum_univ_two, Fin.sum_univ_two]
  simp only [lidx101, ridx101]
  rw [v99_left x eps g b w1 b1 w2 b2 wm bm wv bv ei e 0 0 rfl, v99_left x eps g b w1 b1 w2 b2 wm bm wv bv ei e 1 1 rfl,
    v99_right x eps g b w1 b1 w2 b2 wm bm wv bv ei e 0 2 rfl, v99_right x eps g b w1 b1 w2 b2 wm bm wv bv ei e 1 3 rfl,
    w1i_apply d1 0 l 0 rfl, w1i_apply d1 1 l 1 rfl, w1j_apply d1 0 l 2 rfl, w1j_apply d1 1 l 3 rfl]
  exact add_assoc _ _ _

/-- The reference's first hidden layer is the kernel's, of the gathered rows. -/
theorem hid1_eq (e : Fin 3200000) (l : Fin 32) :
    val_main_v105 (F := Ideal) x eps g b w1 b1 w2 b2 wm bm wv bv d1 c1 ei (ix2 e l)
      = decHid1 (val_main_v90 (F := Ideal) x eps g b w1 b1 w2 b2 wm bm wv bv ei) (val_main_v97 (F := Ideal) x eps g b w1 b1 w2 b2 wm bm wv bv ei)
          (dw1iK d1) (dw1jK d1) (row32K c1) e l := by
  rw [val_main_v105_apply, val_main_v104_apply, v101_eq, bias1_apply, zero2_apply]
  -- the two gathered tables enter only as atoms
  generalize val_main_v90 (F := Ideal) x eps g b w1 b1 w2 b2 wm bm wv bv ei = zi
  generalize val_main_v97 (F := Ideal) x eps g b w1 b1 w2 b2 wm bm wv bv ei = zj
  rfl

/-- The reference's second hidden layer is the kernel's. -/
theorem hid2_eq (e : Fin 3200000) (k : Fin 32) :
    val_main_v111 (F := Ideal) x eps g b w1 b1 w2 b2 wm bm wv bv d1 c1 d2 c2 ei (ix2 e k)
      = decHid2 (val_main_v90 (F := Ideal) x eps g b w1 b1 w2 b2 wm bm wv bv ei) (val_main_v97 (F := Ideal) x eps g b w1 b1 w2 b2 wm bm wv bv ei)
          (dw1iK d1) (dw1jK d1) (row32K c1) (tr32K d2) (row32K c2) e k := by
  rw [val_main_v111_apply, val_main_v110_apply, val_main_v107_apply, bias2_apply, zero3_apply]
  simp only [lidx107, ridx107, hid1_eq]
  generalize val_main_v90 (F := Ideal) x eps g b w1 b1 w2 b2 wm bm wv bv ei = zi
  generalize val_main_v97 (F := Ideal) x eps g b w1 b1 w2 b2 wm bm wv bv ei = zj
  rfl

/-- The reference's decoder messages are the kernel's message function of the gathered rows. -/
theorem msg_eq :
    val_main_v116 (F := Ideal) x eps g b w1 b1 w2 b2 wm bm wv bv d1 c1 d2 c2 d3 c3 ei
      = decMsg (val_main_v90 (F := Ideal) x eps g b w1 b1 w2 b2 wm bm wv bv ei) (val_main_v97 (F := Ideal) x eps g b w1 b1 w2 b2 wm bm wv bv ei)
          (dw1iK d1) (dw1jK d1) (row32K c1) (tr32K d2) (row32K c2) (tr3K d3) (row4K c3) := by
  funext i
  obtain ⟨e, q, rfl⟩ : ∃ e q, i = ix2 e q := ⟨i 0, i 1, eq_ix2 i⟩
  rw [val_main_v116_apply, val_main_v113_apply, bias3_apply]
  simp only [lidx113, ridx113, hid2_eq]
  generalize val_main_v90 (F := Ideal) x eps g b w1 b1 w2 b2 wm bm wv bv ei = zi
  generalize val_main_v97 (F := Ideal) x eps g b w1 b1 w2 b2 wm bm wv bv ei = zj
  rfl

/-- The reference's decoder message array is the kernel's, of the same latent table. -/
theorem dec_eq (hg : Good x g b ei) :
    Cert.ReferenceIdeal.Read.val_main_v116 (F := Ideal) x eps g b w1 b1 w2 b2 wm bm wv bv d1 c1 d2 c2 d3 c3 ei
      = decK (Cert.ReferenceIdeal.Read.val_main_v83 (F := Ideal) x eps g b w1 b1 w2 b2 wm bm wv bv ei) d1 c1 d2 c2 d3 c3 ei := by
  rw [msg_eq, zi_eq x eps g b w1 b1 w2 b2 wm bm wv bv ei hg, zj_eq x eps g b w1 b1 w2 b2 wm bm wv bv ei hg]
  generalize val_main_v83 (F := Ideal) x eps g b w1 b1 w2 b2 wm bm wv bv ei = z
  rfl

end Cert.RefDec

end
-- ==== Proof.Bridge.lean ====
/-
  The kernel program's three result functions are the reference's. The two programs share, operation for operation,
  the mean aggregation over incoming edges (a scatter-add of per-edge rows divided by the floored count): those stretches
  are the same function applied to per-edge arrays, so the equality of the results follows from the equality of the
  per-edge arrays (the encoder's and the decoder's messages) and of the node stage.
-/
import proofs.«417863_j7456063226141_3_alg».proof.Proof.ReadP
import proofs.«417863_j7456063226141_3_alg».proof.Proof.KTerms
import proofs.«417863_j7456063226141_3_alg».proof.Proof.Spec
import proofs.«417863_j7456063226141_3_alg».proof.Proof.LibRows
import proofs.«417863_j7456063226141_3_alg».proof.Proof.LibSums
import proofs.«417863_j7456063226141_3_alg».proof.Proof.RefEnc
import proofs.«417863_j7456063226141_3_alg».proof.Proof.RefNode
import proofs.«417863_j7456063226141_3_alg».proof.Proof.RefDec
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

open scoped BigOperators

namespace Cert.Bridge

open Idealize.ShloMosaic Idealize.ShloMosaic.ValueIdx
open Cert.KernelIdeal.KTerms Cert.Vae

variable (x : FVec Ideal Cert.KernelIdeal.S100000x4 .f32) (eps : FVec Ideal Cert.KernelIdeal.S100000x2 .f32) (g b : FVec Ideal Cert.KernelIdeal.S4 .f32) (w1 : FVec Ideal Cert.KernelIdeal.S32x8 .f32) (b1 : FVec Ideal Cert.KernelIdeal.S32 .f32)
    (w2 : FVec Ideal Cert.KernelIdeal.S32x32 .f32) (b2 : FVec Ideal Cert.KernelIdeal.S32 .f32) (wm : FVec Ideal Cert.KernelIdeal.S2x32 .f32) (bm : FVec Ideal Cert.KernelIdeal.S2 .f32) (wv : FVec Ideal Cert.KernelIdeal.S2x32 .f32) (bv : FVec Ideal Cert.KernelIdeal.S2 .f32)
    (d1 : FVec Ideal Cert.KernelIdeal.S32x4 .f32) (c1 : FVec Ideal Cert.KernelIdeal.S32 .f32) (d2 : FVec Ideal Cert.KernelIdeal.S32x32 .f32) (c2 : FVec Ideal Cert.KernelIdeal.S32 .f32) (d3 : FVec Ideal Cert.KernelIdeal.S4x32 .f32) (c3 : FVec Ideal Cert.KernelIdeal.S4 .f32)
    (ei : IVec Cert.KernelIdeal.S2x3200000 32)

/-- The reference's aggregated node features are the mean aggregation of its encoder messages. -/
theorem h_eq :
    Cert.ReferenceIdeal.Read.val_main_v68 (F := Ideal) x g b w1 b1 w2 b2 ei
      = agg32K (dstK ei) (Cert.ReferenceIdeal.Read.val_main_v56 (F := Ideal) x g b w1 b1 w2 b2 ei) := by
  unfold Cert.ReferenceIdeal.Read.val_main_v68 Cert.ReferenceIdeal.Read.val_main_v59 Cert.ReferenceIdeal.Read.val_main_v67 Cert.ReferenceIdeal.Read.val_main_v66 Cert.ReferenceIdeal.Read.val_main_v65 Cert.ReferenceIdeal.Read.val_main_v64 Cert.ReferenceIdeal.Read.val_main_cst_10 Cert.ReferenceIdeal.Read.val_main_v63 Cert.ReferenceIdeal.Read.val_main_v62 Cert.ReferenceIdeal.Read.val_main_v61 Cert.ReferenceIdeal.Read.val_main_cst_9 Cert.ReferenceIdeal.Read.val_main_v60 Cert.ReferenceIdeal.Read.val_main_cst_8 Cert.ReferenceIdeal.Read.val_main_v58 Cert.ReferenceIdeal.Read.val_main_v57 Cert.ReferenceIdeal.Read.val_main_cst_7 Cert.ReferenceIdeal.Read.val_main_v3 Cert.ReferenceIdeal.Read.val_main_v2
    agg32K cntK colK dstK
  rfl

/-- The reference's reconstruction is the mean aggregation of its decoder messages. -/
theorem out_eq :
    Cert.ReferenceIdeal.Read.val_main_v128 (F := Ideal) x eps g b w1 b1 w2 b2 wm bm wv bv d1 c1 d2 c2 d3 c3 ei
      = agg4K (dstK ei) (Cert.ReferenceIdeal.Read.val_main_v116 (F := Ideal) x eps g b w1 b1 w2 b2 wm bm wv bv d1 c1 d2 c2 d3 c3 ei) := by
  unfold Cert.ReferenceIdeal.Read.val_main_v128 Cert.ReferenceIdeal.Read.val_main_v119 Cert.ReferenceIdeal.Read.val_main_v127 Cert.ReferenceIdeal.Read.val_main_v126 Cert.ReferenceIdeal.Read.val_main_v125 Cert.ReferenceIdeal.Read.val_main_v124 Cert.ReferenceIdeal.Read.val_main_cst_19 Cert.ReferenceIdeal.Read.val_main_v123 Cert.ReferenceIdeal.Read.val_main_v122 Cert.ReferenceIdeal.Read.val_main_v121 Cert.ReferenceIdeal.Read.val_main_cst_18 Cert.ReferenceIdeal.Read.val_main_v120 Cert.ReferenceIdeal.Read.val_main_cst_17 Cert.ReferenceIdeal.Read.val_main_v118 Cert.ReferenceIdeal.Read.val_main_v117 Cert.ReferenceIdeal.Read.val_main_cst_16 Cert.ReferenceIdeal.Read.val_main_v3 Cert.ReferenceIdeal.Read.val_main_v2
    agg4K cntK colK dstK
  rfl

/-- The mean heads agree. -/
theorem mu_bridge (hg : Good x g b ei) :
    muK x g b w1 b1 w2 b2 wm bm ei = Cert.ReferenceIdeal.Read.val_main_v73 (F := Ideal) x g b w1 b1 w2 b2 wm bm ei := by
  rw [Cert.RefNode.mu_eq, h_eq, Cert.RefEnc.enc_eq x g b w1 b1 w2 b2 ei hg]
  rfl

/-- The log-variance heads agree. -/
theorem lv_bridge (hg : Good x g b ei) :
    lvK x g b w1 b1 w2 b2 wv bv ei = Cert.ReferenceIdeal.Read.val_main_v78 (F := Ideal) x g b w1 b1 w2 b2 wv bv ei := by
  rw [Cert.RefNode.lv_eq, h_eq, Cert.RefEnc.enc_eq x g b w1 b1 w2 b2 ei hg]
  rfl

/-- The latent tables agree. -/
theorem z_bridge (hg : Good x g b ei) :
    zK x eps g b w1 b1 w2 b2 wm bm wv bv ei = Cert.ReferenceIdeal.Read.val_main_v83 (F := Ideal) x eps g b w1 b1 w2 b2 wm bm wv bv ei := by
  rw [Cert.RefNode.z_eq, h_eq, Cert.RefEnc.enc_eq x g b w1 b1 w2 b2 ei hg]
  rfl

/-- The reconstructions agree. -/
theorem out_bridge (hg : Good x g b ei) :
    outK (zK x eps g b w1 b1 w2 b2 wm bm wv bv ei) d1 c1 d2 c2 d3 c3 ei = Cert.ReferenceIdeal.Read.val_main_v128 (F := Ideal) x eps g b w1 b1 w2 b2 wm bm wv bv d1 c1 d2 c2 d3 c3 ei := by
  rw [out_eq, Cert.RefDec.dec_eq x eps g b w1 b1 w2 b2 wm bm wv bv d1 c1 d2 c2 d3 c3 ei hg, ← z_bridge x eps g b w1 b1 w2 b2 wm bm wv bv ei hg]
  rfl

end Cert.Bridge

end
-- ==== Proof.PreFacts.lean ====
/-
  What the precondition says, decoded: the printed predicate is the conjunction, input by input, of "every entry's
  absolute value is below +∞" for the float inputs, and of "every entry is ≥ 0" and "every entry is < 100000" (signed)
  for the edge list; an extended real whose absolute value is below +∞ is a real number.
-/
import proofs.«417863_j7456063226141_3_alg».proof.Defs
import proofs.«417863_j7456063226141_3_alg».proof.Proof.Gen.Pre_finite_inputs
import proofs.«417863_j7456063226141_3_alg».proof.Proof.Spec
import Idealize.ShloMosaic.PureOps.Ideal
import Idealize.ShloMosaic.Lib.ValueIdx
import Idealize.ShloMosaic.Lib.ReduceAll
import Idealize.ShloMosaic.Lib.StableHlo.Predicate

noncomputable section

namespace Cert.PreFacts

open Idealize.ShloMosaic Idealize.SL.Sem Idealize.ShloMosaic.ValueIdx
open Cert.Pre_finite_inputs

/-- The scalar shape has one index. -/
instance : Subsingleton S_.Idx := ⟨fun a b => funext fun d => d.elim0⟩

/-- Every entry of an array of extended reals is a real number. -/
def AllReal {s : Shape} (x : FVec Ideal s .f32) : Prop := ∀ i, ∃ r : ℝ, x i = (r : EReal)

/-- An extended real whose absolute value `max x (-x)` lies strictly below the word of +∞ is a real number:
    at `⊤` and at `⊥` the absolute value is `⊤` itself. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | coe r => exact ⟨r, rfl⟩
  | top => exact absurd h (by simp [Ideal.cmp])

/-- One float conjunct of the predicate: the and-reduction over all axes of `|x| < +∞` is 1 only if every entry of `x`
    is real. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf (F := Ideal) x) (broadcastInDim s ![] hb (constant (F := Ideal) S_ .f32 0x7F800000#32)))
      (constantI S_ 1 1#1) hr hu ix0 = 1#1) : AllReal x :=
  fun i => real_of_abs_lt (x i) (Host.reduce_andi_all _ _ hr hu ix0 e i)

/-- The lower integer conjunct: the and-reduction of `0 ≤ a` (signed) is 1 only if every entry is nonnegative. -/
theorem all_nonneg {s : Shape} {axes : List (Fin s.rank)} (a : IVec s 32)
    (hb : S_.BroadcastsInDim s (![] : Fin 0 → Fin s.rank)) (hr : s.ReducesTo axes S_) (hu : 0 < S_.numel)
    (e : Host.reduce IntOp.andi (cmpi .sge a (broadcastInDim s ![] hb (constantI S_ 32 0#32))) (constantI S_ 1 1#1) hr hu ix0 = 1#1)
    (i : s.Idx) : 0 ≤ (a i).toInt := by
  have h1 : IntOp.cmpi .sge (a i) 0#32 = 1#1 := Host.reduce_andi_all _ _ hr hu ix0 e i
  have h2 := IntOp.cmpi_sge.1 h1
  rwa [show (0#32 : BitVec 32).toInt = 0 from by decide] at h2

/-- The upper integer conjunct: the and-reduction of `a < 100000` (signed) is 1 only if every entry is below 100000. -/
theorem all_below {s : Shape} {axes : List (Fin s.rank)} (a : IVec s 32)
    (hb : S_.BroadcastsInDim s (![] : Fin 0 → Fin s.rank)) (hr : s.ReducesTo axes S_) (hu : 0 < S_.numel)
    (e : Host.reduce IntOp.andi (cmpi .slt a (broadcastInDim s ![] hb (constantI S_ 32 100000#32))) (constantI S_ 1 1#1) hr hu ix0 = 1#1)
    (i : s.Idx) : (a i).toInt < 100000 := by
  have h1 : IntOp.cmpi .slt (a i) 100000#32 = 1#1 := Host.reduce_andi_all _ _ hr hu ix0 e i
  have h2 := IntOp.cmpi_slt.1 h1
  rwa [show (100000#32 : BitVec 32).toInt = 100000 from by decide] at h2

/-- The printed predicate split into its twenty facts: it is a left-nested conjunction, one and-reduction per float
    input and two for the edge list. -/
theorem facts_of_fn (a0 : FVec Ideal S100000x4 .f32) (a1 : FVec Ideal S100000x2 .f32) (a2 a3 : FVec Ideal S4 .f32)
    (a4 : FVec Ideal S32x8 .f32) (a5 : FVec Ideal S32 .f32) (a6 : FVec Ideal S32x32 .f32) (a7 : FVec Ideal S32 .f32)
    (a8 : FVec Ideal S2x32 .f32) (a9 : FVec Ideal S2 .f32) (a10 : FVec Ideal S2x32 .f32) (a11 : FVec Ideal S2 .f32)
    (a12 : FVec Ideal S32x4 .f32) (a13 : FVec Ideal S32 .f32) (a14 : FVec Ideal S32x32 .f32) (a15 : FVec Ideal S32 .f32)
    (a16 : FVec Ideal S4x32 .f32) (a17 : FVec Ideal S4 .f32) (a18 : IVec S2x3200000 32)
    (h : fn (F := Ideal) a0 a1 a2 a3 a4 a5 a6 a7 a8 a9 a10 a11 a12 a13 a14 a15 a16 a17 a18 ix0 = 1#1) :
    AllReal a0 ∧ AllReal a1 ∧ AllReal a2 ∧ AllReal a3 ∧ AllReal a4 ∧ AllReal a5 ∧ AllReal a6 ∧ AllReal a7 ∧ AllReal a8
      ∧ AllReal a9 ∧ AllReal a10 ∧ AllReal a11 ∧ AllReal a12 ∧ AllReal a13 ∧ AllReal a14 ∧ AllReal a15 ∧ AllReal a16
      ∧ AllReal a17 ∧ (∀ i, 0 ≤ (a18 i).toInt) ∧ (∀ i, (a18 i).toInt < 100000) := by
  dsimp only [fn, fn_part1, fn_part2, fn_part3, fn_part4, fn_part5, Idealize.ShloMosaic.andi] at h
  simp only [IntOp.andi_eq_one] at h
  obtain ⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩, h17⟩, hge⟩, hlt⟩ := h
  exact ⟨all_real a0 _ _ _ h0, all_real a1 _ _ _ h1, all_real a2 _ _ _ h2, all_real a3 _ _ _ h3, all_real a4 _ _ _ h4,
    all_real a5 _ _ _ h5, all_real a6 _ _ _ h6, all_real a7 _ _ _ h7, all_real a8 _ _ _ h8, all_real a9 _ _ _ h9,
    all_real a10 _ _ _ h10, all_real a11 _ _ _ h11, all_real a12 _ _ _ h12, all_real a13 _ _ _ h13, all_real a14 _ _ _ h14,
    all_real a15 _ _ _ h15, all_real a16 _ _ _ h16, all_real a17 _ _ _ h17, all_nonneg a18 _ _ _ hge, all_below a18 _ _ _ hlt⟩

/-- Under the precondition the node features, γ and β are real and the edge list holds node numbers, on every device. -/
theorem good_of_pre (m : (ℓ : Loc Cert.KernelIdeal.nD Cert.KernelIdeal.τ Cert.KernelIdeal.sig) → Buf (Elt Ideal) ℓ)
    (h : Cert.Pre_KernelIdeal m) (c : Dev Cert.KernelIdeal.nD) :
    Cert.Vae.Good (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg18)) := by
  obtain ⟨h0, -, h2, h3, -, -, -, -, -, -, -, -, -, -, -, -, -, -, hge, hlt⟩ :=
    facts_of_fn _ _ _ _ _ _ _ _ _ _ _ _ _ _ _ _ _ _ _ (congrFun (h c) ix0)
  exact ⟨h0, h2, h3, hge, hlt⟩

end Cert.PreFacts

end
-- ==== Proof.lean ====
/-
  The certificate of the graph variational auto-encoder kernel against its reference, under the precondition that every
  float input is finite and every entry of the edge list is a node number.

  The kernel's program and the word-level program run, and leave their arguments unchanged, by the generated frames; the
  reference runs window by window through its operations. No operation of the kernel was rewritten by the idealisation, so there is nothing to
  preserve. On the extended reals the two programs compute the same three arrays: the kernel's program leaves in its
  result buffers the values its segments fold to, which are three functions of the argument arrays (the reconstruction
  `outK`, the mean head `muK`, the log-variance head `lvK`: each region's output array as one function of the arrays it
  reads, the host operations between them as they are printed); the reference leaves the composed terms of its own
  operations; and those are the same functions of the arguments. The reference normalises the feature table and then
  gathers rows, the kernel gathers raw rows and applies the normalisation folded into a scale and a shift, which is the
  same real number entry by entry because the features and the normalisation's parameters are real; a product with a
  matrix whose rows are a row joined to a difference of rows is the sum of the products with the two halves of the
  matrix; the kernel's row-take is a bare gather where every node number is in range; and everything else is the same
  operation on both sides.
-/
import proofs.«417863_j7456063226141_3_alg».proof.Defs
import proofs.«417863_j7456063226141_3_alg».proof.Proof.Gen.Kernel.Frame
import proofs.«417863_j7456063226141_3_alg».proof.Proof.Gen.KernelIdeal.Frame
import proofs.«417863_j7456063226141_3_alg».proof.Proof.Gen.ReferenceIdeal
import proofs.«417863_j7456063226141_3_alg».proof.Proof.Gen.Pre_finite_inputs
import proofs.«417863_j7456063226141_3_alg».proof.Proof.RefRun
import proofs.«417863_j7456063226141_3_alg».proof.Proof.KernelRun
import proofs.«417863_j7456063226141_3_alg».proof.Proof.KValue
import proofs.«417863_j7456063226141_3_alg».proof.Proof.Bridge
import proofs.«417863_j7456063226141_3_alg».proof.Proof.PreFacts

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Gen.frame m ρ

/-- The kernel's program on the extended reals runs and leaves its arguments unchanged. -/
theorem frame_ki : Cert.frame_KernelIdeal := fun m ρ _ => Cert.KernelIdeal.Gen.frame m ρ

/-- The reference runs and leaves its arguments unchanged: its run with the results dropped. -/
theorem frame_ri : Cert.frame_ReferenceIdeal := fun m ρ _ =>
  (θ_run Cert.ReferenceIdeal.defs _ _).mono (fun _ h c => (h c).2.2.2) (Cert.ReferenceIdeal.RefRun.run_vals (F := Ideal) m ρ)

/-- From memories that agree on the arguments the two programs end with the same three arrays. -/
theorem algebraic : Cert.algebraic_KernelIdeal_ReferenceIdeal := by
  intro m ρ m' ρ' hpre hagree
  refine ⟨fun c => Cert.KernelIdeal.KTerms.outK (Cert.KernelIdeal.KTerms.zK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg18))) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    fun c => Cert.KernelIdeal.KTerms.muK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg18)),
    fun c => Cert.KernelIdeal.KTerms.lvK (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelIdeal.KValue.out_val m ρ c), (h c).2.1.trans (Cert.KernelIdeal.KValue.mu_val m ρ c),
        (h c).2.2.1.trans (Cert.KernelIdeal.KValue.lv_val m ρ c), (h c).2.2.2⟩)
      (Cert.KernelIdeal.KRun.run_results m ρ)
  · refine (θ_run Cert.ReferenceIdeal.defs _ _).mono (fun r h c => ?_) (Cert.ReferenceIdeal.RefRun.run_vals (F := Ideal) m' ρ')
    obtain ⟨h0, h1, h2, hargs⟩ := h c
    obtain ⟨e0, e1, e2, e3, e4, e5, e6, e7, e8, e9, e10, e11, e12, e13, e14, e15, e16, e17, e18⟩ := hagree c
    have hg := Cert.PreFacts.good_of_pre m hpre c
    refine ⟨?_, ?_, ?_, hargs⟩
    · rw [h0, e0, e1, e2, e3, e4, e5, e6, e7, e8, e9, e10, e11, e12, e13, e14, e15, e16, e17, e18]
      exact (Cert.Bridge.out_bridge _ _ _ _ _ _ _ _ _ _ _ _ _ _ _ _ _ _ _ hg).symm
    · rw [h1, e0, e2, e3, e4, e5, e6, e7, e8, e9, e18]
      exact (Cert.Bridge.mu_bridge _ _ _ _ _ _ _ _ _ _ hg).symm
    · rw [h2, e0, e2, e3, e4, e5, e6, e7, e10, e11, e18]
      exact (Cert.Bridge.lv_bridge _ _ _ _ _ _ _ _ _ _ hg).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
